-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S1000000x2 : Shape := ⟨2, ![1000000, 2]⟩
abbrev S1000000 : Shape := ⟨1, ![1000000]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1000000x16 .f32) (main_arg1 : FVec F S1000000x2 .f32) (main_arg2 : IVec S1000000 32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x2 .f32 := Host.absf main_arg1
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg2 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  let main_c_4 : IVec S_ 32 := constantI S_ 32 32#32
  let main_v13 : IVec S1000000 32 := broadcastInDim S1000000 ![] bcast_S_S1000000 main_c_4
  let main_v14 : IVec S1000000 1 := cmpi .slt main_arg2 main_v13
  let main_c_5 : IVec S_ 1 := constantI S_ 1 1#1
  let main_v15 : IVec S_ 1 := (fun x v => Host.reduce IntOp.andi x v reducesTo_S1000000_S_d0 h_S_) main_v14 main_c_5
  fn_part1 (F := F) main_v12 main_v15
-- ==== Kernel.lean ====
abbrev S1000000x16 : Shape := ⟨2, ![1000000, 16]⟩
abbrev S1000000x2 : Shape := ⟨2, ![1000000, 2]⟩
abbrev S1000000 : Shape := ⟨1, ![1000000]⟩
abbrev S_ : Shape := ⟨0, ![]⟩
abbrev S1015808x16 : Shape := ⟨2, ![1015808, 16]⟩
abbrev S1015808x2 : Shape := ⟨2, ![1015808, 2]⟩
abbrev S1015808 : Shape := ⟨1, ![1015808]⟩
abbrev S16x1015808 : Shape := ⟨2, ![16, 1015808]⟩
abbrev S2x1015808 : Shape := ⟨2, ![2, 1015808]⟩
abbrev S1x1015808 : Shape := ⟨2, ![1, 1015808]⟩
abbrev S2x32x18 : Shape := ⟨3, ![2, 32, 18]⟩
abbrev S16x16384 : Shape := ⟨2, ![16, 16384]⟩
abbrev S2x16384 : Shape := ⟨2, ![2, 16384]⟩
abbrev S1x16384 : Shape := ⟨2, ![1, 16384]⟩
abbrev S1x32x18 : Shape := ⟨3, ![1, 32, 18]⟩
abbrev S32x18 : Shape := ⟨2, ![32, 18]⟩
abbrev S32x16384 : Shape := ⟨2, ![32, 16384]⟩
abbrev S18x16384 : Shape := ⟨2, ![18, 16384]⟩
abbrev S32x1 : Shape := ⟨2, ![32, 1]⟩
abbrev S32x16 : Shape := ⟨2, ![32, 16]⟩
abbrev S32 : Shape := ⟨1, ![32]⟩
abbrev S2x1x1 : Shape := ⟨3, ![2, 1, 1]⟩
abbrev S2x32x1 : Shape := ⟨3, ![2, 32, 1]⟩
abbrev S16x8192 : Shape := ⟨2, ![16, 8192]⟩
abbrev S2x8192 : Shape := ⟨2, ![2, 8192]⟩
abbrev S1x8192 : Shape := ⟨2, ![1, 8192]⟩
abbrev S1x1x1 : Shape := ⟨3, ![1, 1, 1]⟩
abbrev S1x32x1 : Shape := ⟨3, ![1, 32, 1]⟩
abbrev S1x1 : Shape := ⟨2, ![1, 1]⟩
abbrev S32x8192 : Shape := ⟨2, ![32, 8192]⟩
abbrev S8192 : Shape := ⟨1, ![8192]⟩
abbrev S1 : Shape := ⟨1, ![1]⟩
abbrev S32x1x16 : Shape := ⟨3, ![32, 1, 16]⟩
abbrev S1x32x16 : Shape := ⟨3, ![1, 32, 16]⟩
abbrev S32x32x16 : Shape := ⟨3, ![32, 32, 16]⟩
abbrev S32x32 : Shape := ⟨2, ![32, 32]⟩

abbrev nBuf : Space → Nat
  | .hbm => 100
  | .vmem => 23
  | .smem => 0
  | _ => 0

abbrev bufTy : (tb : Table) → Fin (tcTables nBuf tb) → BufTy
  | .hbm, ⟨0, _⟩ => ⟨S1000000x16, .f32⟩
  | .hbm, ⟨1, _⟩ => ⟨S1000000x2, .f32⟩
  | .hbm, ⟨2, _⟩ => ⟨S1000000, .i32⟩
  | .hbm, ⟨3, _⟩ => ⟨S_, .i32⟩
  | .hbm, ⟨4, _⟩ => ⟨S_, .f32⟩
  | .hbm, ⟨5, _⟩ => ⟨S1015808x16, .f32⟩
  | .hbm, ⟨6, _⟩ => ⟨S_, .i32⟩
  | .hbm, ⟨7, _⟩ => ⟨S_, .f32⟩
  | .hbm, ⟨8, _⟩ => ⟨S1015808x2, .f32⟩
  | .hbm, ⟨9, _⟩ => ⟨S_, .i32⟩
  | .hbm, ⟨10, _⟩ => ⟨S_, .i32⟩
  | .hbm, ⟨11, _⟩ => ⟨S1015808, .i32⟩
  | .hbm, ⟨12, _⟩ => ⟨S16x1015808, .f32⟩
  | .hbm, ⟨13, _⟩ => ⟨S2x1015808, .f32⟩
  | .hbm, ⟨14, _⟩ => ⟨S1x1015808, .i32⟩
  | .hbm, ⟨15, _⟩ => ⟨S2x32x18, .f32⟩
  | .hbm, ⟨16, _⟩ => ⟨S_, .f32⟩
  | .hbm, ⟨17, _⟩ => ⟨S32x18, .f32⟩
  | .hbm, ⟨18, _⟩ => ⟨S32x1, .f32⟩
  | .hbm, ⟨19, _⟩ => ⟨S32x16, .f32⟩
  | .hbm, ⟨20, _⟩ => ⟨S32x16, .f32⟩
  | .hbm, ⟨21, _⟩ => ⟨S32x16, .f32⟩
  | .hbm, ⟨22, _⟩ => ⟨S32x1, .f32⟩
  | .hbm, ⟨23, _⟩ => ⟨S32x1, .f32⟩
  | .hbm, ⟨24, _⟩ => ⟨S32x16, .f32⟩
  | .hbm, ⟨25, _⟩ => ⟨S_, .f32⟩
  | .hbm, ⟨26, _⟩ => ⟨S32, .f32⟩
  | .hbm, ⟨27, _⟩ => ⟨S32x1, .f32⟩
  | .hbm, ⟨28, _⟩ => ⟨S2x1x1, .f32⟩
  | .hbm, ⟨29, _⟩ => ⟨S2x1x1, .f32⟩
  | .hbm, ⟨30, _⟩ => ⟨S2x32x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S32x1x16, .f32⟩
  | .hbm, ⟨47, _⟩ => ⟨S1x32x16, .f32⟩
  | .hbm, ⟨48, _⟩ => ⟨S32x32x16, .f32⟩
  | .hbm, ⟨49, _⟩ => ⟨S32x32x16, .f32⟩
  | .hbm, ⟨50, _⟩ => ⟨S32x32x16, .f32⟩
  | .hbm, ⟨51, _⟩ => ⟨S32x32x16, .f32⟩
  | .hbm, ⟨52, _⟩ => ⟨S_, .f32⟩
  | .hbm, ⟨53, _⟩ => ⟨S32x32, .f32⟩
  | .hbm, ⟨54, _⟩ => ⟨S32x32, .i32⟩
  | .hbm, ⟨55, _⟩ => ⟨S32x32, .i32⟩
  | .hbm, ⟨56, _⟩ => ⟨S_, .i32⟩
  | .hbm, ⟨57, _⟩ => ⟨S32x32, .i32⟩
  | .hbm, ⟨58, _⟩ => ⟨S32x32, .i32⟩
  | .hbm, ⟨59, _⟩ => ⟨S32x32, .i1⟩
  | .hbm, ⟨60, _⟩ => ⟨S_, .f32⟩
  | .hbm, ⟨61, _⟩ => ⟨S_, .f32⟩
  | .hbm, ⟨62, _⟩ => ⟨S32x32, .f32⟩
  | .hbm, ⟨63, _⟩ => ⟨S32x32, .f32⟩
  | .hbm, ⟨64, _⟩ => ⟨S32x32, .f32⟩
  | .hbm, ⟨65, _⟩ => ⟨S_, .f32⟩
  | .hbm, ⟨66, _⟩ => ⟨S32x32, .f32⟩
  | .hbm, ⟨67, _⟩ => ⟨S32x32, .f32⟩
  | .hbm, ⟨68, _⟩ => ⟨S_, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S_, .f32⟩
  | .hbm, ⟨73, _⟩ => ⟨S_, .f32⟩
  | .hbm, ⟨74, _⟩ => ⟨S32x32, .f32⟩
  | .hbm, ⟨75, _⟩ => ⟨S32x32, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S16x16384, .f32⟩
  | .local _ .vmem, ⟨1, _⟩ => ⟨S16x16384, .f32⟩
  | .local _ .vmem, ⟨2, _⟩ => ⟨S2x16384, .f32⟩
  | .local _ .vmem, ⟨3, _⟩ => ⟨S2x16384, .f32⟩
  | .local _ .vmem, ⟨4, _⟩ => ⟨S1x16384, .i32⟩
  | .local _ .vmem, ⟨5, _⟩ => ⟨S1x16384, .i32⟩
  | .local _ .vmem, ⟨6, _⟩ => ⟨S1x32x18, .f32⟩
  | .local _ .vmem, ⟨7, _⟩ => ⟨S1x32x18, .f32⟩
  | .local _ .vmem, ⟨8, _⟩ => ⟨S16x8192, .f32⟩
  | .local _ .vmem, ⟨9, _⟩ => ⟨S16x8192, .f32⟩
  | .local _ .vmem, ⟨10, _⟩ => ⟨S2x8192, .f32⟩
  | .local _ .vmem, ⟨11, _⟩ => ⟨S2x8192, .f32⟩
  | .local _ .vmem, ⟨12, _⟩ => ⟨S1x8192, .i32⟩
  | .local _ .vmem, ⟨13, _⟩ => ⟨S1x8192, .i32⟩
  | .local _ .vmem, ⟨14, _⟩ => ⟨S32x16, .f32⟩
  | .local _ .vmem, ⟨15, _⟩ => ⟨S32x1, .f32⟩
  | .local _ .vmem, ⟨16, _⟩ => ⟨S32x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x32x1, .f32⟩
  | .local _ .vmem, ⟨22, _⟩ => ⟨S1x32x1, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call3_v0 : Ref sig .tc := ⟨.hbm, 61, rfl⟩
abbrev main_call3_v1 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_cst_17 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_cst_19 : Ref sig .tc := ⟨.hbm, 84, rfl⟩
abbrev main_v51 : Ref sig .tc := ⟨.hbm, 85, rfl⟩
abbrev main_cst_20 : Ref sig .tc := ⟨.hbm, 86, rfl⟩
abbrev main_v52 : Ref sig .tc := ⟨.hbm, 87, rfl⟩
abbrev main_cst_21 : Ref sig .tc := ⟨.hbm, 88, rfl⟩
abbrev main_v53 : Ref sig .tc := ⟨.hbm, 89, rfl⟩
abbrev main_v54 : Ref sig .tc := ⟨.hbm, 90, rfl⟩
abbrev main_cst_22 : Ref sig .tc := ⟨.hbm, 91, rfl⟩
abbrev main_v55 : Ref sig .tc := ⟨.hbm, 92, rfl⟩
abbrev main_v56 : Ref sig .tc := ⟨.hbm, 93, rfl⟩
abbrev main_cst_23 : Ref sig .tc := ⟨.hbm, 94, rfl⟩
abbrev main_v57 : Ref sig .tc := ⟨.hbm, 95, rfl⟩
abbrev main_v58 : Ref sig .tc := ⟨.hbm, 96, rfl⟩
abbrev main_cst_24 : Ref sig .tc := ⟨.hbm, 97, rfl⟩
abbrev main_v59 : Ref sig .tc := ⟨.hbm, 98, rfl⟩
abbrev main_v60 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨2, ![2, 31], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 62], ![false, false]⟩

def cc1_transform_0 (i : grid1.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  pads_S1000000x16_S1015808x16_0158080_000 : S1000000x16.Pads (![0, 0] : Fin 2 → Nat) ![15808, 0] ![0, 0] S1015808x16
  h_S_ : 0 < S_.numel
  pads_S1000000x2_S1015808x2_0158080_000 : S1000000x2.Pads (![0, 0] : Fin 2 → Nat) ![15808, 0] ![0, 0] S1015808x2
  pads_S1000000_S1015808_0158080 : S1000000.Pads (![0] : Fin 1 → Nat) ![15808] ![0] S1015808
  transposes_S1015808x16_S16x1015808_1_0 : S1015808x16.Transposes [1, 0] S16x1015808
  transposes_S1015808x2_S2x1015808_1_0 : S1015808x2.Transposes [1, 0] S2x1015808
  shapeCasts_S1015808_S1x1015808 : S1015808.ShapeCasts S1x1015808
  inb_S1x32x18_S1x32x18_0_0_0 : ∀ a, (![0, 0, 0] : Fin 3 → Nat) a + S1x32x18.size a ≤ S1x32x18.size a
  h_S1x32x18 : 0 < S1x32x18.numel
  shapeCasts_S1x32x18_S32x18 : S1x32x18.ShapeCasts S32x18
  shapeCasts_S32x18_S1x32x18 : S32x18.ShapeCasts S1x32x18
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  iota_S32x16384_d0_w32 : S32x16384.Iotas .tc 32 [0]
  broadcasts_S1x16384_S32x16384 : S1x16384.Broadcasts S32x16384
  natLt_1_32 : 1 < 32
  slices_S2x16384_o1_0_S1x16384 : S2x16384.Slices ![1, 0] S1x16384
  concatenates_S16x16384_S1x16384_S1x16384_S18x16384_d0 : Shape.Concatenates [S16x16384, S1x16384, S1x16384] S18x16384 0
  reducesTo_S2x32x18_S32x18_d0 : S2x32x18.ReducesTo [0] S32x18
  slices_S32x18_S32x1_0_16 : S32x18.Slices ![0, 16] S32x1
  slices_S32x18_S32x16_0_0 : S32x18.Slices ![0, 0] S32x16
  bcast_S32x1_S32x16_0_1 : S32x1.BroadcastsInDim S32x16 (![0, 1] : Fin 2 → Fin S32x16.rank)
  slices_S32x18_S32x1_0_17 : S32x18.Slices ![0, 17] S32x1
  reducesTo_S32x16_S32_d1 : S32x16.ReducesTo [1] S32
  bcast_S32_S32x1_0 : S32.BroadcastsInDim S32x1 (![0] : Fin 1 → Fin S32x1.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x8192_d0_w32 : S32x8192.Iotas .tc 32 [0]
  broadcasts_S1x8192_S32x8192 : S1x8192.Broadcasts S32x8192
  slices_S2x8192_o1_0_S1x8192 : S2x8192.Slices ![1, 0] S1x8192
  reduces_S16x8192_S8192 : S16x8192.Reduces [0] S8192
  shapeCasts_S8192_S1x8192 : S8192.ShapeCasts S1x8192
  bitsLt_bf16_f32 : FTy.bits .bf16 < FTy.bits .f32
  broadcasts_S32x1_S32x8192 : S32x1.Broadcasts S32x8192
  reduces_S32x8192_S8192 : S32x8192.Reduces [0] S8192
  reduces_S1x8192_S1 : S1x8192.Reduces [1] S1
  shapeCasts_S1_S1x1 : S1.ShapeCasts S1x1
  slices_S2x8192_o0_0_S1x8192 : S2x8192.Slices ![0, 0] S1x8192
  reducesTo_S2x1x1_S_d0_1_2 : S2x1x1.ReducesTo [0, 1, 2] S_
  reducesTo_S2x32x1_S32x1_d0 : S2x32x1.ReducesTo [0] S32x1
  reducesTo_S32x1_S_d0_1 : S32x1.ReducesTo [0, 1] S_
  bcast_S32x16_S32x1x16_0_2 : S32x16.BroadcastsInDim S32x1x16 (![0, 2] : Fin 2 → Fin S32x1x16.rank)
  bcast_S32x16_S1x32x16_1_2 : S32x16.BroadcastsInDim S1x32x16 (![1, 2] : Fin 2 → Fin S1x32x16.rank)
  bcast_S32x1x16_S32x32x16_0_1_2 : S32x1x16.BroadcastsInDim S32x32x16 (![0, 1, 2] : Fin 3 → Fin S32x32x16.rank)
  bcast_S1x32x16_S32x32x16_0_1_2 : S1x32x16.BroadcastsInDim S32x32x16 (![0, 1, 2] : Fin 3 → Fin S32x32x16.rank)
  reducesTo_S32x32x16_S32x32_d2 : S32x32x16.ReducesTo [2] S32x32
  bcast_S_S32x32 : S_.BroadcastsInDim S32x32 (![] : Fin 0 → Fin S32x32.rank)
  reducesTo_S32x32_S_d0_1 : S32x32.ReducesTo [0, 1] S_
  shapeCasts_S32x1_S32 : S32x1.ShapeCasts S32
  reducesTo_S32_S_d0 : S32.ReducesTo [0] S_
  dot_S32x16384_S18x16384_S32x18_1_1_0_0_n_n_wf : DotDims.WF S32x16384 S18x16384 S32x18 [1] [1] [0] [0] [] []
  dot_S32x16_S16x8192_S32x8192_1_0_0_1_n_n_wf : DotDims.WF S32x16 S16x8192 S32x8192 [1] [0] [0] [1] [] []
  dot_S32x8192_S1x8192_S32x1_1_1_0_0_n_n_wf : DotDims.WF S32x8192 S1x8192 S32x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x1015808.size a
  hwx0_0 : ∀ i : grid0.Coords, EltTy.bits .f32 = 32 ∨ (Rect.block (s := S16x1015808) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x1015808.size a
  hwx0_1 : ∀ i : grid0.Coords, EltTy.bits .f32 = 32 ∨ (Rect.block (s := S2x1015808) S2x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .i32 = 32 ∨ (Rect.block (s := S1x1015808) S1x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x18.size a ≤ S2x32x18.size a
  hwx0_3 : ∀ i : grid0.Coords, EltTy.bits .f32 = 32 ∨ (Rect.block (s := S2x32x18) S1x32x18.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8192.size a ≤ S16x1015808.size a
  hwx1_0 : ∀ i : grid1.Coords, EltTy.bits .f32 = 32 ∨ (Rect.block (s := S16x1015808) S16x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x8192.size a ≤ S2x1015808.size a
  hwx1_1 : ∀ i : grid1.Coords, EltTy.bits .f32 = 32 ∨ (Rect.block (s := S2x1015808) S2x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x1015808.size a
  hwx1_2 : ∀ i : grid1.Coords, EltTy.bits .i32 = 32 ∨ (Rect.block (s := S1x1015808) S1x8192.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1.size a ≤ S2x1x1.size a
  hwx1_7 : ∀ i : grid1.Coords, EltTy.bits .f32 = 32 ∨ (Rect.block (s := S2x1x1) S1x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32x1.size a ≤ S2x32x1.size a
  hwx1_8 : ∀ i : grid1.Coords, EltTy.bits .f32 = 32 ∨ (Rect.block (s := S2x32x1) S1x32x1.size (cc1_transform_8 i) (hinb1_8 i)).WholeWords (EltTy.packing .f32)

variable [Facts₀]

def dot_S32x16384_S18x16384_S32x18_1_1_0_0_n_n : DotDims S32x16384 S18x16384 S32x18 where
  lhsContracting := [1]
  rhsContracting := [1]
  lhsNonContracting := [0]
  rhsNonContracting := [0]
  lhsBatch := []
  rhsBatch := []
  wf := dot_S32x16384_S18x16384_S32x18_1_1_0_0_n_n_wf
def dot_S32x16_S16x8192_S32x8192_1_0_0_1_n_n : DotDims S32x16 S16x8192 S32x8192 where
  lhsContracting := [1]
  rhsContracting := [0]
  lhsNonContracting := [0]
  rhsNonContracting := [1]
  lhsBatch := []
  rhsBatch := []
  wf := dot_S32x16_S16x8192_S32x8192_1_0_0_1_n_n_wf
def dot_S32x8192_S1x8192_S32x1_1_1_0_0_n_n : DotDims S32x8192 S1x8192 S32x1 where
  lhsContracting := [1]
  rhsContracting := [1]
  lhsNonContracting := [0]
  rhsNonContracting := [0]
  lhsBatch := []
  rhsBatch := []
  wf := dot_S32x8192_S1x8192_S32x1_1_1_0_0_n_n_wf

abbrev win0_0 : Pipeline.Window sig grid0 :=
  Pipeline.Window.ofSpec (Memref.whole main_v3) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x32x18.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S16x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_0) S1x1x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17_1) S1x1x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v17_2) S1x32x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1000000x16 : Shape := ⟨2, ![1000000, 16]⟩
abbrev S1000000x2 : Shape := ⟨2, ![1000000, 2]⟩
abbrev S1000000 : Shape := ⟨1, ![1000000]⟩
abbrev S_ : Shape := ⟨0, ![]⟩
abbrev S32 : Shape := ⟨1, ![32]⟩
abbrev S1000000x1 : Shape := ⟨2, ![1000000, 1]⟩
abbrev S32x16 : Shape := ⟨2, ![32, 16]⟩
abbrev S32x1 : Shape := ⟨2, ![32, 1]⟩
abbrev S1x32 : Shape := ⟨2, ![1, 32]⟩
abbrev S1000000x32 : Shape := ⟨2, ![1000000, 32]⟩
abbrev S16x32 : Shape := ⟨2, ![16, 32]⟩
abbrev S1000000x1x1 : Shape := ⟨3, ![1000000, 1, 1]⟩
abbrev S1 : Shape := ⟨1, ![1]⟩
abbrev S1x1x1 : Shape := ⟨3, ![1, 1, 1]⟩
abbrev S32x1x16 : Shape := ⟨3, ![32, 1, 16]⟩
abbrev S1x32x16 : Shape := ⟨3, ![1, 32, 16]⟩
abbrev S32x32x16 : Shape := ⟨3, ![32, 32, 16]⟩
abbrev S32x32 : Shape := ⟨2, ![32, 32]⟩

abbrev nBuf : Space → Nat
  | .hbm => 180
  | .vmem => 0
  | .smem => 0
  | _ => 0

abbrev hbmTy0_0 (i : Nat) : BufTy := match i % 128 with
  | 0 => ⟨S1000000x16, .f32⟩
  | 1 => ⟨S1000000x2, .f32⟩
  | 2 => ⟨S1000000, .i32⟩
  | 3 => ⟨S_, .f32⟩
  | 4 => ⟨S1000000, .f32⟩
  | 5 => ⟨S_, .f32⟩
  | 6 => ⟨S32, .f32⟩
  | 7 => ⟨S1000000x1, .i32⟩
  | 8 => ⟨S32, .f32⟩
  | 9 => ⟨S_, .f32⟩
  | 10 => ⟨S32x16, .f32⟩
  | 11 => ⟨S1000000x1, .i32⟩
  | 12 => ⟨S32x16, .f32⟩
  | 13 => ⟨S32x1, .f32⟩
  | 14 => ⟨S32x16, .f32⟩
  | 15 => ⟨S32x16, .f32⟩
  | 16 => ⟨S1000000x1, .f32⟩
  | 17 => ⟨S1000000, .f32⟩
  | 18 => ⟨S1000000, .f32⟩
  | 19 => ⟨S_, .f32⟩
  | 20 => ⟨S32, .f32⟩
  | 21 => ⟨S1000000x1, .i32⟩
  | 22 => ⟨S32, .f32⟩
  | 23 => ⟨S32, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .f32⟩
  | 33 => ⟨S1000000, .f32⟩
  | 34 => ⟨S1000000, .f32⟩
  | 35 => ⟨S_, .f32⟩
  | 36 => ⟨S32, .f32⟩
  | 37 => ⟨S1000000x1, .i32⟩
  | 38 => ⟨S32, .f32⟩
  | 39 => ⟨S32, .f32⟩
  | 40 => ⟨S_, .f32⟩
  | 41 => ⟨S_, .f32⟩
  | 42 => ⟨S_, .f32⟩
  | 43 => ⟨S_, .f32⟩
  | 44 => ⟨S1000000x16, .f32⟩
  | 45 => ⟨S_, .f32⟩
  | 46 => ⟨S1000000, .f32⟩
  | 47 => ⟨S32x16, .f32⟩
  | 48 => ⟨S_, .f32⟩
  | 49 => ⟨S32, .f32⟩
  | 50 => ⟨S1000000x1, .f32⟩
  | 51 => ⟨S1x32, .f32⟩
  | 52 => ⟨S1000000x32, .f32⟩
  | 53 => ⟨S1000000x32, .f32⟩
  | 54 => ⟨S1000000x32, .f32⟩
  | 55 => ⟨S16x32, .f32⟩
  | 56 => ⟨S1000000x32, .f32⟩
  | 57 => ⟨S_, .f32⟩
  | 58 => ⟨S1000000x32, .f32⟩
  | 59 => ⟨S1000000x32, .f32⟩
  | 60 => ⟨S1000000x32, .f32⟩
  | 61 => ⟨S_, .f32⟩
  | 62 => ⟨S1000000x32, .f32⟩
  | 63 => ⟨S1000000x32, .f32⟩
  | 64 => ⟨S1000000x32, .f32⟩
  | 65 => ⟨S1x32, .f32⟩
  | 66 => ⟨S_, .f32⟩
  | 67 => ⟨S1x32, .f32⟩
  | 68 => ⟨S1x32, .f32⟩
  | 69 => ⟨S1000000x32, .f32⟩
  | 70 => ⟨S1000000x32, .f32⟩
  | 71 => ⟨S1000000x32, .f32⟩
  | 72 => ⟨S1000000x1, .i32⟩
  | 73 => ⟨S32, .i32⟩
  | 74 => ⟨S1x32, .i32⟩
  | 75 => ⟨S1000000x32, .i32⟩
  | 76 => ⟨S1000000x32, .i32⟩
  | 77 => ⟨S1000000x32, .i1⟩
  | 78 => ⟨S_, .f32⟩
  | 79 => ⟨S1000000x32, .f32⟩
  | 80 => ⟨S1000000x32, .f32⟩
  | 81 => ⟨S1000000x32, .f32⟩
  | 82 => ⟨S1000000x32, .f32⟩
  | 83 => ⟨S_, .f32⟩
  | 84 => ⟨S1000000x32, .f32⟩
  | 85 => ⟨S1000000x32, .f32⟩
  | 86 => ⟨S1000000x32, .f32⟩
  | 87 => ⟨S1000000x32, .f32⟩
  | 88 => ⟨S_, .f32⟩
  | 89 => ⟨S_, .f32⟩
  | 90 => ⟨S_, .f32⟩
  | 91 => ⟨S_, .f32⟩
  | 92 => ⟨S1000000x1, .i32⟩
  | 93 => ⟨S_, .i32⟩
  | 94 => ⟨S1000000x1, .i32⟩
  | 95 => ⟨S1000000x1, .i1⟩
  | 96 => ⟨S_, .i32⟩
  | 97 => ⟨S1000000x1, .i32⟩
  | 98 => ⟨S1000000x1, .i32⟩
  | 99 => ⟨S1000000x1, .i32⟩
  | 100 => ⟨S1000000x1x1, .i32⟩
  | 101 => ⟨S1, .i32⟩
  | 102 => ⟨S_, .i32⟩
  | 103 => ⟨S1000000x1x1, .i32⟩
  | 104 => ⟨S1000000x1x1, .i1⟩
  | 105 => ⟨S1x1x1, .i32⟩
  | 106 => ⟨S1000000x1x1, .i32⟩
  | 107 => ⟨S1000000x1x1, .i1⟩
  | 108 => ⟨S1000000x1x1, .i1⟩
  | 109 => ⟨S_, .i1⟩
  | 110 => ⟨S1000000x1, .i1⟩
  | 111 => ⟨S1000000x1, .f32⟩
  | 112 => ⟨S_, .f32⟩
  | 113 => ⟨S1000000x1, .f32⟩
  | 114 => ⟨S1000000x1, .f32⟩
  | 115 => ⟨S1000000, .f32⟩
  | 116 => ⟨S1000000x1, .f32⟩
  | 117 => ⟨S1000000, .f32⟩
  | 118 => ⟨S1000000, .f32⟩
  | 119 => ⟨S1000000, .f32⟩
  | 120 => ⟨S_, .f32⟩
  | 121 => ⟨S_, .f32⟩
  | 122 => ⟨S_, .f32⟩
  | 123 => ⟨S_, .f32⟩
  | 124 => ⟨S32x1x16, .f32⟩
  | 125 => ⟨S1x32x16, .f32⟩
  | 126 => ⟨S32x32x16, .f32⟩
  | 127 => ⟨S32x32x16, .f32⟩
  | _ => ⟨S1000000x16, .f32⟩

abbrev hbmTy0_1 (i : Nat) : BufTy := match i % 128 with
  | 0 => ⟨S32x32x16, .f32⟩
  | 1 => ⟨S32x32x16, .f32⟩
  | 2 => ⟨S_, .f32⟩
  | 3 => ⟨S32x32, .f32⟩
  | 4 => ⟨S32x32, .i32⟩
  | 5 => ⟨S32x32, .i32⟩
  | 6 => ⟨S_, .i32⟩
  | 7 => ⟨S32x32, .i32⟩
  | 8 => ⟨S32x32, .i32⟩
  | 9 => ⟨S32x32, .i1⟩
  | 10 => ⟨S_, .f32⟩
  | 11 => ⟨S_, .f32⟩
  | 12 => ⟨S32x32, .f32⟩
  | 13 => ⟨S32x32, .f32⟩
  | 14 => ⟨S32x32, .f32⟩
  | 15 => ⟨S_, .f32⟩
  | 16 => ⟨S32x32, .f32⟩
  | 17 => ⟨S32x32, .f32⟩
  | 18 => ⟨S_, .f32⟩
  | 19 => ⟨S32x32, .f32⟩
  | 20 => ⟨S32x32, .f32⟩
  | 21 => ⟨S32x32, .f32⟩
  | 22 => ⟨S_, .f32⟩
  | 23 => ⟨S_, .f32⟩
  | 24 => ⟨S32x32, .f32⟩
  | 25 => ⟨S32x32, .f32⟩
  | 26 => ⟨S_, .f32⟩
  | 27 => ⟨S_, .f32⟩
  | 28 => ⟨S_, .f32⟩
  | 29 => ⟨S_, .f32⟩
  | 30 => ⟨S32x16, .f32⟩
  | 31 => ⟨S_, .f32⟩
  | 32 => ⟨S32, .f32⟩
  | 33 => ⟨S32, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S1000000x16, .f32⟩

abbrev hbmTy (i : Nat) : BufTy := match i / 128 with
  | 0 => hbmTy0_0 i
  | 1 => hbmTy0_1 i
  | _ => ⟨S1000000x16, .f32⟩

abbrev bufTy : (tb : Table) → Fin (tcTables nBuf tb) → BufTy
  | .hbm, ⟨i, _⟩ => hbmTy i
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_cst : Ref sig .tc := ⟨.hbm, 112, rfl⟩
abbrev main_call1_v14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_16 : Ref sig .tc := ⟨.hbm, 120, rfl⟩
abbrev main_v78 : Ref sig .tc := ⟨.hbm, 121, rfl⟩
abbrev main_cst_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_18 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_19 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_20 : Ref sig .tc := ⟨.hbm, 138, rfl⟩
abbrev main_call2_v0 : Ref sig .tc := ⟨.hbm, 139, rfl⟩
abbrev main_call2_v1 : Ref sig .tc := ⟨.hbm, 140, rfl⟩
abbrev main_v92 : Ref sig .tc := ⟨.hbm, 141, rfl⟩
abbrev main_v93 : Ref sig .tc := ⟨.hbm, 142, rfl⟩
abbrev main_cst_21 : Ref sig .tc := ⟨.hbm, 143, rfl⟩
abbrev main_v94 : Ref sig .tc := ⟨.hbm, 144, rfl⟩
abbrev main_v95 : Ref sig .tc := ⟨.hbm, 145, rfl⟩
abbrev main_cst_22 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_23 : Ref sig .tc := ⟨.hbm, 150, rfl⟩
abbrev main_call3_v0 : Ref sig .tc := ⟨.hbm, 151, rfl⟩
abbrev main_call3_v1 : Ref sig .tc := ⟨.hbm, 152, rfl⟩
abbrev main_v99 : Ref sig .tc := ⟨.hbm, 153, rfl⟩
abbrev main_cst_24 : Ref sig .tc := ⟨.hbm, 154, rfl⟩
abbrev main_v100 : Ref sig .tc := ⟨.hbm, 155, rfl⟩
abbrev main_cst_25 : Ref sig .tc := ⟨.hbm, 156, rfl⟩
abbrev main_v101 : Ref sig .tc := ⟨.hbm, 157, rfl⟩
abbrev main_v102 : Ref sig .tc := ⟨.hbm, 158, rfl⟩
abbrev main_cst_26 : Ref sig .tc := ⟨.hbm, 159, rfl⟩
abbrev main_v103 : Ref sig .tc := ⟨.hbm, 160, rfl⟩
abbrev main_v104 : Ref sig .tc := ⟨.hbm, 161, rfl⟩
abbrev main_cst_27 : Ref sig .tc := ⟨.hbm, 162, rfl⟩
abbrev main_v105 : Ref sig .tc := ⟨.hbm, 163, rfl⟩
abbrev main_cst_28 : Ref sig .tc := ⟨.hbm, 164, rfl⟩
abbrev main_v106 : Ref sig .tc := ⟨.hbm, 165, rfl⟩
abbrev main_cst_29 : Ref sig .tc := ⟨.hbm, 166, rfl⟩
abbrev main_v107 : Ref sig .tc := ⟨.hbm, 167, rfl⟩
abbrev main_cst_30 : Ref sig .tc := ⟨.hbm, 168, rfl⟩
abbrev main_v108 : Ref sig .tc := ⟨.hbm, 169, rfl⟩
abbrev main_v109 : Ref sig .tc := ⟨.hbm, 170, rfl⟩
abbrev main_cst_31 : Ref sig .tc := ⟨.hbm, 171, rfl⟩
abbrev main_v110 : Ref sig .tc := ⟨.hbm, 172, rfl⟩
abbrev main_v111 : Ref sig .tc := ⟨.hbm, 173, rfl⟩
abbrev main_cst_32 : Ref sig .tc := ⟨.hbm, 174, rfl⟩
abbrev main_v112 : Ref sig .tc := ⟨.hbm, 175, rfl⟩
abbrev main_v113 : Ref sig .tc := ⟨.hbm, 176, rfl⟩
abbrev main_cst_33 : Ref sig .tc := ⟨.hbm, 177, rfl⟩
abbrev main_v114 : Ref sig .tc := ⟨.hbm, 178, rfl⟩
abbrev main_v115 : Ref sig .tc := ⟨.hbm, 179, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S32 : S_.BroadcastsInDim S32 (![] : Fin 0 → Fin S32.rank)
  bcast_S1000000_S1000000x1_0 : S1000000.BroadcastsInDim S1000000x1 (![0] : Fin 1 → Fin S1000000x1.rank)
  bcast_S_S32x16 : S_.BroadcastsInDim S32x16 (![] : Fin 0 → Fin S32x16.rank)
  bcast_S32_S32x1_0 : S32.BroadcastsInDim S32x1 (![0] : Fin 1 → Fin S32x1.rank)
  bcast_S32x1_S32x16_0_1 : S32x1.BroadcastsInDim S32x16 (![0, 1] : Fin 2 → Fin S32x16.rank)
  slices_S1000000x2_S1000000x1_0_1 : S1000000x2.Slices ![0, 1] S1000000x1
  shapeCasts_S1000000x1_S1000000 : S1000000x1.ShapeCasts S1000000
  reducesTo_S32_S_d0 : S32.ReducesTo [0] S_
  h_S_ : 0 < S_.numel
  reducesTo_S1000000x16_S1000000_d1 : S1000000x16.ReducesTo [1] S1000000
  reducesTo_S32x16_S32_d1 : S32x16.ReducesTo [1] S32
  bcast_S32_S1x32_1 : S32.BroadcastsInDim S1x32 (![1] : Fin 1 → Fin S1x32.rank)
  bcast_S1000000x1_S1000000x32_0_1 : S1000000x1.BroadcastsInDim S1000000x32 (![0, 1] : Fin 2 → Fin S1000000x32.rank)
  bcast_S1x32_S1000000x32_0_1 : S1x32.BroadcastsInDim S1000000x32 (![0, 1] : Fin 2 → Fin S1000000x32.rank)
  transposes_S32x16_S16x32_1_0 : S32x16.Transposes [1, 0] S16x32
  bcast_S_S1000000x32 : S_.BroadcastsInDim S1000000x32 (![] : Fin 0 → Fin S1000000x32.rank)
  bcast_S_S1x32 : S_.BroadcastsInDim S1x32 (![] : Fin 0 → Fin S1x32.rank)
  reducesTo_S1000000x32_S_d0_1 : S1000000x32.ReducesTo [0, 1] S_
  bcast_S_S1000000x1 : S_.BroadcastsInDim S1000000x1 (![] : Fin 0 → Fin S1000000x1.rank)
  shapeCasts_S1000000x1_S1000000x1x1 : S1000000x1.ShapeCasts S1000000x1x1
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  slices_S1000000x2_S1000000x1_0_0 : S1000000x2.Slices ![0, 0] S1000000x1
  reducesTo_S1000000_S_d0 : S1000000.ReducesTo [0] S_
  bcast_S32x16_S32x1x16_0_2 : S32x16.BroadcastsInDim S32x1x16 (![0, 2] : Fin 2 → Fin S32x1x16.rank)
  bcast_S32x16_S1x32x16_1_2 : S32x16.BroadcastsInDim S1x32x16 (![1, 2] : Fin 2 → Fin S1x32x16.rank)
  bcast_S32x1x16_S32x32x16_0_1_2 : S32x1x16.BroadcastsInDim S32x32x16 (![0, 1, 2] : Fin 3 → Fin S32x32x16.rank)
  bcast_S1x32x16_S32x32x16_0_1_2 : S1x32x16.BroadcastsInDim S32x32x16 (![0, 1, 2] : Fin 3 → Fin S32x32x16.rank)
  reducesTo_S32x32x16_S32x32_d2 : S32x32x16.ReducesTo [2] S32x32
  bcast_S_S32x32 : S_.BroadcastsInDim S32x32 (![] : Fin 0 → Fin S32x32.rank)
  reducesTo_S32x32_S_d0_1 : S32x32.ReducesTo [0, 1] S_
  scatter_S32_S1000000x1_S1000000_n_0_0_1_wf : ScatterDims.WF S32 S1000000x1 S1000000 [] [0] [0] 1
  scatter_S32x16_S1000000x1_S1000000x16_1_0_0_1_wf : ScatterDims.WF S32x16 S1000000x1 S1000000x16 [1] [0] [0] 1
  gather_S32_S1000000x1_S1000000_n_0_n_n_0_1_1_wf : GatherDims.WF S32 S1000000x1 S1000000 [] [0] [] [0] [] 1 ![1]
  dot_S1000000x16_S16x32_S1000000x32_1_0_0_1_n_n_wf : DotDims.WF S1000000x16 S16x32 S1000000x32 [1] [0] [0] [1] [] []
  gather_S1000000x32_S1000000x1x1_S1000000x1_n_1_0_0_1_2_11_wf : GatherDims.WF S1000000x32 S1000000x1x1 S1000000x1 [] [1] [0] [1] [0] 2 ![1, 1]

variable [Facts₀]

def scatter_S32_S1000000x1_S1000000_n_0_0_1 : ScatterDims S32 S1000000x1 S1000000 where
  updateWindowDims := []
  insertedWindowDims := [0]
  scatterDimsToOperandDims := [0]
  indexVectorDim := 1
  wf := scatter_S32_S1000000x1_S1000000_n_0_0_1_wf
def scatter_S32x16_S1000000x1_S1000000x16_1_0_0_1 : ScatterDims S32x16 S1000000x1 S1000000x16 where
  updateWindowDims := [1]
  insertedWindowDims := [0]
  scatterDimsToOperandDims := [0]
  indexVectorDim := 1
  wf := scatter_S32x16_S1000000x1_S1000000x16_1_0_0_1_wf
def gather_S32_S1000000x1_S1000000_n_0_n_n_0_1_1 : GatherDims S32 S1000000x1 S1000000 where
  offsetDims := []
  collapsedSliceDims := [0]
  operandBatchingDims := []
  startIndicesBatchingDims := []
  startIndexMap := [0]
  indexVectorDim := 1
  sliceSizes := ![1]
  wf := gather_S32_S1000000x1_S1000000_n_0_n_n_0_1_1_wf
def dot_S1000000x16_S16x32_S1000000x32_1_0_0_1_n_n : DotDims S1000000x16 S16x32 S1000000x32 where
  lhsContracting := [1]
  rhsContracting := [0]
  lhsNonContracting := [0]
  rhsNonContracting := [1]
  lhsBatch := []
  rhsBatch := []
  wf := dot_S1000000x16_S16x32_S1000000x32_1_0_0_1_n_n_wf
def gather_S1000000x32_S1000000x1x1_S1000000x1_n_1_0_0_1_2_11 : GatherDims S1000000x32 S1000000x1x1 S1000000x1 where
  offsetDims := []
  collapsedSliceDims := [1]
  operandBatchingDims := [0]
  startIndicesBatchingDims := [0]
  startIndexMap := [1]
  indexVectorDim := 2
  sliceSizes := ![1, 1]
  wf := gather_S1000000x32_S1000000x1x1_S1000000x1_n_1_0_0_1_2_11_wf

class Facts : Prop extends Facts₀ where

variable [Facts]
-- ==== Proof.Spec.lean ====
/-
  The clustering loss, written once over the extended reals.

  A point n has an embedding x[n, ·] (16 coordinates), two seediness numbers s[n, 0], s[n, 1] and a label
  l[n] among 32 clusters. Everything the loss needs of the points is a sum over the points weighted by the
  indicator of a cluster: the per-cluster sums T[k, e] of the extended feature (the 16 coordinates, the
  constant 1, and v = exp s[n, 1]), from which come the counts, the centroids and the cluster variances; the
  binary cross-entropy of the probability map exp(−D²/2σ²) against the indicator; the squared error of the
  point's own probability against s[n, 0]; and the per-cluster squared deviation of v from the cluster variance.

  The terms of one point are functions of that point's data and of the cluster statistics alone; the totals are
  their sums over the points. A second family reads the data at a natural number past the last point as the
  padding one program appends (zero coordinates, zero seediness, label −1): a padded point has no cluster and is
  not valid, so it adds zero to every total.
-/
import Idealize.ShloMosaic.PureOps.Ideal
import Idealize.ShloMosaic.Lib.ValueIdx

noncomputable section

namespace Cert.Spec

open Idealize.ShloMosaic Idealize.ShloMosaic.ValueIdx

/-- The number of points. -/
abbrev NP : Nat := 1000000

abbrev XF : Shape := ⟨2, ![1000000, 16]⟩
abbrev XS : Shape := ⟨2, ![1000000, 2]⟩
abbrev XL : Shape := ⟨1, ![1000000]⟩

/-- The literals both programs carry, as the words they print. -/
abbrev two : EReal := Ideal.ofBits .f32 0x40000000#32
abbrev negHundred : EReal := Ideal.ofBits .f32 0xC2C80000#32

/-! ## One point against the cluster statistics -/

/-- The indicator of "label a names cluster k". -/
def hotI (a : Int) (k : Fin 32) : EReal := if a = (k.val : Int) then 1 else 0

/-- The indicator of "label a is not the padding's". -/
def validI (a : Int) : EReal := if 0 ≤ a then 1 else 0

/-- The extended feature of a point: its 16 coordinates, then 1, then v = exp s₁. -/
def extF (xr : Fin 16 → EReal) (s1 : EReal) (e : Fin 18) : EReal :=
  if h : e.val < 16 then xr ⟨e.val, h⟩ else if e.val = 16 then 1 else Ideal.exp s1

section Point

variable (cmA : Fin 32 → Fin 16 → EReal) (vrA m2A : Fin 32 → EReal)

/-- The squared norm of a point. -/
def f2 (xr : Fin 16 → EReal) : EReal := ∑ d : Fin 16, xr d * xr d

/-- The inner product of centroid k and a point. -/
def cross (xr : Fin 16 → EReal) (k : Fin 32) : EReal := ∑ d : Fin 16, cmA k d * xr d

/-- The log-probability of a point under cluster k: −max(|x|² + |μ|² − 2⟨μ, x⟩, 0) / (2σ²). -/
def lgP (xr : Fin 16 → EReal) (k : Fin 32) : EReal :=
  Ideal.div (-(max ((f2 xr + m2A k) - two * cross cmA xr k) 0)) (two * vrA k)

/-- The probability of a point under cluster k. -/
def pr (xr : Fin 16 → EReal) (k : Fin 32) : EReal := Ideal.exp (lgP cmA vrA m2A xr k)

/-- The clamped binary cross-entropy term of a point with label a against cluster k. -/
def bce (xr : Fin 16 → EReal) (a : Int) (k : Fin 32) : EReal :=
  -(if a = (k.val : Int) then max (lgP cmA vrA m2A xr k) negHundred
    else max (Ideal.log1p (-(pr cmA vrA m2A xr k))) negHundred)

/-- The cross-entropy of a point, summed over the clusters. -/
def rowB (xr : Fin 16 → EReal) (a : Int) : EReal := ∑ k : Fin 32, bce cmA vrA m2A xr a k

/-- The probability of a point under its own cluster, as an indicator-weighted sum. -/
def st (xr : Fin 16 → EReal) (a : Int) : EReal := ∑ k : Fin 32, pr cmA vrA m2A xr k * hotI a k

/-- The squared seediness error of a point. -/
def serr (xr : Fin 16 → EReal) (s0 : EReal) (a : Int) : EReal :=
  (st cmA vrA m2A xr a - s0) * (st cmA vrA m2A xr a - s0)

/-- The variance of a point's own cluster, as an indicator-weighted sum. -/
def vcp (a : Int) : EReal := ∑ k : Fin 32, hotI a k * vrA k

/-- The squared deviation of v from the point's cluster variance. -/
def sqd (s1 : EReal) (a : Int) : EReal := (Ideal.exp s1 - vcp vrA a) * (Ideal.exp s1 - vcp vrA a)

end Point

/-! ## The data of point n, and the totals -/

section Defs

variable (x : XF.Idx → EReal) (s : XS.Idx → EReal) (l : XL.Idx → BitVec 32)

/-- The label of point n, read signed. -/
def lab (n : Fin NP) : Int := (l (ix1 n)).toInt

/-- Every label names one of the 32 clusters. -/
def LabelsOK : Prop := ∀ n : Fin NP, 0 ≤ lab l n ∧ lab l n < 32

/-- The coordinates of point n. -/
def xrow (n : Fin NP) : Fin 16 → EReal := fun d => x (ix2 n d)

/-- The per-cluster sums of the extended feature. -/
def T (k : Fin 32) (e : Fin 18) : EReal := ∑ n : Fin NP, hotI (lab l n) k * extF (xrow x n) (s (ix2 n 1)) e

/-- The number of points of cluster k. -/
def cnt (k : Fin 32) : EReal := T x s l k 16

/-- The centroid of cluster k. -/
def cmS (k : Fin 32) (d : Fin 16) : EReal := Ideal.div (T x s l k ⟨d.val, by omega⟩) (cnt x s l k)

/-- The variance of cluster k: the mean of v over its points. -/
def vrS (k : Fin 32) : EReal := Ideal.div (T x s l k 17) (cnt x s l k)

/-- The squared norm of centroid k. -/
def m2S (k : Fin 32) : EReal := ∑ d : Fin 16, cmS x s l k d * cmS x s l k d

/-- The total cross-entropy. -/
def B : EReal := ∑ n : Fin NP, rowB (cmS x s l) (vrS x s l) (m2S x s l) (xrow x n) (lab l n)

/-- The total squared seediness error. -/
def Sd : EReal := ∑ n : Fin NP, serr (cmS x s l) (vrS x s l) (m2S x s l) (xrow x n) (s (ix2 n 0)) (lab l n)

/-- The per-cluster sum of the squared deviations. -/
def Q (k : Fin 32) : EReal := ∑ n : Fin NP, hotI (lab l n) k * sqd (vrS x s l) (s (ix2 n 1)) (lab l n)

/-! ### The data read at a natural number: the points, then the padding -/

def xrowP (n : Nat) : Fin 16 → EReal := fun d => if h : n < NP then x (ix2 ⟨n, h⟩ d) else 0
def s0P (n : Nat) : EReal := if h : n < NP then s (ix2 ⟨n, h⟩ 0) else 0
def s1P (n : Nat) : EReal := if h : n < NP then s (ix2 ⟨n, h⟩ 1) else 0
def labP (n : Nat) : Int := if h : n < NP then lab l ⟨n, h⟩ else -1

end Defs

end Cert.Spec

end
-- ==== Proof.KPay0.lean ====
/-
  The first region's body as a function of its loads, read at an index.

  The block of 16384 points enters as three arrays: the coordinates (16 rows), the seediness (2 rows) and the labels
  (1 row). The body forms the 32 × 16384 indicator of "label = cluster", stacks the coordinates, a row of ones and
  the row v = exp s₁ into an 18 × 16384 array, contracts the two over the points, and adds the 32 × 18 result to
  what the output block held: entry (k, e) grows by the sum over the block's points of indicator · extended feature.
-/
import proofs.«401601_j38319698215236_3_alg».proof.Proof.Gen.KernelIdeal.Skeleton
import proofs.«401601_j38319698215236_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Val

open Cert.KernelIdeal Cert.KernelIdeal.Gen Idealize.ShloMosaic Idealize.ShloMosaic.ValueIdx Cert.Spec

/-- A 32-bit word is the word of a cluster number exactly when its signed reading is that number. -/
theorem k0_word_eq_iff (w : BitVec 32) (k : Fin 32) : w = BitVec.ofNat 32 k.val ↔ w.toInt = (k.val : Int) := by
  have hk : (BitVec.ofNat 32 k.val).toInt = (k.val : Int) := by revert k; decide
  constructor
  · rintro rfl; exact hk
  · intro h; exact BitVec.eq_of_toInt_eq (h.trans hk.symm)

/-- The bit of an equality test, widened and converted, is the indicator of the equality. -/
theorem k0_hot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [e, if_pos h]
    have : (BitVec.setWidth 32 1#1).toInt = 1 := by decide
    rw [this]; norm_num
  · have e : IntOp.cmpi .eq a b = 0#1 := by
      have : (a == b) = false := by simpa using h
      simp [IntOp.cmpi, this]
    rw [e, if_neg h]
    have : (BitVec.setWidth 32 0#1).toInt = 0 := by decide
    rw [this]; norm_num

/-- The block the reset stores is zero. -/
theorem k0_pay1_apply (i : S1x32x18.Idx) : (k0_pay1 (F := Ideal)) i = 0 := by
  unfold k0_pay1
  refine (shapeCast_addUnit_apply ![32, 18] _ shapeCasts_S32x18_S1x32x18 i).trans ?_
  exact Ideal.ofBits_zero_f32

/-- The indicator array at (k, j): the indicator of "the label of point j, read signed, is k". -/
theorem k0_onehot_apply (v7 : Vec Ideal S1x16384 .i32) (k : Fin 32) (j : Fin 16384) :
    (sitofp (F := Ideal) FTy.f32
      (extui 32
        (cmpi CmpIPredicate.eq
          (broadcastTo S32x16384 (shapeCast S1x16384 v7 shapeCasts_S1x16384_S1x16384) broadcasts_S1x16384_S32x16384)
          (iota Kind.tc S32x16384 32 [0] iota_S32x16384_d0_w32))
        natLt_1_32)) (ix2 k j) = hotI (v7 (ix2 0 j)).toInt k := by
  rw [shapeCast_self]
  have hb : broadcastTo S32x16384 v7 broadcasts_S1x16384_S32x16384 (ix2 k j) = v7 (ix2 0 j) :=
    broadcastTo_apply v7 broadcasts_S1x16384_S32x16384 (ix2 k j) (ix2 0 j) (fun a => match a with
      | ⟨0, _⟩ => by show 0 = if (1 : Nat) = 1 then 0 else _; rw [if_pos rfl]
      | ⟨1, _⟩ => by show j.val = if (16384 : Nat) = 1 then 0 else j.val; rw [if_neg (by decide)])
  have hi : iota Kind.tc S32x16384 32 [0] iota_S32x16384_d0_w32 (ix2 k j) = BitVec.ofNat 32 k.val :=
    iota_single_apply Kind.tc S32x16384 32 0 iota_S32x16384_d0_w32 (ix2 k j)
  show FloatOps.sitofp (F := Ideal) .f32 ((IntOp.cmpi .eq
      (broadcastTo S32x16384 v7 broadcasts_S1x16384_S32x16384 (ix2 k j))
      (iota Kind.tc S32x16384 32 [0] iota_S32x16384_d0_w32 (ix2 k j))).setWidth 32) = _
  rw [hb, hi, k0_hot_word]
  unfold hotI
  exact if_congr (k0_word_eq_iff _ k) rfl rfl

/-- The stacked array at (e, j): the extended feature e of point j. -/
theorem k0_featExt_apply (v3 : Vec Ideal S16x16384 .f32) (v5 : Vec Ideal S2x16384 .f32) (e : Fin 18) (j : Fin 16384) :
    concatenate S18x16384 0
        [⟨S16x16384, shapeCast S16x16384 v3 shapeCasts_S16x16384_S16x16384⟩,
          ⟨S1x16384, broadcast S1x16384 (FloatOps.ofBits (F := Ideal) FTy.f32 0x3F800000#32)⟩,
          ⟨S1x16384,
            (exp
              (extractStridedSlice S1x16384 ![1, 0] (shapeCast S2x16384 v5 shapeCasts_S2x16384_S2x16384)
                slices_S2x16384_o1_0_S1x16384) : FVec Ideal S1x16384 .f32)⟩]
        concatenates_S16x16384_S1x16384_S1x16384_S18x16384_d0 (ix2 e j)
      = extF (fun d => v3 (ix2 d j)) (v5 (ix2 1 j)) e := by
  rw [shapeCast_self, shapeCast_self]
  unfold extF
  by_cases h : e.val < 16
  · rw [dif_pos h]
    exact concatenate_apply_piece (0 : Fin S18x16384.rank) _ _
      (ix2 e j) 0 (by show (0 : Nat) < 3; omega) S16x16384 v3 rfl rfl 0 rfl (ix2 ⟨e.val, h⟩ j)
      (fun b hb => match b, hb with
        | ⟨0, _⟩, hb => absurd rfl hb
        | ⟨1, _⟩, _ => rfl)
      (Nat.zero_add _)
  · rw [dif_neg h]
    by_cases h2 : e.val = 16
    · rw [if_pos h2]
      refine (concatenate_apply_piece (0 : Fin S18x16384.rank) _ _
        (ix2 e j) 1 (by show (1 : Nat) < 3; omega) S1x16384 _ rfl rfl 16 rfl (ix2 0 j)
        (fun b hb => match b, hb with
          | ⟨0, _⟩, hb => absurd rfl hb
          | ⟨1, _⟩, _ => rfl)
        (by show 16 + 0 = e.val; omega)).trans ?_
      exact Ideal.ofBits_one_f32
    · rw [if_neg h2]
      have h3 : e.val = 17 := by have := e.isLt; omega
      refine (concatenate_apply_piece (0 : Fin S18x16384.rank) _ _
        (ix2 e j) 2 (by show (2 : Nat) < 3; omega) S1x16384 _ rfl rfl 17 rfl (ix2 0 j)
        (fun b hb => match b, hb with
          | ⟨0, _⟩, hb => absurd rfl hb
          | ⟨1, _⟩, _ => rfl)
        (by show 17 + 0 = e.val; omega)).trans ?_
      show Ideal.exp (extractStridedSlice S1x16384 ![1, 0] v5 slices_S2x16384_o1_0_S1x16384 (ix2 0 j)) = _
      rw [extractStridedSlice_apply ![1, 0] v5 slices_S2x16384_o1_0_S1x16384 (ix2 0 j) (ix2 1 j) (fun a => match a with
        | ⟨0, _⟩ => by show 1 = 1 + 0; rfl
        | ⟨1, _⟩ => by show j.val = 0 + j.val; omega)]

/-- The left operand's index at output (k, e) and contraction position q: row k … -/
theorem k0_lhs_pay2_0 (i : S32x18.Idx) (q : dot_S32x16384_S18x16384_S32x18_1_1_0_0_n_n.contr.Idx) :
    (dot_S32x16384_S18x16384_S32x18_1_1_0_0_n_n.lhsIdx i q 0).val = (i 0).val := by
  unfold DotDims.lhsIdx
  rw [dif_neg (show ¬(0 : Fin S32x16384.rank) ∈ dot_S32x16384_S18x16384_S32x18_1_1_0_0_n_n.lhsBatch by decide), dif_pos (show (0 : Fin S32x16384.rank) ∈ dot_S32x16384_S18x16384_S32x18_1_1_0_0_n_n.lhsNonContracting by decide)]
  rfl
/-- … and column q. -/
theorem k0_lhs_pay2_1 (i : S32x18.Idx) (q : dot_S32x16384_S18x16384_S32x18_1_1_0_0_n_n.contr.Idx) :
    (dot_S32x16384_S18x16384_S32x18_1_1_0_0_n_n.lhsIdx i q 1).val = (q ⟨0, by decide⟩).val :=
  dot_S32x16384_S18x16384_S32x18_1_1_0_0_n_n.lhsIdx_val_of_single rfl i q
/-- The right operand's index at output (k, e) and contraction position q: row e … -/
theorem k0_rhs_pay2_0 (i : S32x18.Idx) (q : dot_S32x16384_S18x16384_S32x18_1_1_0_0_n_n.contr.Idx) :
    (dot_S32x16384_S18x16384_S32x18_1_1_0_0_n_n.rhsIdx i q 0).val = (i 1).val := by
  unfold DotDims.rhsIdx
  rw [dif_neg (show ¬(0 : Fin S18x16384.rank) ∈ dot_S32x16384_S18x16384_S32x18_1_1_0_0_n_n.rhsBatch by decide), dif_pos (show (0 : Fin S18x16384.rank) ∈ dot_S32x16384_S18x16384_S32x18_1_1_0_0_n_n.rhsNonContracting by decide)]
  rfl
/-- … and column q: both operands are contracted over their columns, the points. -/
theorem k0_rhs_pay2_1 (i : S32x18.Idx) (q : dot_S32x16384_S18x16384_S32x18_1_1_0_0_n_n.contr.Idx) :
    (dot_S32x16384_S18x16384_S32x18_1_1_0_0_n_n.rhsIdx i q 1).val = (q ⟨0, by decide⟩).val :=
  dot_S32x16384_S18x16384_S32x18_1_1_0_0_n_n.rhsIdx_val_of_single rfl i q

/-- Entry (k, e) of the block the body stores: what the output block held there, plus the sum over the block's
    points of the cluster indicator times the extended feature. -/
theorem k0_pay2_apply (v3 : Vec Ideal S16x16384 .f32) (v5 : Vec Ideal S2x16384 .f32) (v7 : Vec Ideal S1x16384 .i32)
    (v19 : Vec Ideal S1x32x18 .f32) (k : Fin 32) (e : Fin 18) :
    k0_pay2 v3 v5 v7 v19 (ix3 0 k e)
      = v19 (ix3 0 k e)
        + ∑ j : Fin 16384, hotI (v7 (ix2 0 j)).toInt k * extF (fun d => v3 (ix2 d j)) (v5 (ix2 1 j)) e := by
  unfold k0_pay2
  refine (shapeCast_addUnit_apply ![32, 18] _ shapeCasts_S32x18_S1x32x18 (ix3 0 k e)).trans ?_
  have hj : (fun a : Fin 2 => (ix3 (0 : Fin 1) k e) a.succ) = ix2 k e := by
    funext a; match a with | ⟨0, _⟩ => rfl | ⟨1, _⟩ => rfl
  rw [hj, addf_apply]
  have h19 : shapeCast S32x18 v19 shapeCasts_S1x32x18_S32x18 (ix2 k e) = v19 (ix3 0 k e) := by
    refine (shapeCast_dropUnit_apply ![32, 18] v19 shapeCasts_S1x32x18_S32x18 (ix2 k e)).trans ?_
    congr 1
    funext a; match a with | ⟨0, _⟩ => rfl | ⟨1, _⟩ => rfl | ⟨2, _⟩ => rfl
  rw [h19]
  refine congrArg (v19 (ix3 0 k e) + ·) ?_
  simp only [matmul]
  rw [Ideal.matmul_constant_zero_apply,
    ← Equiv.sum_comp (contrEquiv1 dot_S32x16384_S18x16384_S32x18_1_1_0_0_n_n 16384 rfl rfl).symm]
  refine Finset.sum_congr rfl fun j _ => ?_
  have hq := contrEquiv1_symm_val dot_S32x16384_S18x16384_S32x18_1_1_0_0_n_n 16384 rfl rfl j
  have el : dot_S32x16384_S18x16384_S32x18_1_1_0_0_n_n.lhsIdx (ix2 k e)
      ((contrEquiv1 dot_S32x16384_S18x16384_S32x18_1_1_0_0_n_n 16384 rfl rfl).symm j) = ix2 k j :=
    funext fun a => Fin.ext (by
      match a with
      | ⟨0, _⟩ => exact k0_lhs_pay2_0 _ _
      | ⟨1, _⟩ => exact (k0_lhs_pay2_1 _ _).trans hq)
  have er : dot_S32x16384_S18x16384_S32x18_1_1_0_0_n_n.rhsIdx (ix2 k e)
      ((contrEquiv1 dot_S32x16384_S18x16384_S32x18_1_1_0_0_n_n 16384 rfl rfl).symm j) = ix2 e j :=
    funext fun a => Fin.ext (by
      match a with
      | ⟨0, _⟩ => exact k0_rhs_pay2_0 _ _
      | ⟨1, _⟩ => exact (k0_rhs_pay2_1 _ _).trans hq)
  rw [el, er, k0_onehot_apply, k0_featExt_apply]

end Cert.KernelIdeal.Val

end
-- ==== Proof.KPay1Base.lean ====
/-
  The second region's body, its pointwise stages read at an index.

  For point j of the block and cluster k: the indicator of "label = k", the validity of the label, v = exp s₁, the
  log-probability −max(|x|² + |μ|² − 2⟨μ, x⟩, 0)/(2σ²) and the probability, each as the body computes it from its loads.
-/
import proofs.«401601_j38319698215236_3_alg».proof.Proof.Gen.KernelIdeal.Skeleton
import proofs.«401601_j38319698215236_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Cert.Spec

/-! ## Words and bits -/

/-- A one-bit word widened and read as a signed integer, as a float: 1 for the set bit, 0 otherwise. -/
private theorem sitofp_bit (b : BitVec 1) :
    FloatOps.sitofp (F := Ideal) .f32 (b.setWidth 32) = if b = 1#1 then (1 : EReal) else 0 := by
  by_cases h : b = 1#1
  · subst h
    rw [if_pos rfl]
    show (((BitVec.setWidth 32 1#1).toInt : ℝ) : EReal) = 1
    rw [show (BitVec.setWidth 32 1#1).toInt = 1 by decide, Int.cast_one, EReal.coe_one]
  · rw [if_neg h, eq_zero_of_ne_one h]
    show (((BitVec.setWidth 32 0#1).toInt : ℝ) : EReal) = 0
    rw [show (BitVec.setWidth 32 0#1).toInt = 0 by decide, Int.cast_zero, EReal.coe_zero]

/-- The word of a natural below 32 reads, signed, as that natural. -/
private theorem toInt_ofNat_small (k : Nat) (hk : k < 32) : (BitVec.ofNat 32 k).toInt = (k : Int) := by
  have hn : (BitVec.ofNat 32 k).toNat = k := by rw [BitVec.toNat_ofNat]; omega
  rw [BitVec.toInt_eq_toNat_of_lt (by rw [hn]; omega), hn]

/-- A 32-bit word is the word of a natural below 32 exactly when its signed reading is that natural. -/
private theorem eq_ofNat_iff_toInt (w : BitVec 32) (k : Nat) (hk : k < 32) : w = BitVec.ofNat 32 k ↔ w.toInt = (k : Int) := by
  constructor
  · intro h
    subst h
    exact toInt_ofNat_small k hk
  · intro h
    apply BitVec.eq_of_toInt_eq
    rw [h, toInt_ofNat_small k hk]

/-! ## A column broadcast, and the product's operand indices -/

/-- A column broadcast over a row's length: an `[a, 1]` array broadcast to `[a, b]` reads, at `(p, c)`, the operand at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product of the centroids and the coordinates contracts the 16 coordinates: the operand indices, axis by axis. -/

private theorem lhs_cross_0 (i : S32x8192.Idx) (q : dot_S32x16_S16x8192_S32x8192_1_0_0_1_n_n.contr.Idx) :
    (dot_S32x16_S16x8192_S32x8192_1_0_0_1_n_n.lhsIdx i q 0).val = (i 0).val := by
  unfold DotDims.lhsIdx
  rw [dif_neg (show ¬(0 : Fin S32x16.rank) ∈ dot_S32x16_S16x8192_S32x8192_1_0_0_1_n_n.lhsBatch by decide),
    dif_pos (show (0 : Fin S32x16.rank) ∈ dot_S32x16_S16x8192_S32x8192_1_0_0_1_n_n.lhsNonContracting by decide)]
  rfl

private theorem lhs_cross_1 (i : S32x8192.Idx) (q : dot_S32x16_S16x8192_S32x8192_1_0_0_1_n_n.contr.Idx) :
    (dot_S32x16_S16x8192_S32x8192_1_0_0_1_n_n.lhsIdx i q 1).val = (q ⟨0, by decide⟩).val :=
  dot_S32x16_S16x8192_S32x8192_1_0_0_1_n_n.lhsIdx_val_of_single rfl i q

private theorem rhs_cross_0 (i : S32x8192.Idx) (q : dot_S32x16_S16x8192_S32x8192_1_0_0_1_n_n.contr.Idx) :
    (dot_S32x16_S16x8192_S32x8192_1_0_0_1_n_n.rhsIdx i q 0).val = (q ⟨0, by decide⟩).val :=
  dot_S32x16_S16x8192_S32x8192_1_0_0_1_n_n.rhsIdx_val_of_single rfl i q

private theorem rhs_cross_1 (i : S32x8192.Idx) (q : dot_S32x16_S16x8192_S32x8192_1_0_0_1_n_n.contr.Idx) :
    (dot_S32x16_S16x8192_S32x8192_1_0_0_1_n_n.rhsIdx i q 1).val = (i 1).val := by
  unfold DotDims.rhsIdx
  rw [dif_neg (show ¬(1 : Fin S16x8192.rank) ∈ dot_S32x16_S16x8192_S32x8192_1_0_0_1_n_n.rhsBatch by decide),
    dif_pos (show (1 : Fin S16x8192.rank) ∈ dot_S32x16_S16x8192_S32x8192_1_0_0_1_n_n.rhsNonContracting by decide)]
  rfl

/-- The product at (k, j) is the inner product of centroid k and point j. -/
theorem k1_cross_apply (A : FVec Ideal S32x16 .bf16) (X : FVec Ideal S16x8192 .bf16) (k : Fin 32) (j : Fin 8192) :
    matmul dot_S32x16_S16x8192_S32x8192_1_0_0_1_n_n none A X (constant S32x8192 .f32 0x00000000#32) (ix2 k j)
      = ∑ d : Fin 16, A (ix2 k d) * X (ix2 d j) := by
  show FloatOps.matmul dot_S32x16_S16x8192_S32x8192_1_0_0_1_n_n none A X (constant S32x8192 .f32 0x00000000#32) (ix2 k j) = _
  rw [Ideal.matmul_constant_zero_apply, ← Equiv.sum_comp (contrEquiv1 dot_S32x16_S16x8192_S32x8192_1_0_0_1_n_n 16 rfl rfl).symm]
  refine Finset.sum_congr rfl fun d _ => ?_
  have hd := contrEquiv1_symm_val dot_S32x16_S16x8192_S32x8192_1_0_0_1_n_n 16 rfl rfl d
  have el : dot_S32x16_S16x8192_S32x8192_1_0_0_1_n_n.lhsIdx (ix2 k j) ((contrEquiv1 dot_S32x16_S16x8192_S32x8192_1_0_0_1_n_n 16 rfl rfl).symm d) = ix2 k d :=
    Shape.idx_ext₂ (lhs_cross_0 _ _) ((lhs_cross_1 _ _).trans hd)
  have er : dot_S32x16_S16x8192_S32x8192_1_0_0_1_n_n.rhsIdx (ix2 k j) ((contrEquiv1 dot_S32x16_S16x8192_S32x8192_1_0_0_1_n_n 16 rfl rfl).symm d) = ix2 d j :=
    Shape.idx_ext₂ ((rhs_cross_0 _ _).trans hd) (rhs_cross_1 _ _)
  rw [el, er]

section Block

variable (v3 : Vec Ideal S16x8192 .f32) (v5 : Vec Ideal S2x8192 .f32) (v7 : Vec Ideal S1x8192 .i32)
  (v9 : Vec Ideal S32x16 .f32) (v11 : Vec Ideal S32x1 .f32) (v13 : Vec Ideal S32x1 .f32)

/-- The indicator of "point j has label k", as a float. -/
theorem k1_hot_apply (k : Fin 32) (j : Fin 8192) : k1_pay9 (F := Ideal) v7 (ix2 k j) = hotI (v7 (ix2 0 j)).toInt k := by
  unfold k1_pay9 k1_pay7
  rw [shapeCast_self]
  show FloatOps.sitofp (F := Ideal) .f32 ((IntOp.cmpi .eq (broadcastTo S32x8192 v7 broadcasts_S1x8192_S32x8192 (ix2 k j))
    (iota Kind.tc S32x8192 32 [0] iota_S32x8192_d0_w32 (ix2 k j))).setWidth 32) = _
  rw [broadcastTo_1b_ab_apply, iota_single_apply, sitofp_bit, hotI]
  show (if IntOp.cmpi .eq (v7 (ix2 0 j)) (BitVec.ofNat 32 k.val) = 1#1 then (1 : EReal) else 0) = _
  by_cases h : (v7 (ix2 0 j)).toInt = (k.val : Int)
  · rw [if_pos h, if_pos (IntOp.cmpi_eq.mpr ((eq_ofNat_iff_toInt _ _ k.isLt).mpr h))]
  · rw [if_neg h, if_neg (fun hc => h ((eq_ofNat_iff_toInt _ _ k.isLt).mp (IntOp.cmpi_eq.mp hc)))]

/-- The validity of point j's label (not the padding's −1), as a float. -/
theorem k1_valid_apply (j : Fin 8192) : k1_pay10 (F := Ideal) v7 (ix2 0 j) = validI (v7 (ix2 0 j)).toInt := by
  unfold k1_pay10 k1_pay7
  rw [shapeCast_self]
  show FloatOps.sitofp (F := Ideal) .f32 ((IntOp.cmpi .sge (v7 (ix2 0 j)) 0#32).setWidth 32) = _
  rw [sitofp_bit, validI]
  by_cases h : 0 ≤ (v7 (ix2 0 j)).toInt
  · rw [if_pos h, if_pos (IntOp.cmpi_sge.mpr (by rw [BitVec.toInt_zero]; exact h))]
  · rw [if_neg h, if_neg (fun hc => h (by have := IntOp.cmpi_sge.mp hc; rwa [BitVec.toInt_zero] at this))]

/-- v of point j. -/
theorem k1_vv_apply (j : Fin 8192) : k1_pay11 v5 (ix2 0 j) = Ideal.exp (v5 (ix2 1 j)) := by
  unfold k1_pay11 k1_pay6
  rw [shapeCast_self]
  show Ideal.exp (extractStridedSlice _ _ v5 _ (ix2 0 j)) = _
  rw [slice2_axis0_apply 1 v5 _ 0 j 1 rfl]

/-- The sum over the 16 coordinates of the squares, at point j: |x|². -/
theorem k1_f2_apply (j : Fin 8192) :
    multiReduction (F := Ideal) FKind.add [0] S8192 (mulf (F := Ideal) v3 v3) (0x00000000#32) reduces_S16x8192_S8192 (.inl rfl) rfl (ix1 j)
      = f2 (fun d => v3 (ix2 d j)) := by
  refine (Ideal.multiReduction_add_single (mulf (F := Ideal) v3 v3) _ reduces_S16x8192_S8192 (.inl rfl) rfl (ix1 j)).trans ?_
  have hl : ∀ d : Fin 16, reduces_S16x8192_S8192.lift (ix1 j) d = ix2 d j := fun d => Shape.idx_ext₂ rfl rfl
  exact Finset.sum_congr rfl fun d _ => by rw [hl d]; rfl

/-- The squared distance before its clamp, at (k, j): |x|² + |μ|² − 2⟨μ, x⟩. -/
theorem k1_d2_apply (k : Fin 32) (j : Fin 8192) :
    k1_pay12 v3 v9 v13 (ix2 k j)
      = (f2 (fun d => v3 (ix2 d j)) + v13 (ix2 k 0)) - two * cross (fun k d => v9 (ix2 k d)) (fun d => v3 (ix2 d j)) k := by
  unfold k1_pay12
  simp only [shapeCast_self]
  show (broadcastTo S32x8192 (shapeCast S1x8192 (multiReduction (F := Ideal) FKind.add [0] S8192 (mulf (F := Ideal) v3 v3) (0#32) reduces_S16x8192_S8192
          (.inl rfl) rfl) shapeCasts_S8192_S1x8192) broadcasts_S1x8192_S32x8192 (ix2 k j)
        + broadcastTo S32x8192 v13 broadcasts_S32x1_S32x8192 (ix2 k j))
      - two * matmul (F := Ideal) dot_S32x16_S16x8192_S32x8192_1_0_0_1_n_n none (truncf (F := Ideal) FTy.bf16 v9 bitsLt_bf16_f32) (truncf (F := Ideal) FTy.bf16 v3 bitsLt_bf16_f32)
          (constant (F := Ideal) S32x8192 FTy.f32 0#32) (ix2 k j) = _
  rw [broadcastTo_1b_ab_apply, shapeCast_a_1a_apply, k1_f2_apply, broadcastTo_a1_ab_apply, k1_cross_apply]
  rfl

/-- The log-probability of point j under cluster k. -/
theorem k1_lgP_apply (z : Ideal .f32) (hz : z = 0) (k : Fin 32) (j : Fin 8192) :
    k1_pay13 (k1_pay8 v11) (k1_pay12 v3 v9 v13) z (ix2 k j)
      = lgP (fun k d => v9 (ix2 k d)) (fun k => v11 (ix2 k 0)) (fun k => v13 (ix2 k 0)) (fun d => v3 (ix2 d j)) k := by
  unfold k1_pay13 k1_pay8
  rw [shapeCast_self]
  show Ideal.div (Ideal.ofBits .f32 0x00000000#32 - max (k1_pay12 v3 v9 v13 (ix2 k j)) z)
      (broadcastTo S32x8192 (mulf (F := Ideal) (φ := .f32) (broadcast S32x1 two) v11) broadcasts_S32x1_S32x8192 (ix2 k j)) = _
  rw [broadcastTo_a1_ab_apply, k1_d2_apply, Ideal.ofBits_zero_f32, zero_sub, hz]
  rfl

/-- The probability of point j under cluster k. -/
theorem k1_pr_apply (z : Ideal .f32) (hz : z = 0) (k : Fin 32) (j : Fin 8192) :
    k1_pay14 (k1_pay8 v11) (k1_pay12 v3 v9 v13) z (ix2 k j)
      = pr (fun k d => v9 (ix2 k d)) (fun k => v11 (ix2 k 0)) (fun k => v13 (ix2 k 0)) (fun d => v3 (ix2 d j)) k := by
  show Ideal.exp (k1_pay13 (k1_pay8 v11) (k1_pay12 v3 v9 v13) z (ix2 k j)) = _
  rw [k1_lgP_apply v3 v9 v11 v13 z hz k j]
  rfl

end Block

end Cert.KernelIdeal.Val

end
-- ==== Proof.KPay1Bce.lean ====
/-
  The second region's cross-entropy store, read at its one index.

  Over the block's points the body sums, per point, the clamped cross-entropy of the probability map against the
  cluster indicator over the 32 clusters, masks padded points, sums over the block and adds the result to what the
  1 × 1 × 1 output block held. The three blocks the reset stores are zero.
-/
import proofs.«401601_j38319698215236_3_alg».proof.Proof.KPay1Base

noncomputable section

namespace Cert.KernelIdeal.Val

open Cert.KernelIdeal Cert.KernelIdeal.Gen Idealize.ShloMosaic Idealize.ShloMosaic.ValueIdx Cert.Spec

/-- The three blocks the reset stores are zero. -/
theorem k1_pay3_apply (i : S1x1x1.Idx) : (k1_pay3 (F := Ideal)) i = 0 := by
  show Ideal.ofBits .f32 0x00000000#32 = 0
  exact Ideal.ofBits_zero_f32
theorem k1_pay4_apply (i : S1x1x1.Idx) : (k1_pay4 (F := Ideal)) i = 0 := by
  show Ideal.ofBits .f32 0x00000000#32 = 0
  exact Ideal.ofBits_zero_f32
theorem k1_pay5_apply (i : S1x32x1.Idx) : (k1_pay5 (F := Ideal)) i = 0 := by
  show Ideal.ofBits .f32 0x00000000#32 = 0
  exact Ideal.ofBits_zero_f32

/-- One half, as the word the body carries. -/
private theorem half_eq : Ideal.ofBits .f32 0x3F000000#32 = ((1 / 2 : ℝ) : EReal) := by
  simp [Ideal.ofBits, Ideal.ieee, -EReal.coe_mul]; norm_num

/-- One is above one half. -/
private theorem cmp_ogt_one_half : Ideal.cmp .ogt (1 : EReal) (Ideal.ofBits .f32 0x3F000000#32) = 1#1 := by
  rw [half_eq]
  have h : ((1 / 2 : ℝ) : EReal) < 1 := by
    rw [← EReal.coe_one]; exact EReal.coe_lt_coe_iff.mpr (by norm_num)
  show BitVec.ofBool (decide (((1 / 2 : ℝ) : EReal) < 1)) = 1#1
  rw [decide_eq_true h]; rfl

/-- Zero is not above one half. -/
private theorem cmp_ogt_zero_half : Ideal.cmp .ogt (0 : EReal) (Ideal.ofBits .f32 0x3F000000#32) = 0#1 := by
  rw [half_eq]
  have h : ¬ ((1 / 2 : ℝ) : EReal) < 0 := by
    rw [← EReal.coe_zero]; exact fun h => absurd (EReal.coe_lt_coe_iff.mp h) (by norm_num)
  show BitVec.ofBool (decide (((1 / 2 : ℝ) : EReal) < 0)) = 0#1
  rw [decide_eq_false h]; rfl

/-- One lane of the cross-entropy: the indicator against one half picks the clamped log-probability on the point's
    own cluster and the clamped log of one minus the probability elsewhere; zero minus it is its negation. -/
private theorem bce_scalar (a : Int) (k : Fin 32) (l p : EReal) :
    (Ideal.ofBits .f32 0x00000000#32 : EReal)
      - Scalar.select (Ideal.cmp .ogt (hotI a k) (Ideal.ofBits .f32 0x3F000000#32))
          (max l (Ideal.ofBits .f32 0xC2C80000#32))
          (max (Ideal.log1p (Ideal.ofBits .f32 0x00000000#32 - p)) (Ideal.ofBits .f32 0xC2C80000#32))
      = -(if a = (k.val : Int) then max l negHundred else max (Ideal.log1p (-p)) negHundred) := by
  rw [Ideal.ofBits_zero_f32, zero_sub, zero_sub]
  unfold hotI
  by_cases h : a = (k.val : Int)
  · rw [if_pos h, if_pos h, cmp_ogt_one_half, select_one]
  · rw [if_neg h, if_neg h, cmp_ogt_zero_half, select_zero]

/-- The index of point j in the 1 × 8192 row, as the sum over the points inserts it. -/
private theorem lift_row (j : Fin 8192) : reduces_S1x8192_S1.lift (ix1 (0 : Fin 1)) j = ix2 (0 : Fin 1) j :=
  funext fun a => Fin.ext (by match a with | ⟨0, _⟩ => rfl | ⟨1, _⟩ => rfl)

/-- The index of cluster k over point j, as the sum over the clusters inserts it. -/
private theorem lift_col (j : Fin 8192) (k : Fin 32) : reduces_S32x8192_S8192.lift (ix1 j) k = ix2 k j :=
  funext fun a => Fin.ext (by match a with | ⟨0, _⟩ => rfl | ⟨1, _⟩ => rfl)

/-- The sum over the block's points of a 1 × 8192 row, read at its one index. -/
private theorem sum_row (X : FVec Ideal S1x8192 .f32) (hφ : FKind.Formats .f32)
    (hacc : (0x00000000#32 : BitVec 32) = FKind.add.neutral .f32 hφ) :
    multiReduction .add [1] S1 X 0x00000000#32 reduces_S1x8192_S1 hφ hacc (ix1 0) = ∑ j : Fin 8192, X (ix2 0 j) := by
  rw [Ideal.multiReduction_add_single]
  exact Finset.sum_congr rfl fun j _ => congrArg X (lift_row j)

/-- The sum over the clusters of a 32 × 8192 array, read at point j. -/
private theorem sum_col (X : FVec Ideal S32x8192 .f32) (hφ : FKind.Formats .f32)
    (hacc : (0x00000000#32 : BitVec 32) = FKind.add.neutral .f32 hφ) (j : Fin 8192) :
    multiReduction .add [0] S8192 X 0x00000000#32 reduces_S32x8192_S8192 hφ hacc (ix1 j) = ∑ k : Fin 32, X (ix2 k j) := by
  rw [Ideal.multiReduction_add_single]
  exact Finset.sum_congr rfl fun k _ => congrArg X (lift_col j k)

/-- The cross-entropy accumulator: what the block held, plus the sum over the block's points of the point's
    cross-entropy over the clusters, masked by validity. -/
theorem k1_bce_apply (v3 : Vec Ideal S16x8192 .f32) (v7 : Vec Ideal S1x8192 .i32) (v9 : Vec Ideal S32x16 .f32)
    (v11 : Vec Ideal S32x1 .f32) (v13 : Vec Ideal S32x1 .f32) (z : Ideal .f32) (hz : z = 0) (v64 : Vec Ideal S1x1x1 .f32) :
    k1_pay15 (k1_pay8 v11) (k1_pay9 v7) (k1_pay10 v7) (k1_pay12 v3 v9 v13) z v64 (ix3 0 0 0)
      = v64 (ix3 0 0 0)
        + ∑ j : Fin 8192,
            rowB (fun k d => v9 (ix2 k d)) (fun k => v11 (ix2 k 0)) (fun k => v13 (ix2 k 0))
              (fun d => v3 (ix2 d j)) (v7 (ix2 0 j)).toInt
            * validI (v7 (ix2 0 j)).toInt := by
  unfold k1_pay15
  rw [shapeCast_ab_1ab_apply, addf_apply, shapeCast_1ab_ab_apply, shapeCast_a_1a_apply]
  refine congrArg (_ + ·) ((sum_row _ _ _).trans (Finset.sum_congr rfl fun (j : Fin 8192) _ => ?_))
  rw [mulf_apply, shapeCast_a_1a_apply, k1_valid_apply]
  refine congrArg (· * _) ((sum_col _ _ _ j).trans (Finset.sum_congr rfl fun (k : Fin 32) _ => ?_))
  show (Ideal.ofBits .f32 0x00000000#32 : EReal)
      - Scalar.select (Ideal.cmp .ogt (k1_pay9 v7 (ix2 k j)) (Ideal.ofBits .f32 0x3F000000#32))
          (max (k1_pay13 (k1_pay8 v11) (k1_pay12 v3 v9 v13) z (ix2 k j)) (Ideal.ofBits .f32 0xC2C80000#32))
          (max (Ideal.log1p (Ideal.ofBits .f32 0x00000000#32 - k1_pay14 (k1_pay8 v11) (k1_pay12 v3 v9 v13) z (ix2 k j)))
            (Ideal.ofBits .f32 0xC2C80000#32)) = _
  rw [k1_hot_apply, k1_lgP_apply v3 v9 v11 v13 z hz, k1_pr_apply v3 v9 v11 v13 z hz]
  exact bce_scalar _ _ _ _

end Cert.KernelIdeal.Val

end
-- ==== Proof.KPay1Rest.lean ====
/-
  The second region's seediness and squared-deviation stores, read at an index.

  The probability of a point under its own cluster is the indicator-weighted sum of its probabilities over the
  clusters; its squared error against s₀ is masked for padded points, summed over the block and added to what the
  1 × 1 × 1 output block held. The squared deviation of v = exp s₁ from the indicator-weighted cluster variance is
  contracted with the indicator over the block's points and added, per cluster, to what the 1 × 32 × 1 block held.
-/
import proofs.«401601_j38319698215236_3_alg».proof.Proof.KPay1Base

noncomputable section

namespace Cert.KernelIdeal.Val

open Cert.KernelIdeal Cert.KernelIdeal.Gen Idealize.ShloMosaic Idealize.ShloMosaic.ValueIdx Cert.Spec

/-- The index a sum over the clusters inserts above point j. -/
theorem lift_cluster (k : Fin 32) (j : Fin 8192) : reduces_S32x8192_S8192.lift (ix1 j) k = ix2 k j := by
  funext a
  match a with
  | ⟨0, _⟩ => rfl
  | ⟨1, _⟩ => rfl

/-- The index a sum over the points inserts in the one row. -/
theorem lift_point (j : Fin 8192) : reduces_S1x8192_S1.lift (ix1 0) j = ix2 0 j := by
  funext a
  match a with
  | ⟨0, _⟩ => rfl
  | ⟨1, _⟩ => rfl

/-- A sum over the first axis of a 32 × 8192 array, at point j: the sum over the clusters. -/
theorem sum_clusters (w : FVec Ideal S32x8192 .f32) (j : Fin 8192) :
    FloatOps.reduceAdd [0] reduces_S32x8192_S8192 w (ix1 j) = ∑ k : Fin 32, w (ix2 k j) := by
  rw [Ideal.reduceAdd_def, Ideal.reduceAdd_single]
  exact Finset.sum_congr rfl fun k _ => congrArg w (lift_cluster k j)

/-- A sum over the second axis of a 1 × 8192 array: the sum over the points. -/
theorem sum_points (w : FVec Ideal S1x8192 .f32) :
    FloatOps.reduceAdd [1] reduces_S1x8192_S1 w (ix1 0) = ∑ j : Fin 8192, w (ix2 0 j) := by
  rw [Ideal.reduceAdd_def, Ideal.reduceAdd_single]
  exact Finset.sum_congr rfl fun j _ => congrArg w (lift_point j)

/-- The seediness accumulator: what the block held, plus the sum over the block's points of the squared error
    of the point's own probability against s₀, masked by validity. -/
theorem k1_seed_apply (v3 : Vec Ideal S16x8192 .f32) (v5 : Vec Ideal S2x8192 .f32) (v7 : Vec Ideal S1x8192 .i32)
    (v9 : Vec Ideal S32x16 .f32) (v11 : Vec Ideal S32x1 .f32) (v13 : Vec Ideal S32x1 .f32) (z : Ideal .f32) (hz : z = 0)
    (v79 : Vec Ideal S1x1x1 .f32) :
    k1_pay1 (k1_pay16 (k1_pay6 v5) (k1_pay8 v11) (k1_pay9 v7) (k1_pay10 v7) (k1_pay12 v3 v9 v13) z) v79 (ix3 0 0 0)
      = v79 (ix3 0 0 0)
        + ∑ j : Fin 8192,
            serr (fun k d => v9 (ix2 k d)) (fun k => v11 (ix2 k 0)) (fun k => v13 (ix2 k 0))
              (fun d => v3 (ix2 d j)) (v5 (ix2 0 j)) (v7 (ix2 0 j)).toInt
            * validI (v7 (ix2 0 j)).toInt := by
  simp only [k1_pay1, k1_pay16, multiReduction]
  -- the stored entry is the block's entry plus the sum over the points of the masked squared error
  rw [shapeCast_ab_1ab_apply, addf_apply, shapeCast_1ab_ab_apply, shapeCast_a_1a_apply, sum_points]
  refine congrArg (_ + ·) (Finset.sum_congr rfl fun j _ => ?_)
  -- at point j: (Σ_k probability · indicator − row 0 of the seediness)², times the validity
  rw [mulf_apply, mulf_apply, subf_apply, shapeCast_a_1a_apply, sum_clusters, slice2_axis0_eq, k1_valid_apply]
  simp only [mulf_apply, k1_pr_apply v3 v9 v11 v13 z hz, k1_hot_apply, k1_pay6, shapeCast_self]
  rfl

/-! The operand indices of the contraction over the points: the indicator is read at (k, j); the one-row right
    operand, contracted on its own second axis, at (0, j). -/
theorem lhs_sq_0 (i : S32x1.Idx) (q : dot_S32x8192_S1x8192_S32x1_1_1_0_0_n_n.contr.Idx) :
    (dot_S32x8192_S1x8192_S32x1_1_1_0_0_n_n.lhsIdx i q 0).val = (i 0).val := by
  unfold DotDims.lhsIdx
  rw [dif_neg (show ¬(0 : Fin S32x8192.rank) ∈ dot_S32x8192_S1x8192_S32x1_1_1_0_0_n_n.lhsBatch by decide), dif_pos (show (0 : Fin S32x8192.rank) ∈ dot_S32x8192_S1x8192_S32x1_1_1_0_0_n_n.lhsNonContracting by decide)]
  rfl
theorem lhs_sq_1 (i : S32x1.Idx) (q : dot_S32x8192_S1x8192_S32x1_1_1_0_0_n_n.contr.Idx) :
    (dot_S32x8192_S1x8192_S32x1_1_1_0_0_n_n.lhsIdx i q 1).val = (q ⟨0, by decide⟩).val :=
  dot_S32x8192_S1x8192_S32x1_1_1_0_0_n_n.lhsIdx_val_of_single rfl i q
theorem rhs_sq_0 (i : S32x1.Idx) (q : dot_S32x8192_S1x8192_S32x1_1_1_0_0_n_n.contr.Idx) :
    (dot_S32x8192_S1x8192_S32x1_1_1_0_0_n_n.rhsIdx i q 0).val = (i 1).val := by
  unfold DotDims.rhsIdx
  rw [dif_neg (show ¬(0 : Fin S1x8192.rank) ∈ dot_S32x8192_S1x8192_S32x1_1_1_0_0_n_n.rhsBatch by decide), dif_pos (show (0 : Fin S1x8192.rank) ∈ dot_S32x8192_S1x8192_S32x1_1_1_0_0_n_n.rhsNonContracting by decide)]
  rfl
theorem rhs_sq_1 (i : S32x1.Idx) (q : dot_S32x8192_S1x8192_S32x1_1_1_0_0_n_n.contr.Idx) :
    (dot_S32x8192_S1x8192_S32x1_1_1_0_0_n_n.rhsIdx i q 1).val = (q ⟨0, by decide⟩).val :=
  dot_S32x8192_S1x8192_S32x1_1_1_0_0_n_n.rhsIdx_val_of_single rfl i q

/-- The squared-deviation accumulator of cluster k: what the block held, plus the sum over the block's points of
    the indicator times the squared deviation of v from the point's cluster variance. -/
theorem k1_sq_apply (v5 : Vec Ideal S2x8192 .f32) (v7 : Vec Ideal S1x8192 .i32) (v11 : Vec Ideal S32x1 .f32)
    (v92 : Vec Ideal S1x32x1 .f32) (k : Fin 32) :
    k1_pay2 (k1_pay8 v11) (k1_pay9 v7) (k1_pay11 v5) v92 (ix3 0 k 0)
      = v92 (ix3 0 k 0)
        + ∑ j : Fin 8192, hotI (v7 (ix2 0 j)).toInt k * sqd (fun k => v11 (ix2 k 0)) (v5 (ix2 1 j)) (v7 (ix2 0 j)).toInt := by
  simp only [k1_pay2, matmul, multiReduction]
  -- the stored entry is the block's entry plus the contraction over the points, a sum over j
  rw [shapeCast_ab_1ab_apply, addf_apply, shapeCast_1ab_ab_apply, Ideal.matmul_constant_zero_apply,
    ← Equiv.sum_comp (contrEquiv1 dot_S32x8192_S1x8192_S32x1_1_1_0_0_n_n 8192 rfl rfl).symm]
  refine congrArg (_ + ·) (Finset.sum_congr rfl fun j _ => ?_)
  have hk := contrEquiv1_symm_val dot_S32x8192_S1x8192_S32x1_1_1_0_0_n_n 8192 rfl rfl j
  have el : dot_S32x8192_S1x8192_S32x1_1_1_0_0_n_n.lhsIdx (ix2 k 0) ((contrEquiv1 dot_S32x8192_S1x8192_S32x1_1_1_0_0_n_n 8192 rfl rfl).symm j) = ix2 k j :=
    funext fun a => Fin.ext (by
      match a with
      | ⟨0, _⟩ => exact lhs_sq_0 _ _
      | ⟨1, _⟩ => exact (lhs_sq_1 _ _).trans hk)
  have er : dot_S32x8192_S1x8192_S32x1_1_1_0_0_n_n.rhsIdx (ix2 k 0) ((contrEquiv1 dot_S32x8192_S1x8192_S32x1_1_1_0_0_n_n 8192 rfl rfl).symm j) = ix2 0 j :=
    funext fun a => Fin.ext (by
      match a with
      | ⟨0, _⟩ => exact rhs_sq_0 _ _
      | ⟨1, _⟩ => exact (rhs_sq_1 _ _).trans hk)
  -- at point j: indicator(k, j) · (v − Σ_k' indicator · variance)²
  rw [el, er, k1_hot_apply, mulf_apply, subf_apply, k1_vv_apply, shapeCast_a_1a_apply, sum_clusters]
  have hb : ∀ k' : Fin 32,
      broadcastTo S32x8192 (k1_pay8 v11) broadcasts_S32x1_S32x8192 (ix2 k' j) = v11 (ix2 k' 0) := fun k' => by
    rw [broadcastTo_apply (k1_pay8 v11) broadcasts_S32x1_S32x8192 (ix2 k' j) (ix2 k' 0) (fun a => by
      match a with
      | ⟨0, _⟩ => rfl
      | ⟨1, _⟩ => rfl)]
    simp only [k1_pay8, shapeCast_self]
  simp only [mulf_apply, k1_hot_apply, hb]
  rfl

end Cert.KernelIdeal.Val

end
-- ==== Proof.KReg0.lean ====
/-
  What the first region leaves in its result array.

  The grid is 2 × 31: core q walks blocks 31q … 31q + 30 of 16384 points each, resets its 32 × 18 output block at its
  first block and adds one block's contribution at every block; the output block is written back to row q of the
  result after the core's last block. So entry (q, k, e) of the result is the sum, over the core's 31 blocks and the
  16384 points of each, of the cluster indicator times the extended feature.
-/
import proofs.«401601_j38319698215236_3_alg».proof.Proof.Gen.KernelIdeal.Frame
import proofs.«401601_j38319698215236_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem Cert.Spec
open Idealize.ShloMosaic.Pipeline (Dat)

/-- The zero offsets of the loads and stores of the body, as the constant function. -/
theorem reg0_hz3 : (![0, 0, 0] : Fin 3 → Nat) = fun _ => 0 := funext fun a => by fin_cases a <;> rfl
theorem reg0_hz2 : (![0, 0] : Fin 2 → Nat) = fun _ => 0 := funext fun a => by fin_cases a <;> rfl

section Pieces
variable {F : FTy → Type} [FloatOps F]

/-- Away from a core's first block the body leaves, in the output block holding `xo`, its one store's payload over
    the three input blocks and `xo`. -/
theorem reg0_out0_B (c : Dev nD) (i : grid0.Coords) (a2 : Memref sig .tc .vmem S16x16384 .f32) (h2 : a2.IsWhole)
    (a3 : Memref sig .tc .vmem S2x16384 .f32) (h3 : a3.IsWhole) (a4 : Memref sig .tc .vmem S1x16384 .i32) (h4 : a4.IsWhole)
    (a5 : Memref sig .tc .vmem S1x32x18 .f32) (h5 : a5.IsWhole) (hc : ¬cond0_0 i)
    (x0 : Vec F S16x16384 .f32) (x1 : Vec F S2x16384 .f32) (x2 : Vec F S1x16384 .i32) (xo : Vec F S1x32x18 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero reg0_hz3]
  simp only [View.readAt_eq_ld, h2.read_unread, h3.read_unread, h4.read_unread, h5.read_unread,
    View.ld_unit_zero (S := S16x16384) reg0_hz2, View.ld_unit_zero (S := S2x16384) reg0_hz2,
    View.ld_unit_zero (S := S1x16384) reg0_hz2, View.ld_unit_zero (S := S1x32x18) reg0_hz3]

/-- At a core's first block the body stores the zero block, reads it back, and leaves the payload over the three
    input blocks and the zero block. -/
theorem reg0_out0_A (c : Dev nD) (i : grid0.Coords) (a2 : Memref sig .tc .vmem S16x16384 .f32) (h2 : a2.IsWhole)
    (a3 : Memref sig .tc .vmem S2x16384 .f32) (h3 : a3.IsWhole) (a4 : Memref sig .tc .vmem S1x16384 .i32) (h4 : a4.IsWhole)
    (a5 : Memref sig .tc .vmem S1x32x18 .f32) (h5 : a5.IsWhole) (hc : cond0_0 i)
    (x0 : Vec F S16x16384 .f32) (x1 : Vec F S2x16384 .f32) (x2 : Vec F S1x16384 .i32) :
    out0_A_3 c i a2 h2 a3 h3 a4 h4 a5 h5 hc x0 x1 x2 = k0_pay2 x0 x1 x2 k0_pay1 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x32x18) reg0_hz3, View.readCov_unit_zero (S := S1x32x18) _ reg0_hz3]
  simp only [View.readAt_eq_ld, h2.read_unread, h3.read_unread, h4.read_unread,
    View.ld_unit_zero (S := S16x16384) reg0_hz2, View.ld_unit_zero (S := S2x16384) reg0_hz2,
    View.ld_unit_zero (S := S1x16384) reg0_hz2]

end Pieces

/-- The body's store, read at an index: what the output block held plus the block's contribution. -/
def Pay0 : Prop :=
  ∀ (v3 : Vec Ideal S16x16384 .f32) (v5 : Vec Ideal S2x16384 .f32) (v7 : Vec Ideal S1x16384 .i32)
    (v19 : Vec Ideal S1x32x18 .f32) (k : Fin 32) (e : Fin 18),
    k0_pay2 v3 v5 v7 v19 (ix3 0 k e)
      = v19 (ix3 0 k e)
        + ∑ j : Fin 16384, hotI (v7 (ix2 0 j)).toInt k * extF (fun d => v3 (ix2 d j)) (v5 (ix2 1 j)) e

variable (V : (c : Dev nD) → (b : Ref sig .tc) → Buf (Elt Ideal) ((c : Thread nD τ).loc b))

/-- What block t of 16384 points adds to entry (k, e). -/
def reg0_Mblk (x : XF.Idx → EReal) (s : XS.Idx → EReal) (l : XL.Idx → BitVec 32) (t : ℕ) (k : Fin 32) (e : Fin 18) : EReal :=
  ∑ j ∈ Finset.range 16384, hotI (labP l (t * 16384 + j)) k * extF (xrowP x (t * 16384 + j)) (s1P s (t * 16384 + j)) e

/-- The three input blocks of a grid point, at their literal types. -/
abbrev reg0_blkX (c : Dev nD) (t : Fin cfg0.N) : Vec Ideal S16x16384 .f32 := iblk0 V c 0 t
abbrev reg0_blkS (c : Dev nD) (t : Fin cfg0.N) : Vec Ideal S2x16384 .f32 := iblk0 V c 1 t
abbrev reg0_blkL (c : Dev nD) (t : Fin cfg0.N) : Vec Ideal S1x16384 .i32 := iblk0 V c 2 t

/-- The block indices of the three operands at grid point t: row block 0, column block t. -/
theorem reg0_idx_in : ∀ t : Fin grid0.N,
    (win0_0.index t 0 = 0 ∧ win0_0.index t 1 = t.val) ∧ (win0_1.index t 0 = 0 ∧ win0_1.index t 1 = t.val)
      ∧ (win0_2.index t 0 = 0 ∧ win0_2.index t 1 = t.val) := by decide +kernel

/-- The block index of the result at grid point t: row t / 31. -/
theorem reg0_idx_out : ∀ t : Fin grid0.N,
    win0_3.index t 0 = t.val / 31 ∧ win0_3.index t 1 = 0 ∧ win0_3.index t 2 = 0 := by decide +kernel

theorem reg0_blkX_apply (c : Dev nD) (t : Fin cfg0.N) (d : Fin 16) (j : Fin 16384) (hb : t.val * 16384 + j.val < 1015808) :
    reg0_blkX V c t (ix2 d j) = V c main_v3 (ix2 d ⟨t.val * 16384 + j.val, hb⟩) := by
  unfold reg0_blkX iblk0
  rw [View.read_apply]
  show V c main_v3 _ = V c main_v3 _
  congr 1
  funext a
  apply Fin.ext
  match a with
  | ⟨0, _⟩ => show win0_0.index t 0 * 16 + 1 * d.val = d.val; rw [(reg0_idx_in t).1.1]; omega
  | ⟨1, _⟩ => show win0_0.index t 1 * 16384 + 1 * j.val = t.val * 16384 + j.val; rw [(reg0_idx_in t).1.2]; omega

theorem reg0_blkS_apply (c : Dev nD) (t : Fin cfg0.N) (d : Fin 2) (j : Fin 16384) (hb : t.val * 16384 + j.val < 1015808) :
    reg0_blkS V c t (ix2 d j) = V c main_v4 (ix2 d ⟨t.val * 16384 + j.val, hb⟩) := by
  unfold reg0_blkS iblk0
  rw [View.read_apply]
  show V c main_v4 _ = V c main_v4 _
  congr 1
  funext a
  apply Fin.ext
  match a with
  | ⟨0, _⟩ => show win0_1.index t 0 * 2 + 1 * d.val = d.val; rw [(reg0_idx_in t).2.1.1]; omega
  | ⟨1, _⟩ => show win0_1.index t 1 * 16384 + 1 * j.val = t.val * 16384 + j.val; rw [(reg0_idx_in t).2.1.2]; omega

theorem reg0_blkL_apply (c : Dev nD) (t : Fin cfg0.N) (d : Fin 1) (j : Fin 16384) (hb : t.val * 16384 + j.val < 1015808) :
    reg0_blkL V c t (ix2 d j) = V c main_v5 (ix2 d ⟨t.val * 16384 + j.val, hb⟩) := by
  unfold reg0_blkL iblk0
  rw [View.read_apply]
  show V c main_v5 _ = V c main_v5 _
  congr 1
  funext a
  apply Fin.ext
  match a with
  | ⟨0, _⟩ => show win0_2.index t 0 * 1 + 1 * d.val = d.val; rw [(reg0_idx_in t).2.2.1]; omega
  | ⟨1, _⟩ => show win0_2.index t 1 * 16384 + 1 * j.val = t.val * 16384 + j.val; rw [(reg0_idx_in t).2.2.2]; omega

/-- The block's contribution, read through the three windows, is the contribution of block t of the padded data. -/
theorem reg0_blockSum (c : Dev nD) (x : XF.Idx → EReal) (s : XS.Idx → EReal) (l : XL.Idx → BitVec 32)
    (h3 : ∀ (d : Fin 16) (n : Fin 1015808), V c main_v3 (ix2 d n) = xrowP x n.val d)
    (h4 : ∀ (n : Fin 1015808), V c main_v4 (ix2 1 n) = s1P s n.val)
    (h5 : ∀ (n : Fin 1015808), (V c main_v5 (ix2 0 n)).toInt = labP l n.val)
    (t : Fin cfg0.N) (k : Fin 32) (e : Fin 18) :
    ∑ j : Fin 16384, hotI ((reg0_blkL V c t) (ix2 0 j)).toInt k * extF (fun d => reg0_blkX V c t (ix2 d j)) (reg0_blkS V c t (ix2 1 j)) e
      = reg0_Mblk x s l t.val k e := by
  have hN : t.val < 62 := lt_of_lt_of_eq t.isLt (show cfg0.N = 62 from N_0)
  unfold reg0_Mblk
  rw [Finset.sum_range]
  refine Finset.sum_congr rfl fun j _ => ?_
  have hb : t.val * 16384 + j.val < 1015808 := by have := j.isLt; omega
  have e1 : (reg0_blkL V c t (ix2 0 j)).toInt = labP l (t.val * 16384 + j.val) := by
    rw [reg0_blkL_apply V c t 0 j hb]; exact h5 ⟨_, hb⟩
  have e2 : (fun d => reg0_blkX V c t (ix2 d j)) = xrowP x (t.val * 16384 + j.val) :=
    funext fun d => by rw [reg0_blkX_apply V c t d j hb]; exact h3 d ⟨_, hb⟩
  have e3 : reg0_blkS V c t (ix2 1 j) = s1P s (t.val * 16384 + j.val) := by
    rw [reg0_blkS_apply V c t 1 j hb]; exact h4 ⟨_, hb⟩
  rw [e1, e2, e3]

/-- The running contents do not depend on how the point is spelt. -/
theorem reg0_outsAt0_congr (c : Dev nD) {u v : ℕ} (hu : u < cfg0.N) (hv : v < cfg0.N) (e : u = v) :
    outsAt0 V c u hu = outsAt0 V c v hv := by subst e; rfl

section Fold

variable (hp1 : ∀ i : S1x32x18.Idx, (k0_pay1 (F := Ideal)) i = 0) (hp2 : Pay0)
  (c : Dev nD) (x : XF.Idx → EReal) (s : XS.Idx → EReal) (l : XL.Idx → BitVec 32)
  (h3 : ∀ (d : Fin 16) (n : Fin 1015808), V c main_v3 (ix2 d n) = xrowP x n.val d)
  (h4 : ∀ (n : Fin 1015808), V c main_v4 (ix2 1 n) = s1P s n.val)
  (h5 : ∀ (n : Fin 1015808), (V c main_v5 (ix2 0 n)).toInt = labP l n.val)

include hp1 hp2 h3 h4 h5 in
/-- At a core's first block the output block is left at that block's contribution. -/
theorem reg0_outsAt_A (t : Fin cfg0.N) (h0 : t.val % 31 = 0) (k : Fin 32) (e : Fin 18) :
    outsAt0 V c t.val t.isLt (ix3 0 k e) = reg0_Mblk x s l t.val k e := by
  rw [outsAt0_A V c t h0]
  refine (congrFun (reg0_out0_A (F := Ideal) c (grid0.coords t) (ms0_0 t) (hs0_0 t) (ms0_1 t) (hs0_1 t) (ms0_2 t) (hs0_2 t)
    (ms0_3 t) (hs0_3 t) ((hcond0_0 t).mpr h0) (iblk0 V c 0 t) (iblk0 V c 1 t) (iblk0 V c 2 t)) (ix3 0 k e)).trans ?_
  have step := hp2 (reg0_blkX V c t) (reg0_blkS V c t) (reg0_blkL V c t) (k0_pay1 (F := Ideal)) k e
  rw [reg0_blockSum V c x s l h3 h4 h5 t k e, hp1, zero_add] at step
  exact step

include hp2 h3 h4 h5 in
/-- At every other block the output block gains that block's contribution. -/
theorem reg0_outsAt_B (t : Fin cfg0.N) (h0 : ¬t.val % 31 = 0) (k : Fin 32) (e : Fin 18) :
    outsAt0 V c t.val t.isLt (ix3 0 k e)
      = outsAt0 V c (t.val - 1) (Nat.lt_of_le_of_lt (Nat.sub_le _ _) t.isLt) (ix3 0 k e) + reg0_Mblk x s l t.val k e := by
  rw [outsAt0_B V c t h0]
  refine (congrFun (reg0_out0_B (F := Ideal) c (grid0.coords t) (ms0_0 t) (hs0_0 t) (ms0_1 t) (hs0_1 t) (ms0_2 t) (hs0_2 t)
    (ms0_3 t) (hs0_3 t) (fun h => h0 ((hcond0_0 t).mp h)) (iblk0 V c 0 t) (iblk0 V c 1 t) (iblk0 V c 2 t)
    (outsAt0 V c (t.val - 1) (Nat.lt_of_le_of_lt (Nat.sub_le _ _) t.isLt))) (ix3 0 k e)).trans ?_
  have step := hp2 (reg0_blkX V c t) (reg0_blkS V c t) (reg0_blkL V c t)
    (outsAt0 V c (t.val - 1) (Nat.lt_of_le_of_lt (Nat.sub_le _ _) t.isLt)) k e
  rw [reg0_blockSum V c x s l h3 h4 h5 t k e] at step
  exact step

include hp1 hp2 h3 h4 h5 in
/-- After block j of core q the output block holds the contributions of blocks 31q … 31q + j. -/
theorem reg0_outsAt_eq (k : Fin 32) (e : Fin 18) (q : ℕ) : ∀ (j : ℕ) (hj : j < 31) (h : 31 * q + j < cfg0.N),
    outsAt0 V c (31 * q + j) h (ix3 0 k e) = ∑ s' ∈ Finset.range (j + 1), reg0_Mblk x s l (31 * q + s') k e := by
  intro j
  induction j with
  | zero =>
    intro hj h
    rw [Finset.sum_range_one]
    exact reg0_outsAt_A V hp1 hp2 c x s l h3 h4 h5 ⟨31 * q + 0, h⟩ (by dsimp only; omega) k e
  | succ j ih =>
    intro hj h
    have ih' := ih (by omega) (Nat.lt_of_succ_lt h)
    have hB := reg0_outsAt_B V hp2 c x s l h3 h4 h5 ⟨31 * q + (j + 1), h⟩ (by dsimp only; omega) k e
    rw [Finset.sum_range_succ, ← ih']
    exact hB.trans (congrArg₂ (· + ·)
      (congrFun (reg0_outsAt0_congr V c _ (Nat.lt_of_succ_lt h : 31 * q + j < cfg0.N) (by dsimp only; omega)) (ix3 0 k e)) rfl)

include hp1 hp2 h3 h4 h5 in
/-- At a core's last block the output block holds the contributions of all its 31 blocks. -/
theorem reg0_flushed_at (t : Fin cfg0.N) (h30 : t.val % 31 = 30) (k : Fin 32) (e : Fin 18) :
    outsAt0 V c t.val t.isLt (ix3 0 k e) = ∑ s' ∈ Finset.range 31, reg0_Mblk x s l (31 * (t.val / 31) + s') k e := by
  have hlt : 31 * (t.val / 31) + 30 < cfg0.N := by have := t.isLt; omega
  rw [reg0_outsAt0_congr V c t.isLt hlt (by omega)]
  exact reg0_outsAt_eq V hp1 hp2 c x s l h3 h4 h5 k e (t.val / 31) 30 (by omega) hlt

end Fold

/-- The result array the region leaves: row q holds the contributions of core q's 31 blocks. -/
def reg0_Gfin (x : XF.Idx → EReal) (s : XS.Idx → EReal) (l : XL.Idx → BitVec 32) : Vec Ideal S2x32x18 .f32 :=
  fun i => ∑ s' ∈ Finset.range 31, reg0_Mblk x s l (31 * (i 0).val + s') (i 1) (i 2)

/-- Entry (q, k, e) of the result array after the region, when the region finds the padded, transposed data in
    its three operand arrays. -/
theorem reg0_final (hp1 : ∀ i : S1x32x18.Idx, (k0_pay1 (F := Ideal)) i = 0) (hp2 : Pay0)
    (c : Dev nD) (x : XF.Idx → EReal) (s : XS.Idx → EReal) (l : XL.Idx → BitVec 32)
    (h3 : ∀ (d : Fin 16) (n : Fin 1015808), V c main_v3 (ix2 d n) = xrowP x n.val d)
    (h4 : ∀ (n : Fin 1015808), V c main_v4 (ix2 1 n) = s1P s n.val)
    (h5 : ∀ (n : Fin 1015808), (V c main_v5 (ix2 0 n)).toInt = labP l n.val)
    (q : Fin 2) (k : Fin 32) (e : Fin 18) :
    (dat0 (F := Ideal) V c).arrAt 3 cfg0.N (ix3 q k e)
      = ∑ t ∈ Finset.range 31, ∑ j ∈ Finset.range 16384,
          hotI (labP l ((31 * q.val + t) * 16384 + j)) k
            * extF (xrowP x ((31 * q.val + t) * 16384 + j)) (s1P s ((31 * q.val + t) * 16384 + j)) e := by
  have hN : cfg0.N = 62 := N_0
  have hq := q.isLt
  have hG : ∀ t : Fin cfg0.N, (cfg0.win 3).flush t = true →
      (dat0 (F := Ideal) V c).flushed 3 t = ((cfg0.win 3).blk t).view.read (Elt Ideal) (reg0_Gfin x s l) := by
    intro t hf
    have h30 := (flush0_3 t).mp hf
    have htN : t.val < 62 := lt_of_lt_of_eq t.isLt hN
    funext y
    obtain ⟨k', e', rfl⟩ : ∃ (k' : Fin 32) (e' : Fin 18), y = ix3 0 k' e' := ⟨y 1, y 2, by
      funext a
      match a with
      | ⟨0, _⟩ => exact Fin.ext (by have : (y 0).val < 1 := (y 0).isLt; show (y 0).val = 0; omega)
      | ⟨1, _⟩ => rfl
      | ⟨2, _⟩ => rfl⟩
    rw [View.read_apply]
    show outsAt0 V c t.val t.isLt (ix3 0 k' e') = reg0_Gfin x s l _
    rw [reg0_flushed_at V hp1 hp2 c x s l h3 h4 h5 t h30 k' e']
    refine Eq.trans ?_ (congrArg (reg0_Gfin x s l) (?_ : ix3 ⟨t.val / 31, by omega⟩ k' e' = _))
    · rfl
    · funext a
      apply Fin.ext
      match a with
      | ⟨0, _⟩ => show t.val / 31 = win0_3.index t 0 * 1 + 1 * 0; rw [(reg0_idx_out t).1]; omega
      | ⟨1, _⟩ => show k'.val = win0_3.index t 1 * 32 + 1 * k'.val; rw [(reg0_idx_out t).2.1]; omega
      | ⟨2, _⟩ => show e'.val = win0_3.index t 2 * 18 + 1 * e'.val; rw [(reg0_idx_out t).2.2]; omega
  have ht : 31 * q.val + 30 < cfg0.N := by omega
  have hf : (cfg0.win 3).flush ⟨31 * q.val + 30, ht⟩ = true := (flush0_3 ⟨31 * q.val + 30, ht⟩).mpr (by dsimp only; omega)
  have hi : (ix3 q k e : S2x32x18.Idx) ∈ ((cfg0.win 3).blk ⟨31 * q.val + 30, ht⟩).view.set := by
    show ix3 q k e ∈ ((View.whole main_v6).slice (win0_3.rect ⟨31 * q.val + 30, ht⟩)).set
    rw [View.set_slice_whole, Rect.mem_set_unit]
    intro a
    have hio := reg0_idx_out ⟨31 * q.val + 30, ht⟩
    match a with
    | ⟨0, _⟩ =>
      show win0_3.index ⟨31 * q.val + 30, ht⟩ 0 * 1 ≤ q.val ∧ q.val < win0_3.index ⟨31 * q.val + 30, ht⟩ 0 * 1 + 1
      rw [hio.1]; dsimp only; omega
    | ⟨1, _⟩ =>
      show win0_3.index ⟨31 * q.val + 30, ht⟩ 1 * 32 ≤ k.val ∧ k.val < win0_3.index ⟨31 * q.val + 30, ht⟩ 1 * 32 + 32
      rw [hio.2.1]; have := k.isLt; omega
    | ⟨2, _⟩ =>
      show win0_3.index ⟨31 * q.val + 30, ht⟩ 2 * 18 ≤ e.val ∧ e.val < win0_3.index ⟨31 * q.val + 30, ht⟩ 2 * 18 + 18
      rw [hio.2.2]; have := e.isLt; omega
  refine ((dat0 (F := Ideal) V c).arrAt_apply_of_mem 3 (reg0_Gfin x s l) hG cfg0.N ⟨31 * q.val + 30, ht⟩ (ix3 q k e) ht hf hi).trans ?_
  rfl

end Cert.KernelIdeal.Val

end
-- ==== Proof.KReg1.lean ====
/-
  What the second region leaves in its three result arrays.

  The grid is 2 × 62: core q walks blocks 62q … 62q + 61 of 8192 points each, resets its three output blocks at its
  first block and adds one block's contribution to each at every block; the blocks are written back to row q of the
  results after the core's last block. So row q of each result is the sum over the core's 62 blocks and the 8192
  points of each: of the masked cross-entropy, of the masked squared seediness error, and per cluster of the
  indicator times the squared deviation of v.
-/
import proofs.«401601_j38319698215236_3_alg».proof.Proof.Gen.KernelIdeal.Frame
import proofs.«401601_j38319698215236_3_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem Cert.Spec
open Idealize.ShloMosaic.Pipeline (Dat)

/-- The body's three stores, read at an index: what the output block held plus the block's contribution. -/
structure Pay1 : Prop where
  z3 : ∀ i : S1x1x1.Idx, (k1_pay3 (F := Ideal)) i = 0
  z4 : ∀ i : S1x1x1.Idx, (k1_pay4 (F := Ideal)) i = 0
  z5 : ∀ i : S1x32x1.Idx, (k1_pay5 (F := Ideal)) i = 0
  bce : ∀ (v3 : Vec Ideal S16x8192 .f32) (v7 : Vec Ideal S1x8192 .i32) (v9 : Vec Ideal S32x16 .f32)
      (v11 : Vec Ideal S32x1 .f32) (v13 : Vec Ideal S32x1 .f32) (z : Ideal .f32) (hz : z = 0) (v64 : Vec Ideal S1x1x1 .f32),
      k1_pay15 (k1_pay8 v11) (k1_pay9 v7) (k1_pay10 v7) (k1_pay12 v3 v9 v13) z v64 (ix3 0 0 0)
        = v64 (ix3 0 0 0)
          + ∑ j : Fin 8192,
              rowB (fun k d => v9 (ix2 k d)) (fun k => v11 (ix2 k 0)) (fun k => v13 (ix2 k 0))
                (fun d => v3 (ix2 d j)) (v7 (ix2 0 j)).toInt
              * validI (v7 (ix2 0 j)).toInt
  seed : ∀ (v3 : Vec Ideal S16x8192 .f32) (v5 : Vec Ideal S2x8192 .f32) (v7 : Vec Ideal S1x8192 .i32)
      (v9 : Vec Ideal S32x16 .f32) (v11 : Vec Ideal S32x1 .f32) (v13 : Vec Ideal S32x1 .f32) (z : Ideal .f32) (hz : z = 0)
      (v79 : Vec Ideal S1x1x1 .f32),
      k1_pay1 (k1_pay16 (k1_pay6 v5) (k1_pay8 v11) (k1_pay9 v7) (k1_pay10 v7) (k1_pay12 v3 v9 v13) z) v79 (ix3 0 0 0)
        = v79 (ix3 0 0 0)
          + ∑ j : Fin 8192,
              serr (fun k d => v9 (ix2 k d)) (fun k => v11 (ix2 k 0)) (fun k => v13 (ix2 k 0))
                (fun d => v3 (ix2 d j)) (v5 (ix2 0 j)) (v7 (ix2 0 j)).toInt
              * validI (v7 (ix2 0 j)).toInt
  sq : ∀ (v5 : Vec Ideal S2x8192 .f32) (v7 : Vec Ideal S1x8192 .i32) (v11 : Vec Ideal S32x1 .f32)
      (v92 : Vec Ideal S1x32x1 .f32) (k : Fin 32),
      k1_pay2 (k1_pay8 v11) (k1_pay9 v7) (k1_pay11 v5) v92 (ix3 0 k 0)
        = v92 (ix3 0 k 0)
          + ∑ j : Fin 8192, hotI (v7 (ix2 0 j)).toInt k * sqd (fun k => v11 (ix2 k 0)) (v5 (ix2 1 j)) (v7 (ix2 0 j)).toInt

/-- The zero offsets of a block read or written whole, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one run of the body leaves in each output block

At a core's first block the body stores the zero block, reads it back and stores zero plus the block's contribution;
at every other block it stores what the block held plus the contribution. -/

section Pieces

variable {F : FTy → Type} [FloatOps F]

theorem out_B_8 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : ¬cond1_0 i)
    (x0 : Vec F S16x8192 .f32) (x1 : Vec F S2x8192 .f32) (x2 : Vec F S1x8192 .i32) (x3 : Vec F S32x16 .f32) (x4 : Vec F S32x1 .f32) (x5 : Vec F S32x1 .f32) (xo6 : Vec F S1x1x1 .f32) (xo7 : Vec F S1x1x1 .f32) (xo8 : Vec F S1x32x1 .f32) :
    out1_B_8 c i a0 h0 a1 h1 a2 h2 a3 h3 a4 h4 a5 h5 a6 h6 a7 h7 a8 h8 hc x0 x1 x2 x3 x4 x5 xo6 xo7 xo8 = k1_pay2 (k1_pay8 x4) (k1_pay9 x2) (k1_pay11 x1) xo8 := by
  unfold out1_B_8
  rw [View.read_writes_eq_canon _ _ _ (cover1_B_8 c i a0 h0 a1 h1 a2 h2 a3 h3 a4 h4 a5 h5 a6 h6 a7 h7 a8 h8 hc x0 x1 x2 x3 x4 x5 xo6 xo7 xo8)]
  unfold kernelRun1_B
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

theorem out_A_8 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : cond1_0 i)
    (x0 : Vec F S16x8192 .f32) (x1 : Vec F S2x8192 .f32) (x2 : Vec F S1x8192 .i32) (x3 : Vec F S32x16 .f32) (x4 : Vec F S32x1 .f32) (x5 : Vec F S32x1 .f32) :
    out1_A_8 c i a0 h0 a1 h1 a2 h2 a3 h3 a4 h4 a5 h5 a6 h6 a7 h7 a8 h8 hc x0 x1 x2 x3 x4 x5 = k1_pay2 (k1_pay8 x4) (k1_pay9 x2) (k1_pay11 x1) k1_pay5 := by
  unfold out1_A_8
  rw [View.read_writes_eq_canon _ _ _ (cover1_A_8 c i a0 h0 a1 h1 a2 h2 a3 h3 a4 h4 a5 h5 a6 h6 a7 h7 a8 h8 hc x0 x1 x2 x3 x4 x5)]
  unfold kernelRun1_A
  dsimp only
  sl_unfold_words
  rw [View.canon_cons_unit_zero (S := S1x32x1) hz3, View.readCov_unit_zero (S := S1x32x1) _ hz3]
  simp only [View.readAt_eq_ld, h0.read_unread, h1.read_unread, h2.read_unread, h3.read_unread, h4.read_unread, h5.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

theorem out_B_6 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : ¬cond1_0 i)
    (x0 : Vec F S16x8192 .f32) (x1 : Vec F S2x8192 .f32) (x2 : Vec F S1x8192 .i32) (x3 : Vec F S32x16 .f32) (x4 : Vec F S32x1 .f32) (x5 : Vec F S32x1 .f32) (xo6 : Vec F S1x1x1 .f32) (xo7 : Vec F S1x1x1 .f32) (xo8 : Vec F S1x32x1 .f32) :
    out1_B_6 c i a0 h0 a1 h1 a2 h2 a3 h3 a4 h4 a5 h5 a6 h6 a7 h7 a8 h8 hc x0 x1 x2 x3 x4 x5 xo6 xo7 xo8 = k1_pay15 (k1_pay8 x4) (k1_pay9 x2) (k1_pay10 x2) (k1_pay12 x0 x3 x5) (Scalar.ofBits .f32 0x00000000#32) xo6 := by
  unfold out1_B_6
  rw [View.read_writes_eq_canon _ _ _ (cover1_B_6 c i a0 h0 a1 h1 a2 h2 a3 h3 a4 h4 a5 h5 a6 h6 a7 h7 a8 h8 hc x0 x1 x2 x3 x4 x5 xo6 xo7 xo8)]
  unfold kernelRun1_B
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

theorem out_A_6 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : cond1_0 i)
    (x0 : Vec F S16x8192 .f32) (x1 : Vec F S2x8192 .f32) (x2 : Vec F S1x8192 .i32) (x3 : Vec F S32x16 .f32) (x4 : Vec F S32x1 .f32) (x5 : Vec F S32x1 .f32) :
    out1_A_6 c i a0 h0 a1 h1 a2 h2 a3 h3 a4 h4 a5 h5 a6 h6 a7 h7 a8 h8 hc x0 x1 x2 x3 x4 x5 = k1_pay15 (k1_pay8 x4) (k1_pay9 x2) (k1_pay10 x2) (k1_pay12 x0 x3 x5) (Scalar.ofBits .f32 0x00000000#32) k1_pay3 := by
  unfold out1_A_6
  rw [View.read_writes_eq_canon _ _ _ (cover1_A_6 c i a0 h0 a1 h1 a2 h2 a3 h3 a4 h4 a5 h5 a6 h6 a7 h7 a8 h8 hc x0 x1 x2 x3 x4 x5)]
  unfold kernelRun1_A
  dsimp only
  sl_unfold_words
  rw [View.canon_cons_unit_zero (S := S1x1x1) hz3, View.readCov_unit_zero (S := S1x1x1) _ hz3]
  simp only [View.readAt_eq_ld, h0.read_unread, h1.read_unread, h2.read_unread, h3.read_unread, h4.read_unread, h5.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

theorem out_B_7 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : ¬cond1_0 i)
    (x0 : Vec F S16x8192 .f32) (x1 : Vec F S2x8192 .f32) (x2 : Vec F S1x8192 .i32) (x3 : Vec F S32x16 .f32) (x4 : Vec F S32x1 .f32) (x5 : Vec F S32x1 .f32) (xo6 : Vec F S1x1x1 .f32) (xo7 : Vec F S1x1x1 .f32) (xo8 : Vec F S1x32x1 .f32) :
    out1_B_7 c i a0 h0 a1 h1 a2 h2 a3 h3 a4 h4 a5 h5 a6 h6 a7 h7 a8 h8 hc x0 x1 x2 x3 x4 x5 xo6 xo7 xo8 = k1_pay1 (k1_pay16 (k1_pay6 x1) (k1_pay8 x4) (k1_pay9 x2) (k1_pay10 x2) (k1_pay12 x0 x3 x5) (Scalar.ofBits .f32 0x00000000#32)) xo7 := by
  unfold out1_B_7
  rw [View.read_writes_eq_canon _ _ _ (cover1_B_7 c i a0 h0 a1 h1 a2 h2 a3 h3 a4 h4 a5 h5 a6 h6 a7 h7 a8 h8 hc x0 x1 x2 x3 x4 x5 xo6 xo7 xo8)]
  unfold kernelRun1_B
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

theorem out_A_7 (c : Dev nD) (i : grid1.Coords) (a0 : Memref sig .tc .vmem S16x8192 .f32) (h0 : a0.IsWhole) (a1 : Memref sig .tc .vmem S2x8192 .f32) (h1 : a1.IsWhole) (a2 : Memref sig .tc .vmem S1x8192 .i32) (h2 : a2.IsWhole) (a3 : Memref sig .tc .vmem S32x16 .f32) (h3 : a3.IsWhole) (a4 : Memref sig .tc .vmem S32x1 .f32) (h4 : a4.IsWhole) (a5 : Memref sig .tc .vmem S32x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x32x1 .f32) (h8 : a8.IsWhole) (hc : cond1_0 i)
    (x0 : Vec F S16x8192 .f32) (x1 : Vec F S2x8192 .f32) (x2 : Vec F S1x8192 .i32) (x3 : Vec F S32x16 .f32) (x4 : Vec F S32x1 .f32) (x5 : Vec F S32x1 .f32) :
    out1_A_7 c i a0 h0 a1 h1 a2 h2 a3 h3 a4 h4 a5 h5 a6 h6 a7 h7 a8 h8 hc x0 x1 x2 x3 x4 x5 = k1_pay1 (k1_pay16 (k1_pay6 x1) (k1_pay8 x4) (k1_pay9 x2) (k1_pay10 x2) (k1_pay12 x0 x3 x5) (Scalar.ofBits .f32 0x00000000#32)) k1_pay4 := by
  unfold out1_A_7
  rw [View.read_writes_eq_canon _ _ _ (cover1_A_7 c i a0 h0 a1 h1 a2 h2 a3 h3 a4 h4 a5 h5 a6 h6 a7 h7 a8 h8 hc x0 x1 x2 x3 x4 x5)]
  unfold kernelRun1_A
  dsimp only
  sl_unfold_words
  rw [View.canon_cons_unit_zero (S := S1x1x1) hz3, View.readCov_unit_zero (S := S1x1x1) _ hz3]
  simp only [View.readAt_eq_ld, h0.read_unread, h1.read_unread, h2.read_unread, h3.read_unread, h4.read_unread, h5.read_unread, View.ld_unit_zero (S := S16x8192) hz2, View.ld_unit_zero (S := S32x16) hz2, View.ld_unit_zero (S := S32x1) hz2, View.ld_unit_zero (S := S1x8192) hz2, View.ld_unit_zero (S := S2x8192) hz2, View.ld_unit_zero (S := S1x32x1) hz3, View.ld_unit_zero (S := S1x1x1) hz3]

end Pieces

/-- The zero word the body hands on is the extended real 0. -/
theorem zero_word : (Scalar.ofBits .f32 0x00000000#32 : Ideal .f32) = 0 := Ideal.ofBits_zero_f32

variable (V : (c : Dev nD) → (b : Ref sig .tc) → Buf (Elt Ideal) ((c : Thread nD τ).loc b))

/-! ## The input blocks of a point

Block t of the three point arrays holds points 8192 t … 8192 t + 8191; the three cluster statistics are read whole
at every point. -/

/-- The six input blocks at point t, each at its literal type. -/
abbrev bX (c : Dev nD) (t : Fin cfg1.N) : Vec Ideal S16x8192 .f32 := iblk1 V c 0 t
abbrev bS (c : Dev nD) (t : Fin cfg1.N) : Vec Ideal S2x8192 .f32 := iblk1 V c 1 t
abbrev bL (c : Dev nD) (t : Fin cfg1.N) : Vec Ideal S1x8192 .i32 := iblk1 V c 2 t
abbrev bC (c : Dev nD) (t : Fin cfg1.N) : Vec Ideal S32x16 .f32 := iblk1 V c 3 t
abbrev bV (c : Dev nD) (t : Fin cfg1.N) : Vec Ideal S32x1 .f32 := iblk1 V c 4 t
abbrev bM (c : Dev nD) (t : Fin cfg1.N) : Vec Ideal S32x1 .f32 := iblk1 V c 5 t

/-- The block indices of the six inputs at point t: the point arrays' block t, the statistics' only block. -/
theorem idx_in : ∀ t : Fin cfg1.N,
    (win1_0.index t 0 = 0 ∧ win1_0.index t 1 = t.val) ∧ (win1_1.index t 0 = 0 ∧ win1_1.index t 1 = t.val)
    ∧ (win1_2.index t 0 = 0 ∧ win1_2.index t 1 = t.val) ∧ (win1_3.index t 0 = 0 ∧ win1_3.index t 1 = 0)
    ∧ (win1_4.index t 0 = 0 ∧ win1_4.index t 1 = 0) ∧ (win1_5.index t 0 = 0 ∧ win1_5.index t 1 = 0) :=
  (by decide +kernel : ∀ t : Fin grid1.N,
    (win1_0.index t 0 = 0 ∧ win1_0.index t 1 = t.val) ∧ (win1_1.index t 0 = 0 ∧ win1_1.index t 1 = t.val)
    ∧ (win1_2.index t 0 = 0 ∧ win1_2.index t 1 = t.val) ∧ (win1_3.index t 0 = 0 ∧ win1_3.index t 1 = 0)
    ∧ (win1_4.index t 0 = 0 ∧ win1_4.index t 1 = 0) ∧ (win1_5.index t 0 = 0 ∧ win1_5.index t 1 = 0))

/-- The block index of the three outputs at point t: row t / 62. -/
theorem idx_out : ∀ t : Fin cfg1.N,
    (win1_6.index t 0 = t.val / 62 ∧ win1_6.index t 1 = 0 ∧ win1_6.index t 2 = 0)
    ∧ (win1_7.index t 0 = t.val / 62 ∧ win1_7.index t 1 = 0 ∧ win1_7.index t 2 = 0)
    ∧ (win1_8.index t 0 = t.val / 62 ∧ win1_8.index t 1 = 0 ∧ win1_8.index t 2 = 0) :=
  (by decide +kernel : ∀ t : Fin grid1.N,
    (win1_6.index t 0 = t.val / 62 ∧ win1_6.index t 1 = 0 ∧ win1_6.index t 2 = 0)
    ∧ (win1_7.index t 0 = t.val / 62 ∧ win1_7.index t 1 = 0 ∧ win1_7.index t 2 = 0)
    ∧ (win1_8.index t 0 = t.val / 62 ∧ win1_8.index t 1 = 0 ∧ win1_8.index t 2 = 0))

theorem lt124 (t : Fin cfg1.N) : t.val < 124 := lt_of_lt_of_eq t.isLt (show cfg1.N = 124 from N_1)

theorem bX_apply (c : Dev nD) (t : Fin cfg1.N) (d : Fin 16) (j : Fin 8192) (hb : t.val * 8192 + j.val < 1015808) :
    bX V c t (ix2 d j) = V c main_v3 (ix2 d ⟨t.val * 8192 + j.val, hb⟩) := by
  unfold bX iblk1
  rw [View.read_apply]
  show V c main_v3 _ = V c main_v3 _
  congr 1
  funext a
  apply Fin.ext
  match a with
  | ⟨0, _⟩ => show win1_0.index t 0 * 16 + 1 * d.val = d.val; rw [(idx_in t).1.1]; omega
  | ⟨1, _⟩ => show win1_0.index t 1 * 8192 + 1 * j.val = t.val * 8192 + j.val; rw [(idx_in t).1.2]; omega

theorem bS_apply (c : Dev nD) (t : Fin cfg1.N) (r : Fin 2) (j : Fin 8192) (hb : t.val * 8192 + j.val < 1015808) :
    bS V c t (ix2 r j) = V c main_v4 (ix2 r ⟨t.val * 8192 + j.val, hb⟩) := by
  unfold bS iblk1
  rw [View.read_apply]
  show V c main_v4 _ = V c main_v4 _
  congr 1
  funext a
  apply Fin.ext
  match a with
  | ⟨0, _⟩ => show win1_1.index t 0 * 2 + 1 * r.val = r.val; rw [(idx_in t).2.1.1]; omega
  | ⟨1, _⟩ => show win1_1.index t 1 * 8192 + 1 * j.val = t.val * 8192 + j.val; rw [(idx_in t).2.1.2]; omega

theorem bL_apply (c : Dev nD) (t : Fin cfg1.N) (j : Fin 8192) (hb : t.val * 8192 + j.val < 1015808) :
    bL V c t (ix2 0 j) = V c main_v5 (ix2 0 ⟨t.val * 8192 + j.val, hb⟩) := by
  unfold bL iblk1
  rw [View.read_apply]
  show V c main_v5 _ = V c main_v5 _
  congr 1
  funext a
  apply Fin.ext
  match a with
  | ⟨0, _⟩ => show win1_2.index t 0 * 1 + 1 * 0 = 0; rw [(idx_in t).2.2.1.1]
  | ⟨1, _⟩ => show win1_2.index t 1 * 8192 + 1 * j.val = t.val * 8192 + j.val; rw [(idx_in t).2.2.1.2]; omega

theorem bC_apply (c : Dev nD) (t : Fin cfg1.N) (k : Fin 32) (d : Fin 16) :
    bC V c t (ix2 k d) = V c main_v11 (ix2 k d) := by
  unfold bC iblk1
  rw [View.read_apply]
  show V c main_v11 _ = V c main_v11 _
  congr 1
  funext a
  apply Fin.ext
  match a with
  | ⟨0, _⟩ => show win1_3.index t 0 * 32 + 1 * k.val = k.val; rw [(idx_in t).2.2.2.1.1]; omega
  | ⟨1, _⟩ => show win1_3.index t 1 * 16 + 1 * d.val = d.val; rw [(idx_in t).2.2.2.1.2]; omega

theorem bV_apply (c : Dev nD) (t : Fin cfg1.N) (k : Fin 32) :
    bV V c t (ix2 k 0) = V c main_v13 (ix2 k 0) := by
  unfold bV iblk1
  rw [View.read_apply]
  show V c main_v13 _ = V c main_v13 _
  congr 1
  funext a
  apply Fin.ext
  match a with
  | ⟨0, _⟩ => show win1_4.index t 0 * 32 + 1 * k.val = k.val; rw [(idx_in t).2.2.2.2.1.1]; omega
  | ⟨1, _⟩ => show win1_4.index t 1 * 1 + 1 * 0 = 0; rw [(idx_in t).2.2.2.2.1.2]

theorem bM_apply (c : Dev nD) (t : Fin cfg1.N) (k : Fin 32) :
    bM V c t (ix2 k 0) = V c main_v16 (ix2 k 0) := by
  unfold bM iblk1
  rw [View.read_apply]
  show V c main_v16 _ = V c main_v16 _
  congr 1
  funext a
  apply Fin.ext
  match a with
  | ⟨0, _⟩ => show win1_5.index t 0 * 32 + 1 * k.val = k.val; rw [(idx_in t).2.2.2.2.2.1]; omega
  | ⟨1, _⟩ => show win1_5.index t 1 * 1 + 1 * 0 = 0; rw [(idx_in t).2.2.2.2.2.2]

/-- The three outputs' blocks are whole blocks at every point. -/
theorem xs_out : ∀ t : Fin cfg1.N,
    (win1_6.xsize (grid1.coords t) 0 = 1 ∧ win1_6.xsize (grid1.coords t) 1 = 1 ∧ win1_6.xsize (grid1.coords t) 2 = 1)
    ∧ (win1_7.xsize (grid1.coords t) 0 = 1 ∧ win1_7.xsize (grid1.coords t) 1 = 1 ∧ win1_7.xsize (grid1.coords t) 2 = 1)
    ∧ (win1_8.xsize (grid1.coords t) 0 = 1 ∧ win1_8.xsize (grid1.coords t) 1 = 32 ∧ win1_8.xsize (grid1.coords t) 2 = 1) :=
  (by decide +kernel : ∀ t : Fin grid1.N,
    (win1_6.xsize (grid1.coords t) 0 = 1 ∧ win1_6.xsize (grid1.coords t) 1 = 1 ∧ win1_6.xsize (grid1.coords t) 2 = 1)
    ∧ (win1_7.xsize (grid1.coords t) 0 = 1 ∧ win1_7.xsize (grid1.coords t) 1 = 1 ∧ win1_7.xsize (grid1.coords t) 2 = 1)
    ∧ (win1_8.xsize (grid1.coords t) 0 = 1 ∧ win1_8.xsize (grid1.coords t) 1 = 32 ∧ win1_8.xsize (grid1.coords t) 2 = 1))

/-! ## The squared deviations -/

/-- Block t's contribution to cluster k's squared deviation. -/
def mSq (s : XS.Idx → EReal) (l : XL.Idx → BitVec 32) (vrA : Fin 32 → EReal) (t : ℕ) (k : Fin 32) : EReal :=
  ∑ j ∈ Finset.range 8192, hotI (labP l (t * 8192 + j)) k * sqd vrA (s1P s (t * 8192 + j)) (labP l (t * 8192 + j))

/-- One run of the body adds the block's contribution to what the output block held. -/
theorem sq_step (hp : Pay1) (c : Dev nD) (s : XS.Idx → EReal) (l : XL.Idx → BitVec 32) (vrA : Fin 32 → EReal)
    (h41 : ∀ (n : Fin 1015808), V c main_v4 (ix2 1 n) = s1P s n.val)
    (h5 : ∀ (n : Fin 1015808), (V c main_v5 (ix2 0 n)).toInt = labP l n.val)
    (h13 : ∀ (k : Fin 32), V c main_v13 (ix2 k 0) = vrA k) (t : Fin cfg1.N) (v92 : Vec Ideal S1x32x1 .f32) (k : Fin 32) :
    k1_pay2 (k1_pay8 (bV V c t)) (k1_pay9 (bL V c t)) (k1_pay11 (bS V c t)) v92 (ix3 0 k 0)
      = v92 (ix3 0 k 0) + mSq s l vrA t.val k := by
  rw [hp.sq (bS V c t) (bL V c t) (bV V c t) v92 k]
  refine congrArg (fun z => v92 (ix3 0 k 0) + z) ?_
  unfold mSq
  rw [Finset.sum_range]
  refine Finset.sum_congr rfl fun j _ => ?_
  have hb : t.val * 8192 + j.val < 1015808 := by have := lt124 t; have := j.isLt; omega
  have e : (fun k => bV V c t (ix2 k 0)) = vrA := funext fun k => by rw [bV_apply V c t k, h13]
  rw [bL_apply V c t j hb, h5, bS_apply V c t 1 j hb, h41, e]

theorem outs8_A (c : Dev nD) (t : Fin cfg1.N) (h0 : t.val % 62 = 0) :
    (outsAt1 V c t.val t.isLt).2.2
      = k1_pay2 (k1_pay8 (bV V c t)) (k1_pay9 (bL V c t)) (k1_pay11 (bS V c t)) (k1_pay5 (F := Ideal)) := by
  rw [outsAt1_A V c t h0]
  dsimp only
  exact out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem outs8_B (c : Dev nD) (t : Fin cfg1.N) (h0 : ¬t.val % 62 = 0) :
    (outsAt1 V c t.val t.isLt).2.2
      = k1_pay2 (k1_pay8 (bV V c t)) (k1_pay9 (bL V c t)) (k1_pay11 (bS V c t))
          (outsAt1 V c (t.val - 1) (Nat.lt_of_le_of_lt (Nat.sub_le _ _) t.isLt)).2.2 := by
  rw [outsAt1_B V c t h0]
  dsimp only
  exact out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2

/-- At a core's first block the output block holds that block's contribution. -/
theorem sq_A (hp : Pay1) (c : Dev nD) (s : XS.Idx → EReal) (l : XL.Idx → BitVec 32) (vrA : Fin 32 → EReal)
    (h41 : ∀ (n : Fin 1015808), V c main_v4 (ix2 1 n) = s1P s n.val)
    (h5 : ∀ (n : Fin 1015808), (V c main_v5 (ix2 0 n)).toInt = labP l n.val)
    (h13 : ∀ (k : Fin 32), V c main_v13 (ix2 k 0) = vrA k) (t : Fin cfg1.N) (h0 : t.val % 62 = 0) (k : Fin 32) :
    (outsAt1 V c t.val t.isLt).2.2 (ix3 0 k 0)
      = ∑ u ∈ Finset.range (t.val % 62 + 1), mSq s l vrA (62 * (t.val / 62) + u) k := by
  rw [outs8_A V c t h0, sq_step V hp c s l vrA h41 h5 h13 t (k1_pay5 (F := Ideal)) k, hp.z5, zero_add, h0, zero_add, Finset.sum_range_one,
    show 62 * (t.val / 62) + 0 = t.val by omega]

/-- At every other block it holds what it held plus the block's contribution. -/
theorem sq_B (hp : Pay1) (c : Dev nD) (s : XS.Idx → EReal) (l : XL.Idx → BitVec 32) (vrA : Fin 32 → EReal)
    (h41 : ∀ (n : Fin 1015808), V c main_v4 (ix2 1 n) = s1P s n.val)
    (h5 : ∀ (n : Fin 1015808), (V c main_v5 (ix2 0 n)).toInt = labP l n.val)
    (h13 : ∀ (k : Fin 32), V c main_v13 (ix2 k 0) = vrA k) (t : Fin cfg1.N) (h0 : ¬t.val % 62 = 0) (k : Fin 32) :
    (outsAt1 V c t.val t.isLt).2.2 (ix3 0 k 0)
      = (outsAt1 V c (t.val - 1) (Nat.lt_of_le_of_lt (Nat.sub_le _ _) t.isLt)).2.2 (ix3 0 k 0) + mSq s l vrA t.val k := by
  rw [outs8_B V c t h0, sq_step V hp c s l vrA h41 h5 h13 t _ k]

/-- So after block n it holds the contributions of the core's blocks up to n. -/
theorem sq_inv (hp : Pay1) (c : Dev nD) (s : XS.Idx → EReal) (l : XL.Idx → BitVec 32) (vrA : Fin 32 → EReal)
    (h41 : ∀ (n : Fin 1015808), V c main_v4 (ix2 1 n) = s1P s n.val)
    (h5 : ∀ (n : Fin 1015808), (V c main_v5 (ix2 0 n)).toInt = labP l n.val)
    (h13 : ∀ (k : Fin 32), V c main_v13 (ix2 k 0) = vrA k) (k : Fin 32) : ∀ (n : ℕ) (hn : n < cfg1.N),
    (outsAt1 V c n hn).2.2 (ix3 0 k 0) = ∑ u ∈ Finset.range (n % 62 + 1), mSq s l vrA (62 * (n / 62) + u) k
  | 0, hn => sq_A V hp c s l vrA h41 h5 h13 ⟨0, hn⟩ rfl k
  | n + 1, hn => by
    by_cases h0 : (n + 1) % 62 = 0
    · exact sq_A V hp c s l vrA h41 h5 h13 ⟨n + 1, hn⟩ h0 k
    · have hB := sq_B V hp c s l vrA h41 h5 h13 ⟨n + 1, hn⟩ h0 k
      have ih := sq_inv hp c s l vrA h41 h5 h13 k n (Nat.lt_of_succ_lt hn)
      have e1 : (n + 1) % 62 = n % 62 + 1 := by omega
      have e2 : (n + 1) / 62 = n / 62 := by omega
      have e3 : 62 * (n / 62) + (n % 62 + 1) = n + 1 := by omega
      rw [e1, e2, Finset.sum_range_succ, ← ih, e3]
      exact hB

/-- The result array, entry by entry: row q sums the contributions of blocks 62 q … 62 q + 61. -/
def G8 (s : XS.Idx → EReal) (l : XL.Idx → BitVec 32) (vrA : Fin 32 → EReal) : Vec Ideal S2x32x1 .f32 :=
  fun i => ∑ u ∈ Finset.range 62, mSq s l vrA (62 * (i 0).val + u) ⟨(i 1).val, (i 1).isLt⟩

/-- What a core's last block writes back is its row of that array. -/
theorem flushed8 (hp : Pay1) (c : Dev nD) (s : XS.Idx → EReal) (l : XL.Idx → BitVec 32) (vrA : Fin 32 → EReal)
    (h41 : ∀ (n : Fin 1015808), V c main_v4 (ix2 1 n) = s1P s n.val)
    (h5 : ∀ (n : Fin 1015808), (V c main_v5 (ix2 0 n)).toInt = labP l n.val)
    (h13 : ∀ (k : Fin 32), V c main_v13 (ix2 k 0) = vrA k) (t : Fin cfg1.N) (hf : (cfg1.win 8).flush t = true) :
    (dat1 (F := Ideal) V c).flushed 8 t = ((cfg1.win 8).blk t).view.read (Elt Ideal) (G8 s l vrA) := by
  have h61 : t.val % 62 = 61 := (flush1_8 t).mp hf
  funext y
  have hy0 : (y 0).val < 1 := Nat.lt_of_lt_of_le (y 0).isLt ((cfg1.win 8).xsize_le (grid1.coords t) 0)
  have hy1 : (y 1).val < 32 := Nat.lt_of_lt_of_le (y 1).isLt ((cfg1.win 8).xsize_le (grid1.coords t) 1)
  have hy2 : (y 2).val < 1 := Nat.lt_of_lt_of_le (y 2).isLt ((cfg1.win 8).xsize_le (grid1.coords t) 2)
  have eL : (cfg1.win 8).xinj (grid1.coords t) y = ix3 0 ⟨(y 1).val, hy1⟩ 0 := by
    funext a
    match a with
    | ⟨0, _⟩ => exact Fin.ext (by show (y 0).val = 0; omega)
    | ⟨1, _⟩ => rfl
    | ⟨2, _⟩ => exact Fin.ext (by show (y 2).val = 0; omega)
  have hq : t.val / 62 < 2 := by have := lt124 t; omega
  have eR : ((cfg1.win 8).blk t).view.emb y = ix3 ⟨t.val / 62, hq⟩ ⟨(y 1).val, hy1⟩ 0 := by
    funext a
    apply Fin.ext
    match a with
    | ⟨0, _⟩ => show win1_8.index t 0 * 1 + 1 * (y 0).val = t.val / 62; rw [(idx_out t).2.2.1]; omega
    | ⟨1, _⟩ => show win1_8.index t 1 * 32 + 1 * (y 1).val = (y 1).val; rw [(idx_out t).2.2.2.1]; omega
    | ⟨2, _⟩ => show win1_8.index t 2 * 1 + 1 * (y 2).val = 0; rw [(idx_out t).2.2.2.2]; omega
  show (dat1 V c).after 8 t ((cfg1.win 8).xinj (grid1.coords t) y) = G8 s l vrA (((cfg1.win 8).blk t).view.emb y)
  rw [eL, eR, after1_8, sq_inv V hp c s l vrA h41 h5 h13 ⟨(y 1).val, hy1⟩ t.val t.isLt, h61]
  rfl

/-- Entry (q, k, 0) lies in the block the last point of core q writes back. -/
theorem mem8 (q : Fin 2) (k : Fin 32) (t : Fin cfg1.N) (hq : t.val / 62 = q.val) :
    (ix3 q k 0 : S2x32x1.Idx) ∈ ((cfg1.win 8).blk t).view.set := by
  show _ ∈ ((View.whole main_v17_2).slice (win1_8.rect t)).set
  rw [View.set_slice_whole, Rect.mem_set_unit]
  intro a
  match a with
  | ⟨0, _⟩ =>
    show win1_8.index t 0 * win1_8.size 0 ≤ q.val ∧ q.val < win1_8.index t 0 * win1_8.size 0 + win1_8.xsize (grid1.coords t) 0
    rw [(idx_out t).2.2.1, (xs_out t).2.2.1, show win1_8.size 0 = 1 from rfl]; omega
  | ⟨1, _⟩ =>
    show win1_8.index t 1 * win1_8.size 1 ≤ k.val ∧ k.val < win1_8.index t 1 * win1_8.size 1 + win1_8.xsize (grid1.coords t) 1
    rw [(idx_out t).2.2.2.1, (xs_out t).2.2.2.1]; have := k.isLt; omega
  | ⟨2, _⟩ =>
    show win1_8.index t 2 * win1_8.size 2 ≤ 0 ∧ 0 < win1_8.index t 2 * win1_8.size 2 + win1_8.xsize (grid1.coords t) 2
    rw [(idx_out t).2.2.2.2, (xs_out t).2.2.2.2]; omega

/-! ## The cross-entropy -/

/-- Block t's contribution to the masked cross-entropy. -/
def mB (x : XF.Idx → EReal) (l : XL.Idx → BitVec 32) (cmA : Fin 32 → Fin 16 → EReal) (vrA m2A : Fin 32 → EReal) (t : ℕ) : EReal :=
  ∑ j ∈ Finset.range 8192, rowB cmA vrA m2A (xrowP x (t * 8192 + j)) (labP l (t * 8192 + j)) * validI (labP l (t * 8192 + j))

/-- One run of the body adds the block's contribution to what the output block held. -/
theorem bce_step (hp : Pay1) (c : Dev nD) (x : XF.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (v : Vec Ideal S1x1x1 .f32) :
    k1_pay15 (k1_pay8 (bV V c t)) (k1_pay9 (bL V c t)) (k1_pay10 (bL V c t)) (k1_pay12 (bX V c t) (bC V c t) (bM V c t)) (Scalar.ofBits .f32 0x00000000#32 : Ideal .f32) v (ix3 0 0 0) = v (ix3 0 0 0) + mB x l cmA vrA m2A t.val := by
  rw [hp.bce (bX V c t) (bL V c t) (bC V c t) (bV V c t) (bM V c t) _ zero_word v]
  refine congrArg (fun z => v (ix3 0 0 0) + z) ?_
  unfold mB
  rw [Finset.sum_range]
  refine Finset.sum_congr rfl fun j _ => ?_
  have hb : t.val * 8192 + j.val < 1015808 := by have := lt124 t; have := j.isLt; omega
  have eC : (fun k d => bC V c t (ix2 k d)) = cmA := funext fun k => funext fun d => by rw [bC_apply V c t k d, h11]
  have eV : (fun k => bV V c t (ix2 k 0)) = vrA := funext fun k => by rw [bV_apply V c t k, h13]
  have eM : (fun k => bM V c t (ix2 k 0)) = m2A := funext fun k => by rw [bM_apply V c t k, h16]
  have eX : (fun d => bX V c t (ix2 d j)) = xrowP x (t.val * 8192 + j.val) :=
    funext fun d => by rw [bX_apply V c t d j hb, h3]
  rw [eC, eV, eM, eX, bL_apply V c t j hb, h5]

theorem outs6_A (c : Dev nD) (t : Fin cfg1.N) (h0 : t.val % 62 = 0) :
    (outsAt1 V c t.val t.isLt).1 = k1_pay15 (k1_pay8 (bV V c t)) (k1_pay9 (bL V c t)) (k1_pay10 (bL V c t)) (k1_pay12 (bX V c t) (bC V c t) (bM V c t)) (Scalar.ofBits .f32 0x00000000#32 : Ideal .f32) (k1_pay3 (F := Ideal)) := by
  rw [outsAt1_A V c t h0]
  dsimp only
  exact out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem outs6_B (c : Dev nD) (t : Fin cfg1.N) (h0 : ¬t.val % 62 = 0) :
    (outsAt1 V c t.val t.isLt).1
      = k1_pay15 (k1_pay8 (bV V c t)) (k1_pay9 (bL V c t)) (k1_pay10 (bL V c t)) (k1_pay12 (bX V c t) (bC V c t) (bM V c t)) (Scalar.ofBits .f32 0x00000000#32 : Ideal .f32) (outsAt1 V c (t.val - 1) (Nat.lt_of_le_of_lt (Nat.sub_le _ _) t.isLt)).1 := by
  rw [outsAt1_B V c t h0]
  dsimp only
  exact out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2

/-- At a core's first block the output block holds that block's contribution. -/
theorem bce_A (hp : Pay1) (c : Dev nD) (x : XF.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (h0 : t.val % 62 = 0) :
    (outsAt1 V c t.val t.isLt).1 (ix3 0 0 0)
      = ∑ u ∈ Finset.range (t.val % 62 + 1), mB x l cmA vrA m2A (62 * (t.val / 62) + u) := by
  rw [outs6_A V c t h0, bce_step V hp c x l cmA vrA m2A h3 h5 h11 h13 h16 t (k1_pay3 (F := Ideal)), hp.z3, zero_add, h0, zero_add, Finset.sum_range_one,
    show 62 * (t.val / 62) + 0 = t.val by omega]

/-- At every other block it holds what it held plus the block's contribution. -/
theorem bce_B (hp : Pay1) (c : Dev nD) (x : XF.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (h0 : ¬t.val % 62 = 0) :
    (outsAt1 V c t.val t.isLt).1 (ix3 0 0 0)
      = (outsAt1 V c (t.val - 1) (Nat.lt_of_le_of_lt (Nat.sub_le _ _) t.isLt)).1 (ix3 0 0 0) + mB x l cmA vrA m2A t.val := by
  rw [outs6_B V c t h0, bce_step V hp c x l cmA vrA m2A h3 h5 h11 h13 h16 t _]

/-- So after block n it holds the contributions of the core's blocks up to n. -/
theorem bce_inv (hp : Pay1) (c : Dev nD) (x : XF.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) : ∀ (n : ℕ) (hn : n < cfg1.N),
    (outsAt1 V c n hn).1 (ix3 0 0 0) = ∑ u ∈ Finset.range (n % 62 + 1), mB x l cmA vrA m2A (62 * (n / 62) + u)
  | 0, hn => bce_A V hp c x l cmA vrA m2A h3 h5 h11 h13 h16 ⟨0, hn⟩ rfl
  | n + 1, hn => by
    by_cases h0 : (n + 1) % 62 = 0
    · exact bce_A V hp c x l cmA vrA m2A h3 h5 h11 h13 h16 ⟨n + 1, hn⟩ h0
    · have hB := bce_B V hp c x l cmA vrA m2A h3 h5 h11 h13 h16 ⟨n + 1, hn⟩ h0
      have ih := bce_inv hp c x l cmA vrA m2A h3 h5 h11 h13 h16 n (Nat.lt_of_succ_lt hn)
      have e1 : (n + 1) % 62 = n % 62 + 1 := by omega
      have e2 : (n + 1) / 62 = n / 62 := by omega
      have e3 : 62 * (n / 62) + (n % 62 + 1) = n + 1 := by omega
      rw [e1, e2, Finset.sum_range_succ, ← ih, e3]
      exact hB

/-- The result array, entry by entry: row q sums the contributions of blocks 62 q … 62 q + 61. -/
def G6 (x : XF.Idx → EReal) (l : XL.Idx → BitVec 32) (cmA : Fin 32 → Fin 16 → EReal) (vrA m2A : Fin 32 → EReal) : Vec Ideal S2x1x1 .f32 :=
  fun i => ∑ u ∈ Finset.range 62, mB x l cmA vrA m2A (62 * (i 0).val + u)

/-- What a core's last block writes back is its row of that array. -/
theorem flushed6 (hp : Pay1) (c : Dev nD) (x : XF.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (hf : (cfg1.win 6).flush t = true) :
    (dat1 (F := Ideal) V c).flushed 6 t = ((cfg1.win 6).blk t).view.read (Elt Ideal) (G6 x l cmA vrA m2A) := by
  have h61 : t.val % 62 = 61 := (flush1_6 t).mp hf
  funext y
  have hy0 : (y 0).val < 1 := Nat.lt_of_lt_of_le (y 0).isLt ((cfg1.win 6).xsize_le (grid1.coords t) 0)
  have hy1 : (y 1).val < 1 := Nat.lt_of_lt_of_le (y 1).isLt ((cfg1.win 6).xsize_le (grid1.coords t) 1)
  have hy2 : (y 2).val < 1 := Nat.lt_of_lt_of_le (y 2).isLt ((cfg1.win 6).xsize_le (grid1.coords t) 2)
  have eL : (cfg1.win 6).xinj (grid1.coords t) y = ix3 0 0 0 := by
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
  have hq : t.val / 62 < 2 := by have := lt124 t; omega
  have eR : ((cfg1.win 6).blk t).view.emb y = ix3 ⟨t.val / 62, hq⟩ 0 0 := by
    funext a
    apply Fin.ext
    match a with
    | ⟨0, _⟩ => show win1_6.index t 0 * 1 + 1 * (y 0).val = t.val / 62; rw [(idx_out t).1.1]; omega
    | ⟨1, _⟩ => show win1_6.index t 1 * 1 + 1 * (y 1).val = 0; rw [(idx_out t).1.2.1]; omega
    | ⟨2, _⟩ => show win1_6.index t 2 * 1 + 1 * (y 2).val = 0; rw [(idx_out t).1.2.2]; omega
  show (dat1 V c).after 6 t ((cfg1.win 6).xinj (grid1.coords t) y) = G6 x l cmA vrA m2A (((cfg1.win 6).blk t).view.emb y)
  rw [eL, eR, after1_6, bce_inv V hp c x l cmA vrA m2A h3 h5 h11 h13 h16 t.val t.isLt, h61]
  rfl

/-- Entry (q, 0, 0) lies in the block the last point of core q writes back. -/
theorem mem6 (q : Fin 2) (t : Fin cfg1.N) (hq : t.val / 62 = q.val) :
    (ix3 q 0 0 : S2x1x1.Idx) ∈ ((cfg1.win 6).blk t).view.set := by
  show _ ∈ ((View.whole main_v17_0).slice (win1_6.rect t)).set
  rw [View.set_slice_whole, Rect.mem_set_unit]
  intro a
  match a with
  | ⟨0, _⟩ =>
    show win1_6.index t 0 * win1_6.size 0 ≤ q.val ∧ q.val < win1_6.index t 0 * win1_6.size 0 + win1_6.xsize (grid1.coords t) 0
    rw [(idx_out t).1.1, (xs_out t).1.1, show win1_6.size 0 = 1 from rfl]; omega
  | ⟨1, _⟩ =>
    show win1_6.index t 1 * win1_6.size 1 ≤ 0 ∧ 0 < win1_6.index t 1 * win1_6.size 1 + win1_6.xsize (grid1.coords t) 1
    rw [(idx_out t).1.2.1, (xs_out t).1.2.1]; omega
  | ⟨2, _⟩ =>
    show win1_6.index t 2 * win1_6.size 2 ≤ 0 ∧ 0 < win1_6.index t 2 * win1_6.size 2 + win1_6.xsize (grid1.coords t) 2
    rw [(idx_out t).1.2.2, (xs_out t).1.2.2]; omega

/-! ## The seediness error -/

/-- Block t's contribution to the masked squared seediness error. -/
def mS (x : XF.Idx → EReal) (s : XS.Idx → EReal) (l : XL.Idx → BitVec 32) (cmA : Fin 32 → Fin 16 → EReal) (vrA m2A : Fin 32 → EReal) (t : ℕ) : EReal :=
  ∑ j ∈ Finset.range 8192, serr cmA vrA m2A (xrowP x (t * 8192 + j)) (s0P s (t * 8192 + j)) (labP l (t * 8192 + j)) * validI (labP l (t * 8192 + j))

/-- One run of the body adds the block's contribution to what the output block held. -/
theorem seed_step (hp : Pay1) (c : Dev nD) (x : XF.Idx → EReal) (s : XS.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h40 : ∀ (n : Fin 1015808), V c main_v4 (ix2 0 n) = s0P s n.val)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (v : Vec Ideal S1x1x1 .f32) :
    k1_pay1 (k1_pay16 (k1_pay6 (bS V c t)) (k1_pay8 (bV V c t)) (k1_pay9 (bL V c t)) (k1_pay10 (bL V c t)) (k1_pay12 (bX V c t) (bC V c t) (bM V c t)) (Scalar.ofBits .f32 0x00000000#32 : Ideal .f32)) v (ix3 0 0 0) = v (ix3 0 0 0) + mS x s l cmA vrA m2A t.val := by
  rw [hp.seed (bX V c t) (bS V c t) (bL V c t) (bC V c t) (bV V c t) (bM V c t) _ zero_word v]
  refine congrArg (fun z => v (ix3 0 0 0) + z) ?_
  unfold mS
  rw [Finset.sum_range]
  refine Finset.sum_congr rfl fun j _ => ?_
  have hb : t.val * 8192 + j.val < 1015808 := by have := lt124 t; have := j.isLt; omega
  have eC : (fun k d => bC V c t (ix2 k d)) = cmA := funext fun k => funext fun d => by rw [bC_apply V c t k d, h11]
  have eV : (fun k => bV V c t (ix2 k 0)) = vrA := funext fun k => by rw [bV_apply V c t k, h13]
  have eM : (fun k => bM V c t (ix2 k 0)) = m2A := funext fun k => by rw [bM_apply V c t k, h16]
  have eX : (fun d => bX V c t (ix2 d j)) = xrowP x (t.val * 8192 + j.val) :=
    funext fun d => by rw [bX_apply V c t d j hb, h3]
  rw [eC, eV, eM, eX, bS_apply V c t 0 j hb, h40, bL_apply V c t j hb, h5]

theorem outs7_A (c : Dev nD) (t : Fin cfg1.N) (h0 : t.val % 62 = 0) :
    (outsAt1 V c t.val t.isLt).2.1 = k1_pay1 (k1_pay16 (k1_pay6 (bS V c t)) (k1_pay8 (bV V c t)) (k1_pay9 (bL V c t)) (k1_pay10 (bL V c t)) (k1_pay12 (bX V c t) (bC V c t) (bM V c t)) (Scalar.ofBits .f32 0x00000000#32 : Ideal .f32)) (k1_pay4 (F := Ideal)) := by
  rw [outsAt1_A V c t h0]
  dsimp only
  exact out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem outs7_B (c : Dev nD) (t : Fin cfg1.N) (h0 : ¬t.val % 62 = 0) :
    (outsAt1 V c t.val t.isLt).2.1
      = k1_pay1 (k1_pay16 (k1_pay6 (bS V c t)) (k1_pay8 (bV V c t)) (k1_pay9 (bL V c t)) (k1_pay10 (bL V c t)) (k1_pay12 (bX V c t) (bC V c t) (bM V c t)) (Scalar.ofBits .f32 0x00000000#32 : Ideal .f32)) (outsAt1 V c (t.val - 1) (Nat.lt_of_le_of_lt (Nat.sub_le _ _) t.isLt)).2.1 := by
  rw [outsAt1_B V c t h0]
  dsimp only
  exact out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2

/-- At a core's first block the output block holds that block's contribution. -/
theorem seed_A (hp : Pay1) (c : Dev nD) (x : XF.Idx → EReal) (s : XS.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h40 : ∀ (n : Fin 1015808), V c main_v4 (ix2 0 n) = s0P s n.val)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (h0 : t.val % 62 = 0) :
    (outsAt1 V c t.val t.isLt).2.1 (ix3 0 0 0)
      = ∑ u ∈ Finset.range (t.val % 62 + 1), mS x s l cmA vrA m2A (62 * (t.val / 62) + u) := by
  rw [outs7_A V c t h0, seed_step V hp c x s l cmA vrA m2A h3 h40 h5 h11 h13 h16 t (k1_pay4 (F := Ideal)), hp.z4, zero_add, h0, zero_add, Finset.sum_range_one,
    show 62 * (t.val / 62) + 0 = t.val by omega]

/-- At every other block it holds what it held plus the block's contribution. -/
theorem seed_B (hp : Pay1) (c : Dev nD) (x : XF.Idx → EReal) (s : XS.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h40 : ∀ (n : Fin 1015808), V c main_v4 (ix2 0 n) = s0P s n.val)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (h0 : ¬t.val % 62 = 0) :
    (outsAt1 V c t.val t.isLt).2.1 (ix3 0 0 0)
      = (outsAt1 V c (t.val - 1) (Nat.lt_of_le_of_lt (Nat.sub_le _ _) t.isLt)).2.1 (ix3 0 0 0) + mS x s l cmA vrA m2A t.val := by
  rw [outs7_B V c t h0, seed_step V hp c x s l cmA vrA m2A h3 h40 h5 h11 h13 h16 t _]

/-- So after block n it holds the contributions of the core's blocks up to n. -/
theorem seed_inv (hp : Pay1) (c : Dev nD) (x : XF.Idx → EReal) (s : XS.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h40 : ∀ (n : Fin 1015808), V c main_v4 (ix2 0 n) = s0P s n.val)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) : ∀ (n : ℕ) (hn : n < cfg1.N),
    (outsAt1 V c n hn).2.1 (ix3 0 0 0) = ∑ u ∈ Finset.range (n % 62 + 1), mS x s l cmA vrA m2A (62 * (n / 62) + u)
  | 0, hn => seed_A V hp c x s l cmA vrA m2A h3 h40 h5 h11 h13 h16 ⟨0, hn⟩ rfl
  | n + 1, hn => by
    by_cases h0 : (n + 1) % 62 = 0
    · exact seed_A V hp c x s l cmA vrA m2A h3 h40 h5 h11 h13 h16 ⟨n + 1, hn⟩ h0
    · have hB := seed_B V hp c x s l cmA vrA m2A h3 h40 h5 h11 h13 h16 ⟨n + 1, hn⟩ h0
      have ih := seed_inv hp c x s l cmA vrA m2A h3 h40 h5 h11 h13 h16 n (Nat.lt_of_succ_lt hn)
      have e1 : (n + 1) % 62 = n % 62 + 1 := by omega
      have e2 : (n + 1) / 62 = n / 62 := by omega
      have e3 : 62 * (n / 62) + (n % 62 + 1) = n + 1 := by omega
      rw [e1, e2, Finset.sum_range_succ, ← ih, e3]
      exact hB

/-- The result array, entry by entry: row q sums the contributions of blocks 62 q … 62 q + 61. -/
def G7 (x : XF.Idx → EReal) (s : XS.Idx → EReal) (l : XL.Idx → BitVec 32) (cmA : Fin 32 → Fin 16 → EReal) (vrA m2A : Fin 32 → EReal) : Vec Ideal S2x1x1 .f32 :=
  fun i => ∑ u ∈ Finset.range 62, mS x s l cmA vrA m2A (62 * (i 0).val + u)

/-- What a core's last block writes back is its row of that array. -/
theorem flushed7 (hp : Pay1) (c : Dev nD) (x : XF.Idx → EReal) (s : XS.Idx → EReal) (l : XL.Idx → BitVec 32)
    (cmA : Fin 32 → Fin 16 → EReal) (vrA m2A : Fin 32 → EReal)
    (h3 : ∀ (d : Fin 16) (n : Fin 1015808), V c main_v3 (ix2 d n) = xrowP x n.val d)
    (h40 : ∀ (n : Fin 1015808), V c main_v4 (ix2 0 n) = s0P s n.val)
    (h5 : ∀ (n : Fin 1015808), (V c main_v5 (ix2 0 n)).toInt = labP l n.val)
    (h11 : ∀ (k : Fin 32) (d : Fin 16), V c main_v11 (ix2 k d) = cmA k d)
    (h13 : ∀ (k : Fin 32), V c main_v13 (ix2 k 0) = vrA k)
    (h16 : ∀ (k : Fin 32), V c main_v16 (ix2 k 0) = m2A k) (t : Fin cfg1.N) (hf : (cfg1.win 7).flush t = true) :
    (dat1 (F := Ideal) V c).flushed 7 t = ((cfg1.win 7).blk t).view.read (Elt Ideal) (G7 x s l cmA vrA m2A) := by
  have h61 : t.val % 62 = 61 := (flush1_7 t).mp hf
  funext y
  have hy0 : (y 0).val < 1 := Nat.lt_of_lt_of_le (y 0).isLt ((cfg1.win 7).xsize_le (grid1.coords t) 0)
  have hy1 : (y 1).val < 1 := Nat.lt_of_lt_of_le (y 1).isLt ((cfg1.win 7).xsize_le (grid1.coords t) 1)
  have hy2 : (y 2).val < 1 := Nat.lt_of_lt_of_le (y 2).isLt ((cfg1.win 7).xsize_le (grid1.coords t) 2)
  have eL : (cfg1.win 7).xinj (grid1.coords t) y = ix3 0 0 0 := by
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
  have hq : t.val / 62 < 2 := by have := lt124 t; omega
  have eR : ((cfg1.win 7).blk t).view.emb y = ix3 ⟨t.val / 62, hq⟩ 0 0 := by
    funext a
    apply Fin.ext
    match a with
    | ⟨0, _⟩ => show win1_7.index t 0 * 1 + 1 * (y 0).val = t.val / 62; rw [(idx_out t).2.1.1]; omega
    | ⟨1, _⟩ => show win1_7.index t 1 * 1 + 1 * (y 1).val = 0; rw [(idx_out t).2.1.2.1]; omega
    | ⟨2, _⟩ => show win1_7.index t 2 * 1 + 1 * (y 2).val = 0; rw [(idx_out t).2.1.2.2]; omega
  show (dat1 V c).after 7 t ((cfg1.win 7).xinj (grid1.coords t) y) = G7 x s l cmA vrA m2A (((cfg1.win 7).blk t).view.emb y)
  rw [eL, eR, after1_7, seed_inv V hp c x s l cmA vrA m2A h3 h40 h5 h11 h13 h16 t.val t.isLt, h61]
  rfl

/-- Entry (q, 0, 0) lies in the block the last point of core q writes back. -/
theorem mem7 (q : Fin 2) (t : Fin cfg1.N) (hq : t.val / 62 = q.val) :
    (ix3 q 0 0 : S2x1x1.Idx) ∈ ((cfg1.win 7).blk t).view.set := by
  show _ ∈ ((View.whole main_v17_1).slice (win1_7.rect t)).set
  rw [View.set_slice_whole, Rect.mem_set_unit]
  intro a
  match a with
  | ⟨0, _⟩ =>
    show win1_7.index t 0 * win1_7.size 0 ≤ q.val ∧ q.val < win1_7.index t 0 * win1_7.size 0 + win1_7.xsize (grid1.coords t) 0
    rw [(idx_out t).2.1.1, (xs_out t).2.1.1, show win1_7.size 0 = 1 from rfl]; omega
  | ⟨1, _⟩ =>
    show win1_7.index t 1 * win1_7.size 1 ≤ 0 ∧ 0 < win1_7.index t 1 * win1_7.size 1 + win1_7.xsize (grid1.coords t) 1
    rw [(idx_out t).2.1.2.1, (xs_out t).2.1.2.1]; omega
  | ⟨2, _⟩ =>
    show win1_7.index t 2 * win1_7.size 2 ≤ 0 ∧ 0 < win1_7.index t 2 * win1_7.size 2 + win1_7.xsize (grid1.coords t) 2
    rw [(idx_out t).2.1.2.2, (xs_out t).2.1.2.2]; omega

/-! ## The three result arrays -/

section Final

variable (hp : Pay1) (c : Dev nD) (x : XF.Idx → EReal) (s : XS.Idx → EReal) (l : XL.Idx → BitVec 32)
  (cmA : Fin 32 → Fin 16 → EReal) (vrA m2A : Fin 32 → EReal)
  (h3 : ∀ (d : Fin 16) (n : Fin 1015808), V c main_v3 (ix2 d n) = xrowP x n.val d)
  (h40 : ∀ (n : Fin 1015808), V c main_v4 (ix2 0 n) = s0P s n.val)
  (h41 : ∀ (n : Fin 1015808), V c main_v4 (ix2 1 n) = s1P s n.val)
  (h5 : ∀ (n : Fin 1015808), (V c main_v5 (ix2 0 n)).toInt = labP l n.val)
  (h11 : ∀ (k : Fin 32) (d : Fin 16), V c main_v11 (ix2 k d) = cmA k d)
  (h13 : ∀ (k : Fin 32), V c main_v13 (ix2 k 0) = vrA k)
  (h16 : ∀ (k : Fin 32), V c main_v16 (ix2 k 0) = m2A k)

include hp h3 h5 h11 h13 h16 in
/-- Row q of the cross-entropy result. -/
theorem reg1_final_bce (q : Fin 2) :
    (dat1 (F := Ideal) V c).arrAt 6 cfg1.N (ix3 q 0 0)
      = ∑ t ∈ Finset.range 62, ∑ j ∈ Finset.range 8192,
          rowB cmA vrA m2A (xrowP x ((62 * q.val + t) * 8192 + j)) (labP l ((62 * q.val + t) * 8192 + j))
            * validI (labP l ((62 * q.val + t) * 8192 + j)) := by
  have hN : cfg1.N = 124 := N_1
  have ht : 62 * q.val + 61 < cfg1.N := by have := q.isLt; omega
  have hf : (cfg1.win 6).flush ⟨62 * q.val + 61, ht⟩ = true :=
    (flush1_6 _).mpr (by show (62 * q.val + 61) % 62 = 61; omega)
  rw [(dat1 V c).arrAt_apply_of_mem 6 (G6 x l cmA vrA m2A) (flushed6 V hp c x l cmA vrA m2A h3 h5 h11 h13 h16) cfg1.N ⟨62 * q.val + 61, ht⟩ (ix3 q 0 0) ht hf
    (mem6 q _ (by show (62 * q.val + 61) / 62 = q.val; omega))]
  rfl

include hp h3 h40 h5 h11 h13 h16 in
/-- Row q of the seediness result. -/
theorem reg1_final_seed (q : Fin 2) :
    (dat1 (F := Ideal) V c).arrAt 7 cfg1.N (ix3 q 0 0)
      = ∑ t ∈ Finset.range 62, ∑ j ∈ Finset.range 8192,
          serr cmA vrA m2A (xrowP x ((62 * q.val + t) * 8192 + j)) (s0P s ((62 * q.val + t) * 8192 + j))
              (labP l ((62 * q.val + t) * 8192 + j))
            * validI (labP l ((62 * q.val + t) * 8192 + j)) := by
  have hN : cfg1.N = 124 := N_1
  have ht : 62 * q.val + 61 < cfg1.N := by have := q.isLt; omega
  have hf : (cfg1.win 7).flush ⟨62 * q.val + 61, ht⟩ = true :=
    (flush1_7 _).mpr (by show (62 * q.val + 61) % 62 = 61; omega)
  rw [(dat1 V c).arrAt_apply_of_mem 7 (G7 x s l cmA vrA m2A) (flushed7 V hp c x s l cmA vrA m2A h3 h40 h5 h11 h13 h16) cfg1.N ⟨62 * q.val + 61, ht⟩ (ix3 q 0 0) ht hf
    (mem7 q _ (by show (62 * q.val + 61) / 62 = q.val; omega))]
  rfl

include hp h41 h5 h13 in
/-- Entry (q, k) of the squared-deviation result. -/
theorem reg1_final_sq (q : Fin 2) (k : Fin 32) :
    (dat1 (F := Ideal) V c).arrAt 8 cfg1.N (ix3 q k 0)
      = ∑ t ∈ Finset.range 62, ∑ j ∈ Finset.range 8192,
          hotI (labP l ((62 * q.val + t) * 8192 + j)) k
            * sqd vrA (s1P s ((62 * q.val + t) * 8192 + j)) (labP l ((62 * q.val + t) * 8192 + j)) := by
  have hN : cfg1.N = 124 := N_1
  have ht : 62 * q.val + 61 < cfg1.N := by have := q.isLt; omega
  have hf : (cfg1.win 8).flush ⟨62 * q.val + 61, ht⟩ = true :=
    (flush1_8 _).mpr (by show (62 * q.val + 61) % 62 = 61; omega)
  rw [(dat1 V c).arrAt_apply_of_mem 8 (G8 s l vrA) (flushed8 V hp c s l vrA h41 h5 h13) cfg1.N ⟨62 * q.val + 61, ht⟩ (ix3 q k 0) ht hf
    (mem8 q k _ (by show (62 * q.val + 61) / 62 = q.val; omega))]
  rfl

end Final

end Cert.KernelIdeal.Val

end
-- ==== Proof.KHost.lean ====
/-
  The host operations of the kernel's program around its first region, read at an index.

  Before the region: the coordinates, the seediness and the labels are padded from 1 000 000 to 1 015 808 points
  (zeros; label −1), and the two float arrays are transposed so that the points run along the last axis.
  Between the regions: the two cores' rows of the first result are added; column 16 is the cluster count, columns
  0–15 divided by the count are the centroids, column 17 divided by the count is the cluster variance, and the
  centroids' squared norms are summed over the 16 coordinates. The padded arrays reach the second region unchanged.
-/
import proofs.«401601_j38319698215236_3_alg».proof.Proof.Gen.KernelIdeal.Frame
import proofs.«401601_j38319698215236_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem Cert.Spec

variable (m : (ℓ : Loc nD τ sig) → Buf (Elt Ideal) ℓ) (ρ : Dev nD → PrngReg)

namespace KHost

/-! ## Padding and transposition, read at an index -/

/-- An array of 1 000 000 rows padded below by 15 808 rows of a value that is zero, then transposed, read at (d, n):
    the array's entry (n, d) for a point, zero past the last point. -/
theorem padT_apply {D : Nat} (x : (⟨2, ![1000000, D]⟩ : Shape).Idx → EReal) {u : Shape} (v : u.Idx → EReal) (hu : 0 < u.numel)
    (hv : v (Shape.Idx.first hu) = 0)
    (hp : (⟨2, ![1000000, D]⟩ : Shape).Pads ![0, 0] ![15808, 0] ![0, 0] ⟨2, ![1015808, D]⟩)
    (ht : (⟨2, ![1015808, D]⟩ : Shape).Transposes [1, 0] ⟨2, ![D, 1015808]⟩) (d : Fin D) (n : Fin 1015808) :
    transpose ⟨2, ![D, 1015808]⟩ [1, 0] (pad ⟨2, ![1015808, D]⟩ ![0, 0] ![15808, 0] ![0, 0] x v hp hu) ht (ix2 d n)
      = if h : n.val < 1000000 then x (ix2 ⟨n.val, h⟩ d) else 0 := by
  refine (transpose_apply [1, 0] _ ht (ix2 d n) (ix2 n d) (fun b => match b with | ⟨0, _⟩ => rfl | ⟨1, _⟩ => rfl)).trans ?_
  by_cases h : n.val < 1000000
  · rw [dif_pos h]
    exact pad_apply_of_inside _ _ _ x _ hp hu (ix2 n d) (ix2 ⟨n.val, h⟩ d) (fun a => match a with
      | ⟨0, _⟩ => by show n.val = 0 + n.val * (0 + 1); omega
      | ⟨1, _⟩ => by show d.val = 0 + d.val * (0 + 1); omega)
  · rw [dif_neg h]
    refine (pad_apply_of_not_inside _ _ _ x _ hp hu (ix2 n d) (0 : Fin 2) (fun hin => h ?_)).trans hv
    have e : (n.val - 0) / (0 + 1) < 1000000 := hin.2.2
    omega

/-- A vector of 1 000 000 words padded by 15 808 copies of a word, as one row, read at (0, n). -/
theorem padRow_apply (l : (⟨1, ![1000000]⟩ : Shape).Idx → BitVec 32) {u : Shape} (v : u.Idx → BitVec 32) (hu : 0 < u.numel)
    (hp : (⟨1, ![1000000]⟩ : Shape).Pads ![0] ![15808] ![0] ⟨1, ![1015808]⟩)
    (hc : (⟨1, ![1015808]⟩ : Shape).ShapeCasts ⟨2, ![1, 1015808]⟩) (n : Fin 1015808) :
    shapeCast ⟨2, ![1, 1015808]⟩ (pad ⟨1, ![1015808]⟩ ![0] ![15808] ![0] l v hp hu) hc (ix2 0 n)
      = if h : n.val < 1000000 then l (ix1 ⟨n.val, h⟩) else v (Shape.Idx.first hu) := by
  refine (shapeCast_apply _ hc (ix2 0 n) (ix1 n) (by
    rw [Shape.rowMajor_val_one, Shape.rowMajor_val_two]; show n.val = 0 * 1015808 + n.val; omega)).trans ?_
  by_cases h : n.val < 1000000
  · rw [dif_pos h]
    exact pad_apply_of_inside _ _ _ l _ hp hu (ix1 n) (ix1 ⟨n.val, h⟩) (fun a => match a with
      | ⟨0, _⟩ => by show n.val = 0 + n.val * (0 + 1); omega)
  · rw [dif_neg h]
    refine pad_apply_of_not_inside _ _ _ l _ hp hu (ix1 n) (0 : Fin 1) (fun hin => h ?_)
    have e : (n.val - 0) / (0 + 1) < 1000000 := hin.2.2
    omega

/-! ## Before the first region: the padded, transposed data -/

/-- The padded coordinates as one term over the launch memory. -/
theorem W7_v3_eq (c : Dev nD) :
    (W7 m ρ c (Proc.devRef .tc main_v3) : S16x1015808.Idx → EReal) =
      transpose S16x1015808 [1, 0] (pad S1015808x16 ![0, 0] ![15808, 0] ![0, 0] (m ((c : Thread nD τ).loc main_arg0) : S1000000x16.Idx → EReal)
        (sitofp .f32 (constantI S_ 32 0#32) : FVec Ideal S_ .f32) pads_S1000000x16_S1015808x16_0158080_000 h_S_) transposes_S1015808x16_S16x1015808_1_0 := by
  show StableHlo.after hostOps0_6 (W6 m ρ c) (Proc.devRef .tc main_v3) = _
  after_results
  rfl

/-- The padded seediness as one term over the launch memory. -/
theorem W7_v4_eq (c : Dev nD) :
    (W7 m ρ c (Proc.devRef .tc main_v4) : S2x1015808.Idx → EReal) =
      transpose S2x1015808 [1, 0] (pad S1015808x2 ![0, 0] ![15808, 0] ![0, 0] (m ((c : Thread nD τ).loc main_arg1) : S1000000x2.Idx → EReal)
        (sitofp .f32 (constantI S_ 32 0#32) : FVec Ideal S_ .f32) pads_S1000000x2_S1015808x2_0158080_000 h_S_) transposes_S1015808x2_S2x1015808_1_0 := by
  show StableHlo.after hostOps0_6 (W6 m ρ c) (Proc.devRef .tc main_v4) = _
  after_results
  rfl

/-- The padded labels as one term over the launch memory. -/
theorem W7_v5_eq (c : Dev nD) :
    (W7 m ρ c (Proc.devRef .tc main_v5) : S1x1015808.Idx → BitVec 32) =
      shapeCast S1x1015808 (pad S1015808 ![0] ![15808] ![0] (m ((c : Thread nD τ).loc main_arg2) : S1000000.Idx → BitVec 32)
        (constantI S_ 32 4294967295#32 : IVec S_ 32) pads_S1000000_S1015808_0158080 h_S_) shapeCasts_S1015808_S1x1015808 := by
  show StableHlo.after hostOps0_6 (W6 m ρ c) (Proc.devRef .tc main_v5) = _
  after_results
  funext i
  generalize hostOps0_6._proof_6 = he
  have hh : he = Eq.refl _ := rfl
  subst hh
  refine congrFun (congrArg (fun v : S1015808.Idx → BitVec 32 => shapeCast S1x1015808 v shapeCasts_S1015808_S1x1015808) ?_) i
  rfl

/-- The integer zero converted, at the one index of the scalar shape, is zero. -/
theorem padValue_zero : (sitofp .f32 (constantI S_ 32 0#32) : FVec Ideal S_ .f32) (Shape.Idx.first h_S_) = 0 :=
  sitofp_zero (φ := .f32)

end KHost
open KHost

theorem W7_v3 (c : Dev nD) (d : Fin 16) (n : Fin 1015808) :
    W7 m ρ c (Proc.devRef .tc main_v3) (ix2 d n) = xrowP (m ((c : Thread nD τ).loc main_arg0)) n.val d :=
  (congrFun (W7_v3_eq m ρ c) (ix2 d n)).trans
    (padT_apply _ _ h_S_ padValue_zero pads_S1000000x16_S1015808x16_0158080_000 transposes_S1015808x16_S16x1015808_1_0 d n)

theorem W7_v4_0 (c : Dev nD) (n : Fin 1015808) :
    W7 m ρ c (Proc.devRef .tc main_v4) (ix2 0 n) = s0P (m ((c : Thread nD τ).loc main_arg1)) n.val :=
  (congrFun (W7_v4_eq m ρ c) (ix2 0 n)).trans
    (padT_apply _ _ h_S_ padValue_zero pads_S1000000x2_S1015808x2_0158080_000 transposes_S1015808x2_S2x1015808_1_0 0 n)

theorem W7_v4_1 (c : Dev nD) (n : Fin 1015808) :
    W7 m ρ c (Proc.devRef .tc main_v4) (ix2 1 n) = s1P (m ((c : Thread nD τ).loc main_arg1)) n.val :=
  (congrFun (W7_v4_eq m ρ c) (ix2 1 n)).trans
    (padT_apply _ _ h_S_ padValue_zero pads_S1000000x2_S1015808x2_0158080_000 transposes_S1015808x2_S2x1015808_1_0 1 n)

theorem W7_v5 (c : Dev nD) (n : Fin 1015808) :
    (W7 m ρ c (Proc.devRef .tc main_v5) (ix2 0 n)).toInt = labP (m ((c : Thread nD τ).loc main_arg2)) n.val := by
  have e := (congrFun (W7_v5_eq m ρ c) (ix2 0 n)).trans
    (padRow_apply _ _ h_S_ pads_S1000000_S1015808_0158080 shapeCasts_S1015808_S1x1015808 n)
  refine (congrArg BitVec.toInt e).trans ?_
  show _ = (if h : n.val < 1000000 then
      ((m ((c : Thread nD τ).loc main_arg2) : S1000000.Idx → BitVec 32) (ix1 ⟨n.val, h⟩)).toInt else -1)
  by_cases h : n.val < 1000000
  · rw [dif_pos h, dif_pos h]
  · rw [dif_neg h, dif_neg h]
    show (4294967295#32 : BitVec 32).toInt = -1
    decide

/-! ## The first region's result array, and what the region leaves alone -/

theorem W8_v6 (c : Dev nD) : W8 m ρ c (Proc.devRef .tc main_v6) = (dat0 (F := Ideal) (V7 m ρ) c).arrAt 3 cfg0.N :=
  W8_arr m ρ c 3

/-! ## Between the regions: counts, centroids, variances, squared norms -/

/-- Entry (q, k, e) of the first region's result. -/
abbrev r6 (c : Dev nD) (q : Fin 2) (k : Fin 32) (e : Fin 18) : EReal := W8 m ρ c (Proc.devRef .tc main_v6) (ix3 q k e)
/-- The count of cluster k. -/
abbrev r8 (c : Dev nD) (k : Fin 32) : EReal := W9 m ρ c (Proc.devRef .tc main_v8) (ix2 k 0)
/-- Coordinate d of centroid k. -/
abbrev r11 (c : Dev nD) (k : Fin 32) (d : Fin 16) : EReal := W9 m ρ c (Proc.devRef .tc main_v11) (ix2 k d)
/-- The variance of cluster k. -/
abbrev r13 (c : Dev nD) (k : Fin 32) : EReal := W9 m ρ c (Proc.devRef .tc main_v13) (ix2 k 0)
/-- The squared norm of centroid k. -/
abbrev r16 (c : Dev nD) (k : Fin 32) : EReal := W9 m ρ c (Proc.devRef .tc main_v16) (ix2 k 0)

namespace KHost

/-! ### The host operations between the regions, read at an index -/

/-- The sum over the two cores' rows, from a zero initial value. -/
theorem reduce0_apply (y : FVec Ideal S2x32x18 .f32) (k : Fin 32) (e : Fin 18) :
    Host.reduceAdd (F := Ideal) y (constant (F := Ideal) S_ .f32 0x00000000#32) reducesTo_S2x32x18_S32x18_d0 h_S_ (ix2 k e)
      = y (ix3 0 k e) + y (ix3 1 k e) := by
  simp only [Host.reduceAdd, Ideal.hostReduceAdd_def]
  rw [Ideal.hostReduceAdd_single reducesTo_S2x32x18_S32x18_d0 (by decide)]
  show Ideal.ofBits .f32 0x00000000#32 + _ = _
  rw [Ideal.ofBits_zero_f32, zero_add]
  refine (Fin.sum_univ_two _).trans ?_
  congr 1 <;> exact congrArg y (funext fun a => Fin.ext (by match a with | ⟨0, _⟩ => rfl | ⟨1, _⟩ => rfl | ⟨2, _⟩ => rfl))

/-- The sum over the 16 coordinates, from a zero initial value. -/
theorem reduce1_apply (p : FVec Ideal S32x16 .f32) (k : Fin 32) :
    Host.reduceAdd (F := Ideal) p (constant (F := Ideal) S_ .f32 0x00000000#32) reducesTo_S32x16_S32_d1 h_S_ (ix1 k)
      = ∑ d : Fin 16, p (ix2 k d) := by
  simp only [Host.reduceAdd, Ideal.hostReduceAdd_def]
  rw [Ideal.hostReduceAdd_single reducesTo_S32x16_S32_d1 (by decide)]
  show Ideal.ofBits .f32 0x00000000#32 + _ = _
  rw [Ideal.ofBits_zero_f32, zero_add]
  refine Finset.sum_congr rfl fun d _ => ?_
  exact congrArg p (funext fun a => Fin.ext (by match a with | ⟨0, _⟩ => rfl | ⟨1, _⟩ => rfl))

theorem slice16_apply (z : FVec Ideal S32x18 .f32) (k : Fin 32) :
    extractStridedSlice S32x1 ![0, 16] z slices_S32x18_S32x1_0_16 (ix2 k 0) = z (ix2 k 16) :=
  extractStridedSlice_apply ![0, 16] z slices_S32x18_S32x1_0_16 (ix2 k 0) (ix2 k 16) (fun a => match a with
    | ⟨0, _⟩ => by show k.val = 0 + k.val; omega
    | ⟨1, _⟩ => rfl)

theorem slice17_apply (z : FVec Ideal S32x18 .f32) (k : Fin 32) :
    extractStridedSlice S32x1 ![0, 17] z slices_S32x18_S32x1_0_17 (ix2 k 0) = z (ix2 k 17) :=
  extractStridedSlice_apply ![0, 17] z slices_S32x18_S32x1_0_17 (ix2 k 0) (ix2 k 17) (fun a => match a with
    | ⟨0, _⟩ => by show k.val = 0 + k.val; omega
    | ⟨1, _⟩ => rfl)

theorem slice0_apply (z : FVec Ideal S32x18 .f32) (k : Fin 32) (d : Fin 16) :
    extractStridedSlice S32x16 ![0, 0] z slices_S32x18_S32x16_0_0 (ix2 k d) = z (ix2 k ⟨d.val, by omega⟩) :=
  extractStridedSlice_apply ![0, 0] z slices_S32x18_S32x16_0_0 (ix2 k d) (ix2 k ⟨d.val, by omega⟩) (fun a => match a with
    | ⟨0, _⟩ => by show k.val = 0 + k.val; omega
    | ⟨1, _⟩ => by show d.val = 0 + d.val; omega)

theorem bcast16_apply (w : FVec Ideal S32x1 .f32) (k : Fin 32) (d : Fin 16) :
    broadcastInDim S32x16 ![0, 1] bcast_S32x1_S32x16_0_1 w (ix2 k d) = w (ix2 k 0) :=
  broadcastInDim_apply _ bcast_S32x1_S32x16_0_1 w (ix2 k d) (ix2 k 0) (fun a => match a with
    | ⟨0, _⟩ => by show k.val = if (32 : Nat) = 1 then 0 else k.val; rw [if_neg (by decide)]
    | ⟨1, _⟩ => by show 0 = if (1 : Nat) = 1 then 0 else d.val; rw [if_pos rfl])

theorem bcastCol_apply (u : FVec Ideal S32 .f32) (k : Fin 32) :
    broadcastInDim S32x1 ![0] bcast_S32_S32x1_0 u (ix2 k 0) = u (ix1 k) :=
  broadcastInDim_apply _ bcast_S32_S32x1_0 u (ix2 k 0) (ix1 k) (fun a => match a with
    | ⟨0, _⟩ => by show k.val = if (32 : Nat) = 1 then 0 else k.val; rw [if_neg (by decide)])

/-! ### Between the regions: the operations' composed terms, and their entries -/

/-- The two cores' rows of the first region's result, added. -/
def sum7 (c : Dev nD) : FVec Ideal S32x18 .f32 :=
  Host.reduceAdd (F := Ideal) (W8 m ρ c (Proc.devRef .tc main_v6) : FVec Ideal S2x32x18 .f32)
    (constant (F := Ideal) S_ .f32 0x00000000#32) reducesTo_S2x32x18_S32x18_d0 h_S_
/-- Column 16: the counts. -/
def cnt8 (c : Dev nD) : FVec Ideal S32x1 .f32 := extractStridedSlice S32x1 ![0, 16] (sum7 m ρ c) slices_S32x18_S32x1_0_16
/-- Columns 0–15 over the counts: the centroids. -/
def cen11 (c : Dev nD) : FVec Ideal S32x16 .f32 :=
  Host.divf (F := Ideal) (extractStridedSlice S32x16 ![0, 0] (sum7 m ρ c) slices_S32x18_S32x16_0_0)
    (broadcastInDim S32x16 ![0, 1] bcast_S32x1_S32x16_0_1 (cnt8 m ρ c))
/-- Column 17 over the counts: the variances. -/
def var13 (c : Dev nD) : FVec Ideal S32x1 .f32 :=
  Host.divf (F := Ideal) (extractStridedSlice S32x1 ![0, 17] (sum7 m ρ c) slices_S32x18_S32x1_0_17) (cnt8 m ρ c)
/-- The centroids' squares summed over the coordinates. -/
def nrm16 (c : Dev nD) : FVec Ideal S32x1 .f32 :=
  broadcastInDim S32x1 ![0] bcast_S32_S32x1_0
    (Host.reduceAdd (F := Ideal) (mulf (cen11 m ρ c) (cen11 m ρ c)) (constant (F := Ideal) S_ .f32 0x00000000#32)
      reducesTo_S32x16_S32_d1 h_S_)

theorem W9_v8_eq (c : Dev nD) : (W9 m ρ c (Proc.devRef .tc main_v8) : S32x1.Idx → EReal) = cnt8 m ρ c := by
  show StableHlo.after hostOps1 (W8 m ρ c) (Proc.devRef .tc main_v8) = _
  after_results
  rfl
theorem W9_v11_eq (c : Dev nD) : (W9 m ρ c (Proc.devRef .tc main_v11) : S32x16.Idx → EReal) = cen11 m ρ c := by
  show StableHlo.after hostOps1 (W8 m ρ c) (Proc.devRef .tc main_v11) = _
  after_results
  rfl
theorem W9_v13_eq (c : Dev nD) : (W9 m ρ c (Proc.devRef .tc main_v13) : S32x1.Idx → EReal) = var13 m ρ c := by
  show StableHlo.after hostOps1 (W8 m ρ c) (Proc.devRef .tc main_v13) = _
  after_results
  rfl
theorem W9_v16_eq (c : Dev nD) : (W9 m ρ c (Proc.devRef .tc main_v16) : S32x1.Idx → EReal) = nrm16 m ρ c := by
  show StableHlo.after hostOps1 (W8 m ρ c) (Proc.devRef .tc main_v16) = _
  after_results
  rfl

theorem sum7_apply (c : Dev nD) (k : Fin 32) (e : Fin 18) :
    sum7 m ρ c (ix2 k e) = r6 m ρ c 0 k e + r6 m ρ c 1 k e := reduce0_apply _ k e
theorem cnt8_apply (c : Dev nD) (k : Fin 32) : cnt8 m ρ c (ix2 k 0) = r6 m ρ c 0 k 16 + r6 m ρ c 1 k 16 :=
  (slice16_apply _ k).trans (sum7_apply m ρ c k 16)
theorem cen11_apply (c : Dev nD) (k : Fin 32) (d : Fin 16) :
    cen11 m ρ c (ix2 k d)
      = Ideal.div (r6 m ρ c 0 k ⟨d.val, by omega⟩ + r6 m ρ c 1 k ⟨d.val, by omega⟩) (cnt8 m ρ c (ix2 k 0)) := by
  show Ideal.div (extractStridedSlice S32x16 ![0, 0] (sum7 m ρ c) slices_S32x18_S32x16_0_0 (ix2 k d))
      (broadcastInDim S32x16 ![0, 1] bcast_S32x1_S32x16_0_1 (cnt8 m ρ c) (ix2 k d)) = _
  exact congrArg₂ Ideal.div ((slice0_apply _ k d).trans (sum7_apply m ρ c k _)) (bcast16_apply _ k d)
theorem var13_apply (c : Dev nD) (k : Fin 32) :
    var13 m ρ c (ix2 k 0) = Ideal.div (r6 m ρ c 0 k 17 + r6 m ρ c 1 k 17) (cnt8 m ρ c (ix2 k 0)) := by
  show Ideal.div (extractStridedSlice S32x1 ![0, 17] (sum7 m ρ c) slices_S32x18_S32x1_0_17 (ix2 k 0)) (cnt8 m ρ c (ix2 k 0)) = _
  exact congrArg (Ideal.div · _) ((slice17_apply _ k).trans (sum7_apply m ρ c k 17))
theorem nrm16_apply (c : Dev nD) (k : Fin 32) :
    nrm16 m ρ c (ix2 k 0) = ∑ d : Fin 16, cen11 m ρ c (ix2 k d) * cen11 m ρ c (ix2 k d) :=
  (bcastCol_apply _ k).trans ((reduce1_apply _ k).trans rfl)

end KHost

theorem W9_v8 (c : Dev nD) (k : Fin 32) : r8 m ρ c k = r6 m ρ c 0 k 16 + r6 m ρ c 1 k 16 :=
  (congrFun (W9_v8_eq m ρ c) (ix2 k 0)).trans (cnt8_apply m ρ c k)

theorem W9_v11 (c : Dev nD) (k : Fin 32) (d : Fin 16) :
    r11 m ρ c k d = Ideal.div (r6 m ρ c 0 k ⟨d.val, by omega⟩ + r6 m ρ c 1 k ⟨d.val, by omega⟩) (r8 m ρ c k) := by
  have e8 : r8 m ρ c k = cnt8 m ρ c (ix2 k 0) := congrFun (W9_v8_eq m ρ c) (ix2 k 0)
  exact (congrFun (W9_v11_eq m ρ c) (ix2 k d)).trans ((cen11_apply m ρ c k d).trans (congrArg (Ideal.div _) e8.symm))

theorem W9_v13 (c : Dev nD) (k : Fin 32) :
    r13 m ρ c k = Ideal.div (r6 m ρ c 0 k 17 + r6 m ρ c 1 k 17) (r8 m ρ c k) := by
  have e8 : r8 m ρ c k = cnt8 m ρ c (ix2 k 0) := congrFun (W9_v8_eq m ρ c) (ix2 k 0)
  exact (congrFun (W9_v13_eq m ρ c) (ix2 k 0)).trans ((var13_apply m ρ c k).trans (congrArg (Ideal.div _) e8.symm))

theorem W9_v16 (c : Dev nD) (k : Fin 32) : r16 m ρ c k = ∑ d : Fin 16, r11 m ρ c k d * r11 m ρ c k d := by
  have e11 : ∀ d : Fin 16, r11 m ρ c k d = cen11 m ρ c (ix2 k d) := fun d => congrFun (W9_v11_eq m ρ c) (ix2 k d)
  refine (congrFun (W9_v16_eq m ρ c) (ix2 k 0)).trans ((nrm16_apply m ρ c k).trans ?_)
  exact Finset.sum_congr rfl fun d _ => by rw [e11 d]

/-- The padded data reach the second region as the first found them: no operation between the regions writes them,
    and the first region only reads them. -/
theorem W9_v3 (c : Dev nD) : W9 m ρ c (Proc.devRef .tc main_v3) = W7 m ρ c (Proc.devRef .tc main_v3) := by
  have e1 : W9 m ρ c (Proc.devRef .tc main_v3) = W8 m ρ c (Proc.devRef .tc main_v3) := by
    show StableHlo.after hostOps1 (W8 m ρ c) (Proc.devRef .tc main_v3) = _
    after_results
  have e2 : W8 m ρ c (Proc.devRef .tc main_v3) = (dat0 (F := Ideal) (V7 m ρ) c).arrAt 0 cfg0.N := W8_arr m ρ c 0
  have e3 : (dat0 (F := Ideal) (V7 m ρ) c).arrAt 0 cfg0.N = (dat0 (F := Ideal) (V7 m ρ) c).A 0 :=
    (dat0 (F := Ideal) (V7 m ρ) c).arrAt_in 0 rfl _
  exact e1.trans (e2.trans (e3.trans rfl))
theorem W9_v4 (c : Dev nD) : W9 m ρ c (Proc.devRef .tc main_v4) = W7 m ρ c (Proc.devRef .tc main_v4) := by
  have e1 : W9 m ρ c (Proc.devRef .tc main_v4) = W8 m ρ c (Proc.devRef .tc main_v4) := by
    show StableHlo.after hostOps1 (W8 m ρ c) (Proc.devRef .tc main_v4) = _
    after_results
  have e2 : W8 m ρ c (Proc.devRef .tc main_v4) = (dat0 (F := Ideal) (V7 m ρ) c).arrAt 1 cfg0.N := W8_arr m ρ c 1
  have e3 : (dat0 (F := Ideal) (V7 m ρ) c).arrAt 1 cfg0.N = (dat0 (F := Ideal) (V7 m ρ) c).A 1 :=
    (dat0 (F := Ideal) (V7 m ρ) c).arrAt_in 1 rfl _
  exact e1.trans (e2.trans (e3.trans rfl))
theorem W9_v5 (c : Dev nD) : W9 m ρ c (Proc.devRef .tc main_v5) = W7 m ρ c (Proc.devRef .tc main_v5) := by
  have e1 : W9 m ρ c (Proc.devRef .tc main_v5) = W8 m ρ c (Proc.devRef .tc main_v5) := by
    show StableHlo.after hostOps1 (W8 m ρ c) (Proc.devRef .tc main_v5) = _
    after_results
  have e2 : W8 m ρ c (Proc.devRef .tc main_v5) = (dat0 (F := Ideal) (V7 m ρ) c).arrAt 2 cfg0.N := W8_arr m ρ c 2
  have e3 : (dat0 (F := Ideal) (V7 m ρ) c).arrAt 2 cfg0.N = (dat0 (F := Ideal) (V7 m ρ) c).A 2 :=
    (dat0 (F := Ideal) (V7 m ρ) c).arrAt_in 2 rfl _
  exact e1.trans (e2.trans (e3.trans rfl))

end Cert.KernelIdeal.Val

end
-- ==== Proof.TailSpec.lean ====
/-
  What both programs do with the cluster statistics once the sums over the points are taken.

  The inter-cluster term: for every ordered pair of distinct centroids the squared hinge max(3 − ‖μⱼ − μₖ‖, 0)², the
  diagonal masked out before the square root and again before the sum, averaged over the 32·31 pairs. The
  regulariser: the mean centroid norm. The loss: 3·(cross-entropy mean) + 1·(inter-cluster) + 0.001·(regulariser)
  + 5·(smoothness) + 5·(seediness error), associated to the left.
-/
import proofs.«401601_j38319698215236_3_alg».proof.Proof.Gen.ReferenceIdeal
import proofs.«401601_j38319698215236_3_alg».proof.Proof.Spec

noncomputable section

namespace Cert.Tail

open Cert.ReferenceIdeal Cert.ReferenceIdeal.Gen Idealize.ShloMosaic

/-- A 32 × 16 array of extended reals: the centroids. -/
abbrev CM : Type := FVec Ideal S32x16 .f32
/-- A scalar held as an array of rank zero. -/
abbrev SC : Type := FVec Ideal S_ .f32

/-- The inter-cluster term of the centroids. -/
def distF (cm : CM) : SC :=
  Host.divf (Host.reduceAdd (select (cmpi .eq (addi (iotaInDim S32x32 32 0) (broadcastInDim S32x32 ![] bcast_S_S32x32 (constantI S_ 32 0#32))) (iotaInDim S32x32 32 1)) (broadcastInDim S32x32 ![] bcast_S_S32x32 (id (constant S_ .f32 0x00000000#32))) (mulf (maximumf (subf (broadcastInDim S32x32 ![] bcast_S_S32x32 (constant S_ .f32 0x40400000#32)) (Host.sqrt (select (cmpi .eq (addi (iotaInDim S32x32 32 0) (broadcastInDim S32x32 ![] bcast_S_S32x32 (constantI S_ 32 0#32))) (iotaInDim S32x32 32 1)) (broadcastInDim S32x32 ![] bcast_S_S32x32 (id (constant S_ .f32 0x3F800000#32))) (Host.reduceAdd (mulf (subf (broadcastInDim S32x32x16 ![0, 1, 2] bcast_S32x1x16_S32x32x16_0_1_2 (broadcastInDim S32x1x16 ![0, 2] bcast_S32x16_S32x1x16_0_2 (cm))) (broadcastInDim S32x32x16 ![0, 1, 2] bcast_S1x32x16_S32x32x16_0_1_2 (broadcastInDim S1x32x16 ![1, 2] bcast_S32x16_S1x32x16_1_2 (cm)))) (subf (broadcastInDim S32x32x16 ![0, 1, 2] bcast_S32x1x16_S32x32x16_0_1_2 (broadcastInDim S32x1x16 ![0, 2] bcast_S32x16_S32x1x16_0_2 (cm))) (broadcastInDim S32x32x16 ![0, 1, 2] bcast_S1x32x16_S32x32x16_0_1_2 (broadcastInDim S1x32x16 ![1, 2] bcast_S32x16_S1x32x16_1_2 (cm))))) (constant S_ .f32 0x00000000#32) reducesTo_S32x32x16_S32x32_d2 h_S_)))) (broadcastInDim S32x32 ![] bcast_S_S32x32 (constant S_ .f32 0x00000000#32))) (maximumf (subf (broadcastInDim S32x32 ![] bcast_S_S32x32 (constant S_ .f32 0x40400000#32)) (Host.sqrt (select (cmpi .eq (addi (iotaInDim S32x32 32 0) (broadcastInDim S32x32 ![] bcast_S_S32x32 (constantI S_ 32 0#32))) (iotaInDim S32x32 32 1)) (broadcastInDim S32x32 ![] bcast_S_S32x32 (id (constant S_ .f32 0x3F800000#32))) (Host.reduceAdd (mulf (subf (broadcastInDim S32x32x16 ![0, 1, 2] bcast_S32x1x16_S32x32x16_0_1_2 (broadcastInDim S32x1x16 ![0, 2] bcast_S32x16_S32x1x16_0_2 (cm))) (broadcastInDim S32x32x16 ![0, 1, 2] bcast_S1x32x16_S32x32x16_0_1_2 (broadcastInDim S1x32x16 ![1, 2] bcast_S32x16_S1x32x16_1_2 (cm)))) (subf (broadcastInDim S32x32x16 ![0, 1, 2] bcast_S32x1x16_S32x32x16_0_1_2 (broadcastInDim S32x1x16 ![0, 2] bcast_S32x16_S32x1x16_0_2 (cm))) (broadcastInDim S32x32x16 ![0, 1, 2] bcast_S1x32x16_S32x32x16_0_1_2 (broadcastInDim S1x32x16 ![1, 2] bcast_S32x16_S1x32x16_1_2 (cm))))) (constant S_ .f32 0x00000000#32) reducesTo_S32x32x16_S32x32_d2 h_S_)))) (broadcastInDim S32x32 ![] bcast_S_S32x32 (constant S_ .f32 0x00000000#32))))) (constant S_ .f32 0x00000000#32) reducesTo_S32x32_S_d0_1 h_S_) (constant S_ .f32 0x44780000#32)

/-- The mean centroid norm. -/
def regF (cm : CM) : SC :=
  Host.divf (Host.reduceAdd (Host.sqrt (Host.reduceAdd (mulf (cm) (cm)) (constant S_ .f32 0x00000000#32) reducesTo_S32x16_S32_d1 h_S_)) (constant S_ .f32 0x00000000#32) reducesTo_S32_S_d0 h_S_) (constant S_ .f32 0x42000000#32)

/-- The loss from the centroids, the cross-entropy mean, the smoothness and the seediness error. -/
def lossF (cm : CM) (vl sm sl : SC) : SC :=
  addf (addf (addf (addf (mulf (constant S_ .f32 0x40400000#32) (vl)) (mulf (constant S_ .f32 0x3F800000#32) (distF cm))) (mulf (constant S_ .f32 0x3A83126F#32) (regF cm))) (mulf (constant S_ .f32 0x40A00000#32) (sm))) (mulf (constant S_ .f32 0x40A00000#32) (sl))

/-! ## The loss of the data -/

section Data

open Cert.Spec

variable (x : XF.Idx → EReal) (s : XS.Idx → EReal) (l : XL.Idx → BitVec 32)

/-- The cross-entropy mean: the total over the 32 000 000 point–cluster pairs. -/
def varloss : EReal := Ideal.div (B x s l) (Ideal.ofBits .f32 0x4BF42400#32)

/-- The seediness error mean: the total over the 1 000 000 points. -/
def seedloss : EReal := Ideal.div (Sd x s l) (Ideal.ofBits .f32 0x49742400#32)

/-- The smoothness: the mean over the clusters of the mean squared deviation of v within the cluster. -/
def smooth : EReal := Ideal.div (∑ k : Fin 32, Ideal.div (Q x s l k) (cnt x s l k)) (Ideal.ofBits .f32 0x42000000#32)

/-- The centroids as an array. -/
def cmV : CM := fun i => cmS x s l (i 0) (i 1)

/-- The loss of the data. -/
def lossV : SC := lossF (cmV x s l) (fun _ => varloss x s l) (fun _ => smooth x s l) (fun _ => seedloss x s l)

end Data

end Cert.Tail

end
-- ==== Proof.KTail.lean ====
/-
  The host operations of the kernel's program after its second region.

  The two cores' rows of each result are added; the cross-entropy total is divided by 32 000 000, the seediness
  total by 1 000 000, the per-cluster squared deviations by the cluster counts and their mean taken; the
  inter-cluster term and the regulariser are computed from the centroids and the loss assembled. From the centroids
  on, the operations are those of the shared tail; the squared norms the regulariser reads were computed between the
  regions from the same centroids.
-/
import proofs.«401601_j38319698215236_3_alg».proof.Proof.Gen.KernelIdeal.Frame
import proofs.«401601_j38319698215236_3_alg».proof.Proof.TailSpec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem Cert.Spec

variable (m : (ℓ : Loc nD τ sig) → Buf (Elt Ideal) ℓ) (ρ : Dev nD → PrngReg)

/-! ## What the second region leaves alone, and its result arrays

The counts are no window of the second region. The centroids and their squared norms are input windows of it: an
input window's array is never written back, so it ends as it was entered. -/

theorem W10_v8 (c : Dev nD) : W10 m ρ c (Proc.devRef .tc main_v8) = W9 m ρ c (Proc.devRef .tc main_v8) :=
  W10_of_ne m ρ c main_v8 (by decide)
theorem W10_v11 (c : Dev nD) : W10 m ρ c (Proc.devRef .tc main_v11) = W9 m ρ c (Proc.devRef .tc main_v11) :=
  (W10_arr m ρ c 3).trans
    ((Pipeline.Dat.arrAt_in (dat1 (F := Ideal) (V9 m ρ) c) 3 (by decide) cfg1.N).trans (A_eq1 (V9 m ρ) c 3))
theorem W10_v16 (c : Dev nD) : W10 m ρ c (Proc.devRef .tc main_v16) = W9 m ρ c (Proc.devRef .tc main_v16) :=
  (W10_arr m ρ c 5).trans
    ((Pipeline.Dat.arrAt_in (dat1 (F := Ideal) (V9 m ρ) c) 5 (by decide) cfg1.N).trans (A_eq1 (V9 m ρ) c 5))
theorem W10_v17_0 (c : Dev nD) :
    W10 m ρ c (Proc.devRef .tc main_v17_0) = (dat1 (F := Ideal) (V9 m ρ) c).arrAt 6 cfg1.N :=
  W10_arr m ρ c 6
theorem W10_v17_1 (c : Dev nD) :
    W10 m ρ c (Proc.devRef .tc main_v17_1) = (dat1 (F := Ideal) (V9 m ρ) c).arrAt 7 cfg1.N :=
  W10_arr m ρ c 7
theorem W10_v17_2 (c : Dev nD) :
    W10 m ρ c (Proc.devRef .tc main_v17_2) = (dat1 (F := Ideal) (V9 m ρ) c).arrAt 8 cfg1.N :=
  W10_arr m ρ c 8

/-! ## Sums over the two cores' rows -/

/-- A sum over the indices of a 2 × 1 × 1 array is the sum of its two entries. -/
theorem sum_S2x1x1 (x : S2x1x1.Idx → EReal) : ∑ i : S2x1x1.Idx, x i = x (ix3 0 0 0) + x (ix3 1 0 0) := by
  let e : S2x1x1.Idx ≃ Fin 2 :=
    { toFun := fun i => i 0
      invFun := fun q => ix3 q 0 0
      left_inv := fun i => by
        funext a
        match a with
        | ⟨0, _⟩ => rfl
        | ⟨1, _⟩ => exact (Subsingleton.elim (α := Fin 1) _ _)
        | ⟨2, _⟩ => exact (Subsingleton.elim (α := Fin 1) _ _)
      right_inv := fun q => rfl }
  rw [← Equiv.sum_comp e.symm x, Fin.sum_univ_two]
  rfl

/-- The total of a 2 × 1 × 1 array divided by a constant: the two rows added, then divided. -/
theorem mean2_eq (x : FVec Ideal S2x1x1 .f32) (b : BitVec 32) :
    Host.divf (F := Ideal) (Host.reduceAdd (F := Ideal) x (constant (F := Ideal) S_ .f32 0x00000000#32) reducesTo_S2x1x1_S_d0_1_2 h_S_)
       (constant (F := Ideal) S_ .f32 b)
     = fun _ => Ideal.div (x (ix3 0 0 0) + x (ix3 1 0 0)) (Ideal.ofBits .f32 b) := by
  funext i
  simp only [Host.divf, Ideal.hostDivf_def, Host.reduceAdd, Ideal.hostReduceAdd_def, constant, Ideal.ofBits_def]
  rw [Ideal.hostReduceAdd_total reducesTo_S2x1x1_S_d0_1_2 (fun b => b.elim0)]
  rw [Ideal.ofBits_zero_f32, zero_add, sum_S2x1x1]

/-- The two rows of a 2 × 32 × 1 array added, divided entrywise by a 32 × 1 array, and the mean of the 32 quotients. -/
theorem smooth_eq (x : FVec Ideal S2x32x1 .f32) (n : FVec Ideal S32x1 .f32) :
    Host.divf (F := Ideal) (Host.reduceAdd (F := Ideal)
        (Host.divf (F := Ideal) (Host.reduceAdd (F := Ideal) x (constant (F := Ideal) S_ .f32 0x00000000#32) reducesTo_S2x32x1_S32x1_d0 h_S_) n)
        (constant (F := Ideal) S_ .f32 0x00000000#32) reducesTo_S32x1_S_d0_1 h_S_)
       (constant (F := Ideal) S_ .f32 0x42000000#32)
     = fun _ => Ideal.div (∑ k : Fin 32, Ideal.div (x (ix3 0 k 0) + x (ix3 1 k 0)) (n (ix2 k 0))) (Ideal.ofBits .f32 0x42000000#32) := by
  funext i
  simp only [Host.divf, Ideal.hostDivf_def, Host.reduceAdd, Ideal.hostReduceAdd_def, constant, Ideal.ofBits_def]
  rw [Ideal.hostReduceAdd_total reducesTo_S32x1_S_d0_1 (fun b => b.elim0)]
  rw [Ideal.ofBits_zero_f32, zero_add, sum_idx2]
  congr 1
  refine Finset.sum_congr rfl fun k _ => ?_
  rw [Fin.sum_univ_one]
  show Ideal.div (Ideal.hostReduceAdd reducesTo_S2x32x1_S32x1_d0 x 0 (ix2 k 0)) (n (ix2 k 0)) = _
  rw [Ideal.hostReduceAdd_single reducesTo_S2x32x1_S32x1_d0 (by decide), zero_add]
  refine congrArg (Ideal.div · _) ?_
  refine (Finset.sum_congr rfl fun q _ => ?_).trans (Fin.sum_univ_two fun q : Fin 2 => x (ix3 q k 0))
  exact congrArg x (funext fun a => Fin.ext (by match a with | ⟨0, _⟩ => rfl | ⟨1, _⟩ => rfl | ⟨2, _⟩ => rfl))

/-- A vector of 32 entries broadcast to a 32 × 1 array and read back as a vector is itself. -/
theorem reg_read (v : FVec Ideal S32 .f32) (i : S32.Idx) :
    shapeCast S32 (broadcastInDim S32x1 ![0] bcast_S32_S32x1_0 v) shapeCasts_S32x1_S32 i = v i := by
  obtain ⟨p, rfl⟩ : ∃ p, i = ix1 p := ⟨i 0, eq_ix1 i⟩
  rw [shapeCast_apply _ _ _ (ix2 p 0) (by simp [Shape.rowMajor_val_two, Shape.rowMajor_val_one])]
  rw [broadcastInDim_apply _ _ _ _ (ix1 p) (by intro a; match a with | ⟨0, _⟩ => rfl)]

/-! ## The squared norms computed between the regions -/

/-- After the host operations between the regions the squared-norm array is the broadcast of the row sums of the
    squared centroids. -/
theorem after1_v16 (V : Valuation τ sig (Elt Ideal)) :
    StableHlo.after (hostOps1 (F := Ideal)) V (Proc.devRef .tc main_v16)
      = broadcastInDim S32x1 ![0] bcast_S32_S32x1_0
          (Host.reduceAdd (F := Ideal)
            (mulf (StableHlo.after (hostOps1 (F := Ideal)) V (Proc.devRef .tc main_v11) : FVec Ideal S32x16 .f32)
                  (StableHlo.after (hostOps1 (F := Ideal)) V (Proc.devRef .tc main_v11)))
            (constant (F := Ideal) S_ .f32 0x00000000#32) reducesTo_S32x16_S32_d1 h_S_) := by
  dsimp only [hostOps1]
  after_results <;> rfl

theorem W10_v16_eq (c : Dev nD) :
    W10 m ρ c (Proc.devRef .tc main_v16)
      = broadcastInDim S32x1 ![0] bcast_S32_S32x1_0
          (Host.reduceAdd (F := Ideal)
            (mulf (W10 m ρ c (Proc.devRef .tc main_v11) : FVec Ideal S32x16 .f32) (W10 m ρ c (Proc.devRef .tc main_v11)))
            (constant (F := Ideal) S_ .f32 0x00000000#32) reducesTo_S32x16_S32_d1 h_S_) := by
  rw [W10_v16, W10_v11]
  exact after1_v16 (W8 m ρ c)

/-! ## The result -/

/-- Row q of the cross-entropy result, of the seediness result, entry (q, k) of the squared-deviation result and the
    count of cluster k, in an arbitrary assignment of contents to the buffers. -/
abbrev r0 (V : Valuation τ sig (Elt Ideal)) (q : Fin 2) : EReal := V (Proc.devRef .tc main_v17_0) (ix3 q 0 0)
abbrev r1 (V : Valuation τ sig (Elt Ideal)) (q : Fin 2) : EReal := V (Proc.devRef .tc main_v17_1) (ix3 q 0 0)
abbrev r2 (V : Valuation τ sig (Elt Ideal)) (q : Fin 2) (k : Fin 32) : EReal := V (Proc.devRef .tc main_v17_2) (ix3 q k 0)
abbrev tl8 (V : Valuation τ sig (Elt Ideal)) (k : Fin 32) : EReal := V (Proc.devRef .tc main_v8) (ix2 k 0)

set_option maxHeartbeats 40000000 in
/-- From any contents in which the squared-norm array is the broadcast of the row sums of the squared centroids, the
    operations after the second region end with the loss of the centroids and the three means. The five terms of the
    final sum are compared one by one: the two totals and the smoothness by the sums over the cores' rows, the
    inter-cluster term as the same chain of operations, the regulariser by reading the broadcast back. -/
theorem tail_of (V : Valuation τ sig (Elt Ideal))
    (h16 : V (Proc.devRef .tc main_v16)
      = broadcastInDim S32x1 ![0] bcast_S32_S32x1_0
          (Host.reduceAdd (F := Ideal) (mulf (V (Proc.devRef .tc main_v11) : FVec Ideal S32x16 .f32) (V (Proc.devRef .tc main_v11)))
            (constant (F := Ideal) S_ .f32 0x00000000#32) reducesTo_S32x16_S32_d1 h_S_)) :
    StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) V)))) (Proc.devRef .tc main_v60)
      = Cert.Tail.lossF (V (Proc.devRef .tc main_v11))
          (fun _ => Ideal.div (r0 V 0 + r0 V 1) (Ideal.ofBits .f32 0x4BF42400#32))
          (fun _ => Ideal.div (∑ k : Fin 32, Ideal.div (r2 V 0 k + r2 V 1 k) (tl8 V k)) (Ideal.ofBits .f32 0x42000000#32))
          (fun _ => Ideal.div (r1 V 0 + r1 V 1) (Ideal.ofBits .f32 0x49742400#32)) := by
  dsimp only [hostOps2_4, hostOps2_3, hostOps2_2, hostOps2_1, hostOps2]
  after_results_simp
  unfold Cert.Tail.lossF
  refine congrArg₂ addf (congrArg₂ addf (congrArg₂ addf (congrArg₂ addf (congrArg (mulf _) ?A) (congrArg (mulf _) ?B))
    (congrArg (mulf _) ?C)) (congrArg (mulf _) ?D)) (congrArg (mulf _) ?E)
  case A => exact mean2_eq _ _
  case E => exact mean2_eq _ _
  case D => exact smooth_eq _ _
  case B => rfl
  case C =>
    rw [h16]
    have e : (fun i : S32.Idx => shapeCast S32 (broadcastInDim S32x1 ![0] bcast_S32_S32x1_0
          (Host.reduceAdd (F := Ideal) (mulf (V (Proc.devRef .tc main_v11) : FVec Ideal S32x16 .f32) (V (Proc.devRef .tc main_v11)))
            (constant (F := Ideal) S_ .f32 0x00000000#32) reducesTo_S32x16_S32_d1 h_S_)) shapeCasts_S32x1_S32 i)
        = Host.reduceAdd (F := Ideal) (mulf (V (Proc.devRef .tc main_v11) : FVec Ideal S32x16 .f32) (V (Proc.devRef .tc main_v11)))
            (constant (F := Ideal) S_ .f32 0x00000000#32) reducesTo_S32x16_S32_d1 h_S_ := funext fun i => reg_read _ i
    exact congrArg (fun z : FVec Ideal S32 .f32 => Host.divf (F := Ideal) (Host.reduceAdd (F := Ideal) (Host.sqrt (F := Ideal) z)
      (constant (F := Ideal) S_ .f32 0x00000000#32) reducesTo_S32_S_d0 h_S_) (constant (F := Ideal) S_ .f32 0x42000000#32)) e

/-- Row q of the cross-entropy result, of the seediness result, entry (q, k) of the squared-deviation result,
    and the count of cluster k, as the tail finds them. -/
abbrev t0 (c : Dev nD) (q : Fin 2) : EReal := W10 m ρ c (Proc.devRef .tc main_v17_0) (ix3 q 0 0)
abbrev t1 (c : Dev nD) (q : Fin 2) : EReal := W10 m ρ c (Proc.devRef .tc main_v17_1) (ix3 q 0 0)
abbrev t2 (c : Dev nD) (q : Fin 2) (k : Fin 32) : EReal := W10 m ρ c (Proc.devRef .tc main_v17_2) (ix3 q k 0)
abbrev t8 (c : Dev nD) (k : Fin 32) : EReal := W10 m ρ c (Proc.devRef .tc main_v8) (ix2 k 0)

/-- The loss the program returns, over the centroids and the three totals the second region leaves. -/
theorem tail_value (c : Dev nD) :
    W15 m ρ c (Proc.devRef .tc main_v60)
      = Cert.Tail.lossF (W10 m ρ c (Proc.devRef .tc main_v11))
          (fun _ => Ideal.div (t0 m ρ c 0 + t0 m ρ c 1) (Ideal.ofBits .f32 0x4BF42400#32))
          (fun _ => Ideal.div (∑ k : Fin 32, Ideal.div (t2 m ρ c 0 k + t2 m ρ c 1 k) (t8 m ρ c k))
            (Ideal.ofBits .f32 0x42000000#32))
          (fun _ => Ideal.div (t1 m ρ c 0 + t1 m ρ c 1) (Ideal.ofBits .f32 0x49742400#32)) :=
  tail_of (W10 m ρ c) (W10_v16_eq m ρ c)

end Cert.KernelIdeal.Val

end
-- ==== Proof.SpecSums.lean ====
/-
  Sums over the padded points, block by block, are the sums over the points.

  One program walks the points in blocks of a fixed length, over an index range that is a whole number of blocks and
  runs past the last point; past it the data are the padding, whose label is −1. A term weighted by a cluster's
  indicator, or by validity, vanishes on the padding, so the blocked sum over the padded range is the sum over the points.
-/
import proofs.«401601_j38319698215236_3_alg».proof.Proof.Spec

noncomputable section

namespace Cert.Spec

open Idealize.ShloMosaic Idealize.ShloMosaic.ValueIdx

/-- The padded length: 62 blocks of 16384, or 124 blocks of 8192. -/
abbrev NPad : Nat := 1015808

/-- A sum block by block is the sum over the whole range. -/
theorem sum_blocks (g : Nat → EReal) (Bk : Nat) : ∀ Tn : Nat,
    ∑ t ∈ Finset.range Tn, ∑ j ∈ Finset.range Bk, g (t * Bk + j) = ∑ n ∈ Finset.range (Tn * Bk), g n
  | 0 => by simp
  | Tn + 1 => by
    rw [Finset.sum_range_succ, sum_blocks g Bk Tn, Nat.succ_mul, Finset.sum_range_add]

/-- A sum over the padded range of a term that vanishes past the last point is the sum over the points. -/
theorem sum_padded (g : Nat → EReal) (hg : ∀ n, NP ≤ n → g n = 0) :
    ∑ n ∈ Finset.range NPad, g n = ∑ n : Fin NP, g n.val := by
  rw [show NPad = NP + 15808 from rfl, Finset.sum_range_add, Finset.sum_range]
  rw [Finset.sum_eq_zero (fun i _ => hg (NP + i) (Nat.le_add_right _ _)), add_zero]

/-- Blocks of 16384 over the padded range. -/
theorem sum_blocks_16384 (g : Nat → EReal) (hg : ∀ n, NP ≤ n → g n = 0) :
    ∑ t ∈ Finset.range 62, ∑ j ∈ Finset.range 16384, g (t * 16384 + j) = ∑ n : Fin NP, g n.val := by
  rw [sum_blocks g 16384 62]; exact sum_padded g hg

/-- Blocks of 8192 over the padded range. -/
theorem sum_blocks_8192 (g : Nat → EReal) (hg : ∀ n, NP ≤ n → g n = 0) :
    ∑ t ∈ Finset.range 124, ∑ j ∈ Finset.range 8192, g (t * 8192 + j) = ∑ n : Fin NP, g n.val := by
  rw [sum_blocks g 8192 124]; exact sum_padded g hg

/-- The two halves of a range of an even number of blocks. -/
theorem sum_halves (g : Nat → EReal) (H : Nat) :
    ∑ i ∈ Finset.range H, g (H * 0 + i) + ∑ i ∈ Finset.range H, g (H * 1 + i) = ∑ t ∈ Finset.range (H + H), g t := by
  rw [Finset.sum_range_add]; simp

section Data

variable (x : XF.Idx → EReal) (s : XS.Idx → EReal) (l : XL.Idx → BitVec 32)

theorem xrowP_lt (n : Fin NP) : xrowP x n.val = xrow x n := by
  funext d; unfold xrowP xrow; rw [dif_pos n.isLt]
theorem s0P_lt (n : Fin NP) : s0P s n.val = s (ix2 n 0) := by unfold s0P; rw [dif_pos n.isLt]
theorem s1P_lt (n : Fin NP) : s1P s n.val = s (ix2 n 1) := by unfold s1P; rw [dif_pos n.isLt]
theorem labP_lt (n : Fin NP) : labP l n.val = lab l n := by unfold labP; rw [dif_pos n.isLt]
theorem labP_ge (n : Nat) (h : NP ≤ n) : labP l n = -1 := by unfold labP; rw [dif_neg (by omega)]

theorem hotI_neg_one (k : Fin 32) : hotI (-1) k = 0 := by
  unfold hotI; rw [if_neg]; omega
theorem validI_neg_one : validI (-1) = 0 := by unfold validI; rw [if_neg]; omega
theorem validI_of_ok (h : LabelsOK l) (n : Fin NP) : validI (lab l n) = 1 := by
  unfold validI; rw [if_pos (h n).1]

/-- The per-cluster sums of the extended feature, block by block over the padded points. -/
theorem T_blocks (k : Fin 32) (e : Fin 18) :
    ∑ t ∈ Finset.range 62, ∑ j ∈ Finset.range 16384,
        hotI (labP l (t * 16384 + j)) k * extF (xrowP x (t * 16384 + j)) (s1P s (t * 16384 + j)) e
      = T x s l k e := by
  rw [sum_blocks_16384 (fun n => hotI (labP l n) k * extF (xrowP x n) (s1P s n) e)
    (fun n hn => by rw [labP_ge l n hn, hotI_neg_one, zero_mul])]
  unfold T
  exact Finset.sum_congr rfl fun n _ => by rw [labP_lt, xrowP_lt, s1P_lt]

/-- The cross-entropy, block by block over the padded points, each point weighted by its validity. -/
theorem B_blocks (h : LabelsOK l) (cmA : Fin 32 → Fin 16 → EReal) (vrA m2A : Fin 32 → EReal) :
    ∑ t ∈ Finset.range 124, ∑ j ∈ Finset.range 8192,
        rowB cmA vrA m2A (xrowP x (t * 8192 + j)) (labP l (t * 8192 + j)) * validI (labP l (t * 8192 + j))
      = ∑ n : Fin NP, rowB cmA vrA m2A (xrow x n) (lab l n) := by
  rw [sum_blocks_8192 (fun n => rowB cmA vrA m2A (xrowP x n) (labP l n) * validI (labP l n))
    (fun n hn => by rw [labP_ge l n hn, validI_neg_one, mul_zero])]
  exact Finset.sum_congr rfl fun n _ => by rw [labP_lt, xrowP_lt, validI_of_ok l h, mul_one]

/-- The squared seediness error, block by block over the padded points, each point weighted by its validity. -/
theorem Sd_blocks (h : LabelsOK l) (cmA : Fin 32 → Fin 16 → EReal) (vrA m2A : Fin 32 → EReal) :
    ∑ t ∈ Finset.range 124, ∑ j ∈ Finset.range 8192,
        serr cmA vrA m2A (xrowP x (t * 8192 + j)) (s0P s (t * 8192 + j)) (labP l (t * 8192 + j))
          * validI (labP l (t * 8192 + j))
      = ∑ n : Fin NP, serr cmA vrA m2A (xrow x n) (s (ix2 n 0)) (lab l n) := by
  rw [sum_blocks_8192 (fun n => serr cmA vrA m2A (xrowP x n) (s0P s n) (labP l n) * validI (labP l n))
    (fun n hn => by rw [labP_ge l n hn, validI_neg_one, mul_zero])]
  exact Finset.sum_congr rfl fun n _ => by rw [labP_lt, xrowP_lt, s0P_lt, validI_of_ok l h, mul_one]

/-- The per-cluster squared deviations, block by block over the padded points. -/
theorem Q_blocks (vrA : Fin 32 → EReal) (k : Fin 32) :
    ∑ t ∈ Finset.range 124, ∑ j ∈ Finset.range 8192,
        hotI (labP l (t * 8192 + j)) k * sqd vrA (s1P s (t * 8192 + j)) (labP l (t * 8192 + j))
      = ∑ n : Fin NP, hotI (lab l n) k * sqd vrA (s (ix2 n 1)) (lab l n) := by
  rw [sum_blocks_8192 (fun n => hotI (labP l n) k * sqd vrA (s1P s n) (labP l n))
    (fun n hn => by rw [labP_ge l n hn, hotI_neg_one, zero_mul])]
  exact Finset.sum_congr rfl fun n _ => by rw [labP_lt, s1P_lt]

end Data

/-! ## The indicator as a weight -/

theorem hotI_mul (a : Int) (k : Fin 32) (b : EReal) : hotI a k * b = if a = (k.val : Int) then b else 0 := by
  unfold hotI; split <;> simp

theorem mul_hotI (a : Int) (k : Fin 32) (b : EReal) : b * hotI a k = if a = (k.val : Int) then b else 0 := by
  unfold hotI; split <;> simp

/-- A sum over the points whose label is k is the sum over all points weighted by the indicator. -/
theorem sum_filter_eq_hot (l : XL.Idx → BitVec 32) (k : Fin 32) (g : Fin NP → EReal) :
    ∑ n ∈ Finset.univ.filter (fun n : Fin NP => lab l n = (k.val : Int)), g n
      = ∑ n : Fin NP, hotI (lab l n) k * g n := by
  rw [Finset.sum_filter]
  exact Finset.sum_congr rfl fun n _ => (hotI_mul (lab l n) k (g n)).symm

/-- The cluster a label in range names. -/
def cluOf (a : Int) (h : 0 ≤ a ∧ a < 32) : Fin 32 := ⟨a.toNat, by omega⟩

theorem cluOf_val (a : Int) (h : 0 ≤ a ∧ a < 32) : ((cluOf a h).val : Int) = a := by
  unfold cluOf; simp only; omega

/-- An indicator-weighted sum over the clusters picks the label's own cluster. -/
theorem sum_hotI_mul (a : Int) (h : 0 ≤ a ∧ a < 32) (f : Fin 32 → EReal) :
    ∑ k : Fin 32, hotI a k * f k = f (cluOf a h) := by
  rw [Finset.sum_eq_single (cluOf a h)]
  · rw [hotI_mul, if_pos (cluOf_val a h).symm]
  · intro k _ hk
    rw [hotI_mul, if_neg]
    intro e
    exact hk (Fin.ext (by have := cluOf_val a h; omega))
  · intro hn; exact absurd (Finset.mem_univ _) hn

theorem sum_mul_hotI (a : Int) (h : 0 ≤ a ∧ a < 32) (f : Fin 32 → EReal) :
    ∑ k : Fin 32, f k * hotI a k = f (cluOf a h) := by
  rw [← sum_hotI_mul a h f]
  exact Finset.sum_congr rfl fun k _ => mul_comm _ _

end Cert.Spec

end
-- ==== Proof.KValue.lean ====
/-
  The kernel program's result is the loss of the data.

  The first region's two rows add up, block by block over the padded points, to the per-cluster sums of the extended
  feature; the host operations between the regions turn them into counts, centroids, variances and squared norms; with
  those the second region's rows add up to the cross-entropy total, the seediness total and the per-cluster squared
  deviations (padded points add zero: no cluster, not valid); and the host operations after it are the shared tail.
-/
import proofs.«401601_j38319698215236_3_alg».proof.Proof.KRun
import proofs.«401601_j38319698215236_3_alg».proof.Proof.KPay0
import proofs.«401601_j38319698215236_3_alg».proof.Proof.KPay1Bce
import proofs.«401601_j38319698215236_3_alg».proof.Proof.KPay1Rest
import proofs.«401601_j38319698215236_3_alg».proof.Proof.KReg0
import proofs.«401601_j38319698215236_3_alg».proof.Proof.KReg1
import proofs.«401601_j38319698215236_3_alg».proof.Proof.KHost
import proofs.«401601_j38319698215236_3_alg».proof.Proof.KTail
import proofs.«401601_j38319698215236_3_alg».proof.Proof.SpecSums
import proofs.«401601_j38319698215236_3_alg».proof.Proof.TailSpec

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem Cert.Spec

variable (m : (ℓ : Loc nD τ sig) → Buf (Elt Ideal) ℓ) (ρ : Dev nD → PrngReg)

/-- The three argument arrays on core c. -/
abbrev xA (c : Dev nD) : XF.Idx → EReal := m ((c : Thread nD τ).loc main_arg0)
abbrev sA (c : Dev nD) : XS.Idx → EReal := m ((c : Thread nD τ).loc main_arg1)
abbrev lA (c : Dev nD) : XL.Idx → BitVec 32 := m ((c : Thread nD τ).loc main_arg2)

/-- The second region's three stores, read at an index. -/
theorem pay1 : Pay1 where
  z3 := k1_pay3_apply
  z4 := k1_pay4_apply
  z5 := k1_pay5_apply
  bce := fun v3 v7 v9 v11 v13 z hz v64 => k1_bce_apply v3 v7 v9 v11 v13 z hz v64
  seed := fun v3 v5 v7 v9 v11 v13 z hz v79 => k1_seed_apply v3 v5 v7 v9 v11 v13 z hz v79
  sq := fun v5 v7 v11 v92 k => k1_sq_apply v5 v7 v11 v92 k

/-- The two halves of a run of 62 blocks. -/
theorem halves31 (g : Nat → EReal) :
    (∑ t ∈ Finset.range 31, g (31 * (0 : Fin 2).val + t)) + ∑ t ∈ Finset.range 31, g (31 * (1 : Fin 2).val + t)
      = ∑ t ∈ Finset.range 62, g t := sum_halves g 31

/-- The two halves of a run of 124 blocks. -/
theorem halves62 (g : Nat → EReal) :
    (∑ t ∈ Finset.range 62, g (62 * (0 : Fin 2).val + t)) + ∑ t ∈ Finset.range 62, g (62 * (1 : Fin 2).val + t)
      = ∑ t ∈ Finset.range 124, g t := sum_halves g 62

/-! ## The first region and the statistics -/

theorem r6_eq (c : Dev nD) (q : Fin 2) (k : Fin 32) (e : Fin 18) :
    r6 m ρ c q k e
      = ∑ t ∈ Finset.range 31, ∑ j ∈ Finset.range 16384,
          hotI (labP (lA m c) ((31 * q.val + t) * 16384 + j)) k
            * extF (xrowP (xA m c) ((31 * q.val + t) * 16384 + j)) (s1P (sA m c) ((31 * q.val + t) * 16384 + j)) e := by
  show W8 m ρ c (Proc.devRef .tc main_v6) (ix3 q k e) = _
  rw [W8_v6]
  exact reg0_final (V7 m ρ) k0_pay1_apply (fun v3 v5 v7 v19 k e => k0_pay2_apply v3 v5 v7 v19 k e) c (xA m c) (sA m c) (lA m c)
    (fun d n => W7_v3 m ρ c d n) (fun n => W7_v4_1 m ρ c n) (fun n => W7_v5 m ρ c n) q k e

/-- The two cores' rows add up to the per-cluster sums of the extended feature. -/
theorem T_eq (c : Dev nD) (k : Fin 32) (e : Fin 18) :
    r6 m ρ c 0 k e + r6 m ρ c 1 k e = T (xA m c) (sA m c) (lA m c) k e := by
  rw [r6_eq m ρ c 0 k e, r6_eq m ρ c 1 k e]
  exact (halves31 (fun u => ∑ j ∈ Finset.range 16384,
      hotI (labP (lA m c) (u * 16384 + j)) k * extF (xrowP (xA m c) (u * 16384 + j)) (s1P (sA m c) (u * 16384 + j)) e)).trans
    (T_blocks (xA m c) (sA m c) (lA m c) k e)

theorem r8_eq (c : Dev nD) (k : Fin 32) : r8 m ρ c k = cnt (xA m c) (sA m c) (lA m c) k :=
  (W9_v8 m ρ c k).trans (T_eq m ρ c k 16)

theorem r11_eq (c : Dev nD) (k : Fin 32) (d : Fin 16) : r11 m ρ c k d = cmS (xA m c) (sA m c) (lA m c) k d := by
  rw [W9_v11, T_eq, r8_eq]; rfl

theorem r13_eq (c : Dev nD) (k : Fin 32) : r13 m ρ c k = vrS (xA m c) (sA m c) (lA m c) k := by
  rw [W9_v13, T_eq, r8_eq]; rfl

theorem r16_eq (c : Dev nD) (k : Fin 32) : r16 m ρ c k = m2S (xA m c) (sA m c) (lA m c) k := by
  rw [W9_v16]
  exact Finset.sum_congr rfl fun d _ => by rw [r11_eq]

/-! ## The second region -/

section Reg1

variable (c : Dev nD)

theorem h3' (d : Fin 16) (n : Fin 1015808) : V9 m ρ c main_v3 (ix2 d n) = xrowP (xA m c) n.val d :=
  (congrFun (W9_v3 m ρ c) (ix2 d n)).trans (W7_v3 m ρ c d n)
theorem h40' (n : Fin 1015808) : V9 m ρ c main_v4 (ix2 0 n) = s0P (sA m c) n.val :=
  (congrFun (W9_v4 m ρ c) (ix2 0 n)).trans (W7_v4_0 m ρ c n)
theorem h41' (n : Fin 1015808) : V9 m ρ c main_v4 (ix2 1 n) = s1P (sA m c) n.val :=
  (congrFun (W9_v4 m ρ c) (ix2 1 n)).trans (W7_v4_1 m ρ c n)
theorem h5' (n : Fin 1015808) : (V9 m ρ c main_v5 (ix2 0 n)).toInt = labP (lA m c) n.val :=
  (congrArg BitVec.toInt (congrFun (W9_v5 m ρ c) (ix2 0 n))).trans (W7_v5 m ρ c n)

theorem t0_eq (q : Fin 2) :
    t0 m ρ c q
      = ∑ t ∈ Finset.range 62, ∑ j ∈ Finset.range 8192,
          rowB (cmS (xA m c) (sA m c) (lA m c)) (vrS (xA m c) (sA m c) (lA m c)) (m2S (xA m c) (sA m c) (lA m c))
              (xrowP (xA m c) ((62 * q.val + t) * 8192 + j)) (labP (lA m c) ((62 * q.val + t) * 8192 + j))
            * validI (labP (lA m c) ((62 * q.val + t) * 8192 + j)) := by
  show W10 m ρ c (Proc.devRef .tc main_v17_0) (ix3 q 0 0) = _
  rw [W10_v17_0]
  exact reg1_final_bce (V9 m ρ) pay1 c (xA m c) (lA m c) _ _ _ (h3' m ρ c) (h5' m ρ c)
    (r11_eq m ρ c) (r13_eq m ρ c) (r16_eq m ρ c) q

theorem t1_eq (q : Fin 2) :
    t1 m ρ c q
      = ∑ t ∈ Finset.range 62, ∑ j ∈ Finset.range 8192,
          serr (cmS (xA m c) (sA m c) (lA m c)) (vrS (xA m c) (sA m c) (lA m c)) (m2S (xA m c) (sA m c) (lA m c))
              (xrowP (xA m c) ((62 * q.val + t) * 8192 + j)) (s0P (sA m c) ((62 * q.val + t) * 8192 + j))
              (labP (lA m c) ((62 * q.val + t) * 8192 + j))
            * validI (labP (lA m c) ((62 * q.val + t) * 8192 + j)) := by
  show W10 m ρ c (Proc.devRef .tc main_v17_1) (ix3 q 0 0) = _
  rw [W10_v17_1]
  exact reg1_final_seed (V9 m ρ) pay1 c (xA m c) (sA m c) (lA m c) _ _ _ (h3' m ρ c) (h40' m ρ c) (h5' m ρ c)
    (r11_eq m ρ c) (r13_eq m ρ c) (r16_eq m ρ c) q

theorem t2_eq (q : Fin 2) (k : Fin 32) :
    t2 m ρ c q k
      = ∑ t ∈ Finset.range 62, ∑ j ∈ Finset.range 8192,
          hotI (labP (lA m c) ((62 * q.val + t) * 8192 + j)) k
            * sqd (vrS (xA m c) (sA m c) (lA m c)) (s1P (sA m c) ((62 * q.val + t) * 8192 + j))
                (labP (lA m c) ((62 * q.val + t) * 8192 + j)) := by
  show W10 m ρ c (Proc.devRef .tc main_v17_2) (ix3 q k 0) = _
  rw [W10_v17_2]
  exact reg1_final_sq (V9 m ρ) pay1 c (sA m c) (lA m c) _ (h41' m ρ c) (h5' m ρ c) (r13_eq m ρ c) q k

theorem B_eq (hl : LabelsOK (lA m c)) : t0 m ρ c 0 + t0 m ρ c 1 = B (xA m c) (sA m c) (lA m c) := by
  rw [t0_eq m ρ c 0, t0_eq m ρ c 1]
  exact (halves62 (fun u => ∑ j ∈ Finset.range 8192,
      rowB (cmS (xA m c) (sA m c) (lA m c)) (vrS (xA m c) (sA m c) (lA m c)) (m2S (xA m c) (sA m c) (lA m c))
          (xrowP (xA m c) (u * 8192 + j)) (labP (lA m c) (u * 8192 + j))
        * validI (labP (lA m c) (u * 8192 + j)))).trans
    (B_blocks (xA m c) (lA m c) hl _ _ _)

theorem Sd_eq (hl : LabelsOK (lA m c)) : t1 m ρ c 0 + t1 m ρ c 1 = Sd (xA m c) (sA m c) (lA m c) := by
  rw [t1_eq m ρ c 0, t1_eq m ρ c 1]
  exact (halves62 (fun u => ∑ j ∈ Finset.range 8192,
      serr (cmS (xA m c) (sA m c) (lA m c)) (vrS (xA m c) (sA m c) (lA m c)) (m2S (xA m c) (sA m c) (lA m c))
          (xrowP (xA m c) (u * 8192 + j)) (s0P (sA m c) (u * 8192 + j)) (labP (lA m c) (u * 8192 + j))
        * validI (labP (lA m c) (u * 8192 + j)))).trans
    (Sd_blocks (xA m c) (sA m c) (lA m c) hl _ _ _)

theorem Q_eq (k : Fin 32) : t2 m ρ c 0 k + t2 m ρ c 1 k = Q (xA m c) (sA m c) (lA m c) k := by
  rw [t2_eq m ρ c 0 k, t2_eq m ρ c 1 k]
  exact (halves62 (fun u => ∑ j ∈ Finset.range 8192,
      hotI (labP (lA m c) (u * 8192 + j)) k
        * sqd (vrS (xA m c) (sA m c) (lA m c)) (s1P (sA m c) (u * 8192 + j)) (labP (lA m c) (u * 8192 + j)))).trans
    (Q_blocks (sA m c) (lA m c) _ k)

theorem t8_eq (k : Fin 32) : t8 m ρ c k = cnt (xA m c) (sA m c) (lA m c) k :=
  (congrFun (W10_v8 m ρ c) (ix2 k 0)).trans (r8_eq m ρ c k)

/-- The centroids the tail reads are the centroids of the data. -/
theorem cm10_eq : W10 m ρ c (Proc.devRef .tc main_v11) = Cert.Tail.cmV (xA m c) (sA m c) (lA m c) := by
  funext i
  obtain ⟨k, d, rfl⟩ : ∃ (k : Fin 32) (d : Fin 16), i = ix2 k d := ⟨i 0, i 1, eq_ix2 i⟩
  exact (congrFun (W10_v11 m ρ c) (ix2 k d)).trans (r11_eq m ρ c k d)

/-- Under labels in range, what the program returns is the loss of the data. -/
theorem kernel_value (hl : LabelsOK (lA m c)) :
    W15 m ρ c (Proc.devRef .tc main_v60) = Cert.Tail.lossV (xA m c) (sA m c) (lA m c) := by
  have hs : (∑ k : Fin 32, Ideal.div (t2 m ρ c 0 k + t2 m ρ c 1 k) (t8 m ρ c k))
      = ∑ k : Fin 32, Ideal.div (Q (xA m c) (sA m c) (lA m c) k) (cnt (xA m c) (sA m c) (lA m c) k) :=
    Finset.sum_congr rfl fun k _ => by rw [Q_eq m ρ c k, t8_eq m ρ c k]
  rw [tail_value, cm10_eq, B_eq m ρ c hl, Sd_eq m ρ c hl, hs]
  rfl

end Reg1

end Cert.KernelIdeal.Val

end
-- ==== Proof.RefRunH.lean ====
/- Gen/ReferenceIdeal/Run.lean whose one-piece run does not build, and proof/Proof/RefRead.lean). A table: the reference's 177 host operations cut into
   four chunks, and per chunk the buffers a later chunk reads.

  The reference's run, chunk by chunk.

  @main is a straight line of 177 host operations, each writing a buffer of its own from buffers written before it. Cut
  into four stretches, the contents after one stretch are an opaque valuation for the next; of it the next stretch needs only
  the arguments and the few buffers it reads from earlier stretches, each at its stage's value. So the result buffer ends at
  the last stage's value of the arguments, and the arguments end as launched. -/
import proofs.«401601_j38319698215236_3_alg».proof.Proof.Gen.ReferenceIdeal
import proofs.«401601_j38319698215236_3_alg».proof.Proof.RefRead
import Idealize.ShloMosaic.Lib.StableHlo.Run

noncomputable section

namespace Cert.ReferenceIdeal.ValueH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Operations 1 … 47 of @main. -/
abbrev ops0 : List (HloOp τ sig (Elt F)) :=
  [ nullary main_cst (constant S_ .f32 0x3F800000#32),
    unary main_cst main_v0 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v1 (broadcastInDim S32 ![] bcast_S_S32 : (⟨S_, .f32⟩ : BufTy).Contents (Elt F) → (⟨S32, .f32⟩ : BufTy).Contents (Elt F)),
    unary main_arg2 main_v2 (broadcastInDim S1000000x1 ![0] bcast_S1000000_S1000000x1_0 : (⟨S1000000, .i32⟩ : BufTy).Contents (Elt F) → (⟨S1000000x1, .i32⟩ : BufTy).Contents (Elt F)),
    ternary main_v1 main_v2 main_v0 main_v3 ((fun x i u => Host.scatterAdd scatter_S32_S1000000x1_S1000000_n_0_0_1 x i u) : (⟨S32, .f32⟩ : BufTy).Contents (Elt F) → (⟨S1000000x1, .i32⟩ : BufTy).Contents (Elt F) → (⟨S1000000, .f32⟩ : BufTy).Contents (Elt F) → (⟨S32, .f32⟩ : BufTy).Contents (Elt F)),
    nullary main_cst_1 (constant S_ .f32 0x00000000#32),
    unary main_cst_1 main_v4 (broadcastInDim S32x16 ![] bcast_S_S32x16 : (⟨S_, .f32⟩ : BufTy).Contents (Elt F) → (⟨S32x16, .f32⟩ : BufTy).Contents (Elt F)),
    unary main_arg2 main_v5 (broadcastInDim S1000000x1 ![0] bcast_S1000000_S1000000x1_0 : (⟨S1000000, .i32⟩ : BufTy).Contents (Elt F) → (⟨S1000000x1, .i32⟩ : BufTy).Contents (Elt F)),
    ternary main_v4 main_v5 main_arg0 main_v6 ((fun x i u => Host.scatterAdd scatter_S32x16_S1000000x1_S1000000x16_1_0_0_1 x i u) : (⟨S32x16, .f32⟩ : BufTy).Contents (Elt F) → (⟨S1000000x1, .i32⟩ : BufTy).Contents (Elt F) → (⟨S1000000x16, .f32⟩ : BufTy).Contents (Elt F) → (⟨S32x16, .f32⟩ : BufTy).Contents (Elt F)),
    unary main_v3 main_v7 (broadcastInDim S32x1 ![0] bcast_S32_S32x1_0 : (⟨S32, .f32⟩ : BufTy).Contents (Elt F) → (⟨S32x1, .f32⟩ : BufTy).Contents (Elt F)),
    unary main_v7 main_v8 (broadcastInDim S32x16 ![0, 1] bcast_S32x1_S32x16_0_1 : (⟨S32x1, .f32⟩ : BufTy).Contents (Elt F) → (⟨S32x16, .f32⟩ : BufTy).Contents (Elt F)),
    binary main_v6 main_v8 main_v9 (Host.divf : (⟨S32x16, .f32⟩ : BufTy).Contents (Elt F) → (⟨S32x16, .f32⟩ : BufTy).Contents (Elt F) → (⟨S32x16, .f32⟩ : BufTy).Contents (Elt F)),
    unary main_arg1 main_v10 ((extractStridedSlice S1000000x1 ![0, 1] · slices_S1000000x2_S1000000x1_0_1) : (⟨S1000000x2, .f32⟩ : BufTy).Contents (Elt F) → (⟨S1000000x1, .f32⟩ : BufTy).Contents (Elt F)),
    reshape main_v10 main_v11 rfl shapeCasts_S1000000x1_S1000000,
    unary main_v11 main_v12 (Host.exp : (⟨S1000000, .f32⟩ : BufTy).Contents (Elt F) → (⟨S1000000, .f32⟩ : BufTy).Contents (Elt F)),
    nullary main_cst_2 (constant S_ .f32 0x00000000#32),
    unary main_cst_2 main_v13 (broadcastInDim S32 ![] bcast_S_S32 : (⟨S_, .f32⟩ : BufTy).Contents (Elt F) → (⟨S32, .f32⟩ : BufTy).Contents (Elt F)),
    unary main_arg2 main_v14 (broadcastInDim S1000000x1 ![0] bcast_S1000000_S1000000x1_0 : (⟨S1000000, .i32⟩ : BufTy).Contents (Elt F) → (⟨S1000000x1, .i32⟩ : BufTy).Contents (Elt F)),
    ternary main_v13 main_v14 main_v12 main_v15 ((fun x i u => Host.scatterAdd scatter_S32_S1000000x1_S1000000_n_0_0_1 x i u) : (⟨S32, .f32⟩ : BufTy).Contents (Elt F) → (⟨S1000000x1, .i32⟩ : BufTy).Contents (Elt F) → (⟨S1000000, .f32⟩ : BufTy).Contents (Elt F) → (⟨S32, .f32⟩ : BufTy).Contents (Elt F)),
    binary main_v15 main_v3 main_v16 (Host.divf : (⟨S32, .f32⟩ : BufTy).Contents (Elt F) → (⟨S32, .f32⟩ : BufTy).Contents (Elt F) → (⟨S32, .f32⟩ : BufTy).Contents (Elt F)),
    nullary main_c (constantI S_ 32 0#32),
    unary main_c main_v17 (broadcastInDim S1000000 ![] bcast_S_S1000000 : (⟨S_, .i32⟩ : BufTy).Contents (Elt F) → (⟨S1000000, .i32⟩ : BufTy).Contents (Elt F)),
    binary main_arg2 main_v17 main_v18 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 32#32),
    unary main_c_3 main_v19 (broadcastInDim S1000000 ![] bcast_S_S1000000 : (⟨S_, .i32⟩ : BufTy).Contents (Elt F) → (⟨S1000000, .i32⟩ : BufTy).Contents (Elt F)),
    binary main_arg2 main_v19 main_v20 (addi : (⟨S1000000, .i32⟩ : BufTy).Contents (Elt F) → (⟨S1000000, .i32⟩ : BufTy).Contents (Elt F) → (⟨S1000000, .i32⟩ : BufTy).Contents (Elt F)),
    ternary main_v18 main_v20 main_arg2 main_v21 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v21 main_v22 (broadcastInDim S1000000x1 ![0] bcast_S1000000_S1000000x1_0 : (⟨S1000000, .i32⟩ : BufTy).Contents (Elt F) → (⟨S1000000x1, .i32⟩ : BufTy).Contents (Elt F)),
    binary main_v16 main_v22 main_v23 ((fun x i => Host.gather gather_S32_S1000000x1_S1000000_n_0_n_n_0_1_1 x i) : (⟨S32, .f32⟩ : BufTy).Contents (Elt F) → (⟨S1000000x1, .i32⟩ : BufTy).Contents (Elt F) → (⟨S1000000, .f32⟩ : BufTy).Contents (Elt F)),
    binary main_v12 main_v23 main_v24 (subf : (⟨S1000000, .f32⟩ : BufTy).Contents (Elt F) → (⟨S1000000, .f32⟩ : BufTy).Contents (Elt F) → (⟨S1000000, .f32⟩ : BufTy).Contents (Elt F)),
    binary main_v24 main_v24 main_v25 (mulf : (⟨S1000000, .f32⟩ : BufTy).Contents (Elt F) → (⟨S1000000, .f32⟩ : BufTy).Contents (Elt F) → (⟨S1000000, .f32⟩ : BufTy).Contents (Elt F)),
    nullary main_cst_4 (constant S_ .f32 0x00000000#32),
    unary main_cst_4 main_v26 (broadcastInDim S32 ![] bcast_S_S32 : (⟨S_, .f32⟩ : BufTy).Contents (Elt F) → (⟨S32, .f32⟩ : BufTy).Contents (Elt F)),
    unary main_arg2 main_v27 (broadcastInDim S1000000x1 ![0] bcast_S1000000_S1000000x1_0 : (⟨S1000000, .i32⟩ : BufTy).Contents (Elt F) → (⟨S1000000x1, .i32⟩ : BufTy).Contents (Elt F)),
    ternary main_v26 main_v27 main_v25 main_v28 ((fun x i u => Host.scatterAdd scatter_S32_S1000000x1_S1000000_n_0_0_1 x i u) : (⟨S32, .f32⟩ : BufTy).Contents (Elt F) → (⟨S1000000x1, .i32⟩ : BufTy).Contents (Elt F) → (⟨S1000000, .f32⟩ : BufTy).Contents (Elt F) → (⟨S32, .f32⟩ : BufTy).Contents (Elt F)),
    binary main_v28 main_v3 main_v29 (Host.divf : (⟨S32, .f32⟩ : BufTy).Contents (Elt F) → (⟨S32, .f32⟩ : BufTy).Contents (Elt F) → (⟨S32, .f32⟩ : BufTy).Contents (Elt F)),
    nullary main_cst_5 (constant S_ .f32 0x00000000#32),
    binary main_v29 main_cst_5 main_v30 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_6 (constant S_ .f32 0x42000000#32),
    binary main_v30 main_cst_6 main_v31 (Host.divf : (⟨S_, .f32⟩ : BufTy).Contents (Elt F) → (⟨S_, .f32⟩ : BufTy).Contents (Elt F) → (⟨S_, .f32⟩ : BufTy).Contents (Elt F)),
    binary main_arg0 main_arg0 main_v32 (mulf : (⟨S1000000x16, .f32⟩ : BufTy).Contents (Elt F) → (⟨S1000000x16, .f32⟩ : BufTy).Contents (Elt F) → (⟨S1000000x16, .f32⟩ : BufTy).Contents (Elt F)),
    nullary main_cst_7 (constant S_ .f32 0x00000000#32),
    binary main_v32 main_cst_7 main_v33 ((fun x v => Host.reduceAdd x v reducesTo_S1000000x16_S1000000_d1 h_S_) : (⟨S1000000x16, .f32⟩ : BufTy).Contents (Elt F) → (⟨S_, .f32⟩ : BufTy).Contents (Elt F) → (⟨S1000000, .f32⟩ : BufTy).Contents (Elt F)),
    binary main_v9 main_v9 main_v34 (mulf : (⟨S32x16, .f32⟩ : BufTy).Contents (Elt F) → (⟨S32x16, .f32⟩ : BufTy).Contents (Elt F) → (⟨S32x16, .f32⟩ : BufTy).Contents (Elt F)),
    nullary main_cst_8 (constant S_ .f32 0x00000000#32),
    binary main_v34 main_cst_8 main_v35 ((fun x v => Host.reduceAdd x v reducesTo_S32x16_S32_d1 h_S_) : (⟨S32x16, .f32⟩ : BufTy).Contents (Elt F) → (⟨S_, .f32⟩ : BufTy).Contents (Elt F) → (⟨S32, .f32⟩ : BufTy).Contents (Elt F)) ]
set_option maxRecDepth 8192 in
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., unary_bufs_sub .., reshape_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub ..⟩
theorem ops0_fresh : ∀ op ∈ (ops0 : List (HloOp τ sig (Elt F))), op.fresh = ∅ := by
  intro _ h; (repeat (cases h with | head => rfl | tail _ h => ?_)); exact nomatch h

/-- Operations 48 … 92 of @main. -/
abbrev ops1 : List (HloOp τ sig (Elt F)) :=
  [ unary main_v33 main_v36 (broadcastInDim S1000000x1 ![0] bcast_S1000000_S1000000x1_0 : (⟨S1000000, .f32⟩ : BufTy).Contents (Elt F) → (⟨S1000000x1, .f32⟩ : BufTy).Contents (Elt F)),
    unary main_v35 main_v37 (broadcastInDim S1x32 ![1] bcast_S32_S1x32_1 : (⟨S32, .f32⟩ : BufTy).Contents (Elt F) → (⟨S1x32, .f32⟩ : BufTy).Contents (Elt F)),
    unary main_v36 main_v38 (broadcastInDim S1000000x32 ![0, 1] bcast_S1000000x1_S1000000x32_0_1 : (⟨S1000000x1, .f32⟩ : BufTy).Contents (Elt F) → (⟨S1000000x32, .f32⟩ : BufTy).Contents (Elt F)),
    unary main_v37 main_v39 (broadcastInDim S1000000x32 ![0, 1] bcast_S1x32_S1000000x32_0_1 : (⟨S1x32, .f32⟩ : BufTy).Contents (Elt F) → (⟨S1000000x32, .f32⟩ : BufTy).Contents (Elt F)),
    binary main_v38 main_v39 main_v40 (addf : (⟨S1000000x32, .f32⟩ : BufTy).Contents (Elt F) → (⟨S1000000x32, .f32⟩ : BufTy).Contents (Elt F) → (⟨S1000000x32, .f32⟩ : BufTy).Contents (Elt F)),
    unary main_v9 main_v41 ((transpose S16x32 [1, 0] · transposes_S32x16_S16x32_1_0) : (⟨S32x16, .f32⟩ : BufTy).Contents (Elt F) → (⟨S16x32, .f32⟩ : BufTy).Contents (Elt F)),
    binary main_arg0 main_v41 main_v42 ((fun l r => Host.dotGeneral dot_S1000000x16_S16x32_S1000000x32_1_0_0_1_n_n none l r) : (⟨S1000000x16, .f32⟩ : BufTy).Contents (Elt F) → (⟨S16x32, .f32⟩ : BufTy).Contents (Elt F) → (⟨S1000000x32, .f32⟩ : BufTy).Contents (Elt F)),
    nullary main_cst_9 (constant S_ .f32 0x40000000#32),
    unary main_cst_9 main_v43 (broadcastInDim S1000000x32 ![] bcast_S_S1000000x32 : (⟨S_, .f32⟩ : BufTy).Contents (Elt F) → (⟨S1000000x32, .f32⟩ : BufTy).Contents (Elt F)),
    binary main_v43 main_v42 main_v44 (mulf : (⟨S1000000x32, .f32⟩ : BufTy).Contents (Elt F) → (⟨S1000000x32, .f32⟩ : BufTy).Contents (Elt F) → (⟨S1000000x32, .f32⟩ : BufTy).Contents (Elt F)),
    binary main_v40 main_v44 main_v45 (subf : (⟨S1000000x32, .f32⟩ : BufTy).Contents (Elt F) → (⟨S1000000x32, .f32⟩ : BufTy).Contents (Elt F) → (⟨S1000000x32, .f32⟩ : BufTy).Contents (Elt F)),
    nullary main_cst_10 (constant S_ .f32 0x00000000#32),
    unary main_cst_10 main_v46 (broadcastInDim S1000000x32 ![] bcast_S_S1000000x32 : (⟨S_, .f32⟩ : BufTy).Contents (Elt F) → (⟨S1000000x32, .f32⟩ : BufTy).Contents (Elt F)),
    binary main_v45 main_v46 main_v47 (maximumf : (⟨S1000000x32, .f32⟩ : BufTy).Contents (Elt F) → (⟨S1000000x32, .f32⟩ : BufTy).Contents (Elt F) → (⟨S1000000x32, .f32⟩ : BufTy).Contents (Elt F)),
    unary main_v47 main_v48 (Host.negf : (⟨S1000000x32, .f32⟩ : BufTy).Contents (Elt F) → (⟨S1000000x32, .f32⟩ : BufTy).Contents (Elt F)),
    unary main_v16 main_v49 (broadcastInDim S1x32 ![1] bcast_S32_S1x32_1 : (⟨S32, .f32⟩ : BufTy).Contents (Elt F) → (⟨S1x32, .f32⟩ : BufTy).Contents (Elt F)),
    nullary main_cst_11 (constant S_ .f32 0x40000000#32),
    unary main_cst_11 main_v50 (broadcastInDim S1x32 ![] bcast_S_S1x32 : (⟨S_, .f32⟩ : BufTy).Contents (Elt F) → (⟨S1x32, .f32⟩ : BufTy).Contents (Elt F)),
    binary main_v50 main_v49 main_v51 (mulf : (⟨S1x32, .f32⟩ : BufTy).Contents (Elt F) → (⟨S1x32, .f32⟩ : BufTy).Contents (Elt F) → (⟨S1x32, .f32⟩ : BufTy).Contents (Elt F)),
    unary main_v51 main_v52 (broadcastInDim S1000000x32 ![0, 1] bcast_S1x32_S1000000x32_0_1 : (⟨S1x32, .f32⟩ : BufTy).Contents (Elt F) → (⟨S1000000x32, .f32⟩ : BufTy).Contents (Elt F)),
    binary main_v48 main_v52 main_v53 (Host.divf : (⟨S1000000x32, .f32⟩ : BufTy).Contents (Elt F) → (⟨S1000000x32, .f32⟩ : BufTy).Contents (Elt F) → (⟨S1000000x32, .f32⟩ : BufTy).Contents (Elt F)),
    unary main_v53 main_v54 (Host.exp : (⟨S1000000x32, .f32⟩ : BufTy).Contents (Elt F) → (⟨S1000000x32, .f32⟩ : BufTy).Contents (Elt F)),
    unary main_arg2 main_v55 (broadcastInDim S1000000x1 ![0] bcast_S1000000_S1000000x1_0 : (⟨S1000000, .i32⟩ : BufTy).Contents (Elt F) → (⟨S1000000x1, .i32⟩ : BufTy).Contents (Elt F)),
    nullary main_v56 (iotaInDim S32 32 0),
    unary main_v56 main_v57 (broadcastInDim S1x32 ![1] bcast_S32_S1x32_1 : (⟨S32, .i32⟩ : BufTy).Contents (Elt F) → (⟨S1x32, .i32⟩ : BufTy).Contents (Elt F)),
    unary main_v55 main_v58 (broadcastInDim S1000000x32 ![0, 1] bcast_S1000000x1_S1000000x32_0_1 : (⟨S1000000x1, .i32⟩ : BufTy).Contents (Elt F) → (⟨S1000000x32, .i32⟩ : BufTy).Contents (Elt F)),
    unary main_v57 main_v59 (broadcastInDim S1000000x32 ![0, 1] bcast_S1x32_S1000000x32_0_1 : (⟨S1x32, .i32⟩ : BufTy).Contents (Elt F) → (⟨S1000000x32, .i32⟩ : BufTy).Contents (Elt F)),
    binary main_v58 main_v59 main_v60 (cmpi .eq : (⟨S1000000x32, .i32⟩ : BufTy).Contents (Elt F) → (⟨S1000000x32, .i32⟩ : BufTy).Contents (Elt F) → (⟨S1000000x32, .i1⟩ : BufTy).Contents (Elt F)),
    nullary main_cst_12 (constant S_ .f32 0xC2C80000#32),
    unary main_cst_12 main_v61 (broadcastInDim S1000000x32 ![] bcast_S_S1000000x32 : (⟨S_, .f32⟩ : BufTy).Contents (Elt F) → (⟨S1000000x32, .f32⟩ : BufTy).Contents (Elt F)),
    binary main_v53 main_v61 main_v62 (maximumf : (⟨S1000000x32, .f32⟩ : BufTy).Contents (Elt F) → (⟨S1000000x32, .f32⟩ : BufTy).Contents (Elt F) → (⟨S1000000x32, .f32⟩ : BufTy).Contents (Elt F)),
    unary main_v54 main_v63 (Host.negf : (⟨S1000000x32, .f32⟩ : BufTy).Contents (Elt F) → (⟨S1000000x32, .f32⟩ : BufTy).Contents (Elt F)),
    unary main_v63 main_v64 (Host.log1p : (⟨S1000000x32, .f32⟩ : BufTy).Contents (Elt F) → (⟨S1000000x32, .f32⟩ : BufTy).Contents (Elt F)),
    nullary main_cst_13 (constant S_ .f32 0xC2C80000#32),
    unary main_cst_13 main_v65 (broadcastInDim S1000000x32 ![] bcast_S_S1000000x32 : (⟨S_, .f32⟩ : BufTy).Contents (Elt F) → (⟨S1000000x32, .f32⟩ : BufTy).Contents (Elt F)),
    binary main_v64 main_v65 main_v66 (maximumf : (⟨S1000000x32, .f32⟩ : BufTy).Contents (Elt F) → (⟨S1000000x32, .f32⟩ : BufTy).Contents (Elt F) → (⟨S1000000x32, .f32⟩ : BufTy).Contents (Elt F)),
    TRef.ternary (TRef.of (T := ⟨S1000000x32, .i1⟩) main_v60) (TRef.of (T := ⟨S1000000x32, .f32⟩) main_v62) (TRef.of (T := ⟨S1000000x32, .f32⟩) main_v66) (TRef.of (T := ⟨S1000000x32, .f32⟩) main_v67) select,
    unary main_v67 main_v68 (Host.negf : (⟨S1000000x32, .f32⟩ : BufTy).Contents (Elt F) → (⟨S1000000x32, .f32⟩ : BufTy).Contents (Elt F)),
    nullary main_cst_14 (constant S_ .f32 0x00000000#32),
    binary main_v68 main_cst_14 main_v69 ((fun x v => Host.reduceAdd x v reducesTo_S1000000x32_S_d0_1 h_S_) : (⟨S1000000x32, .f32⟩ : BufTy).Contents (Elt F) → (⟨S_, .f32⟩ : BufTy).Contents (Elt F) → (⟨S_, .f32⟩ : BufTy).Contents (Elt F)),
    nullary main_cst_15 (constant S_ .f32 0x4BF42400#32),
    binary main_v69 main_cst_15 main_v70 (Host.divf : (⟨S_, .f32⟩ : BufTy).Contents (Elt F) → (⟨S_, .f32⟩ : BufTy).Contents (Elt F) → (⟨S_, .f32⟩ : BufTy).Contents (Elt F)),
    unary main_arg2 main_v71 (broadcastInDim S1000000x1 ![0] bcast_S1000000_S1000000x1_0 : (⟨S1000000, .i32⟩ : BufTy).Contents (Elt F) → (⟨S1000000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1000000x1, .i32⟩) main_call1_v0) (broadcastInDim S1000000x1 ![] bcast_S_S1000000x1) ]
set_option maxRecDepth 8192 in
theorem ops1_sub : (ops1 : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., unary_bufs_sub .., unary_bufs_sub .., nullary_bufs_sub .., unary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., ternary_bufs_sub .., unary_bufs_sub .., nullary_bufs_sub .., binary_bufs_sub .., nullary_bufs_sub .., binary_bufs_sub .., unary_bufs_sub .., nullary_bufs_sub .., unary_bufs_sub ..⟩
theorem ops1_fresh : ∀ op ∈ (ops1 : List (HloOp τ sig (Elt F))), op.fresh = ∅ := by
  intro _ h; (repeat (cases h with | head => rfl | tail _ h => ?_)); exact nomatch h

/-- Operations 93 … 137 of @main. -/
abbrev ops2 : List (HloOp τ sig (Elt F)) :=
  [ TRef.binary (TRef.of (T := ⟨S1000000x1, .i32⟩) main_v71) (TRef.of (T := ⟨S1000000x1, .i32⟩) main_call1_v0) (TRef.of (T := ⟨S1000000x1, .i1⟩) main_call1_v1) (cmpi .slt),
    TRef.nullary (TRef.of (T := ⟨S_, .i32⟩) main_call1_c_0) (constantI S_ 32 32#32),
    TRef.unary (TRef.of (T := ⟨S_, .i32⟩) main_call1_c_0) (TRef.of (T := ⟨S1000000x1, .i32⟩) main_call1_v2) (broadcastInDim S1000000x1 ![] bcast_S_S1000000x1),
    TRef.binary (TRef.of (T := ⟨S1000000x1, .i32⟩) main_v71) (TRef.of (T := ⟨S1000000x1, .i32⟩) main_call1_v2) (TRef.of (T := ⟨S1000000x1, .i32⟩) main_call1_v3) addi,
    TRef.ternary (TRef.of (T := ⟨S1000000x1, .i1⟩) main_call1_v1) (TRef.of (T := ⟨S1000000x1, .i32⟩) main_call1_v3) (TRef.of (T := ⟨S1000000x1, .i32⟩) main_v71) (TRef.of (T := ⟨S1000000x1, .i32⟩) main_call1_v4) select,
    TRef.reshape (TRef.of (T := ⟨S1000000x1, .i32⟩) main_call1_v4) (TRef.of (T := ⟨S1000000x1x1, .i32⟩) main_call1_v5) rfl shapeCasts_S1000000x1_S1000000x1x1,
    TRef.nullary (TRef.of (T := ⟨S1, .i32⟩) main_call1_c_1) (constantI S1 32 31#32),
    TRef.nullary (TRef.of (T := ⟨S_, .i32⟩) main_call1_c_2) (constantI S_ 32 0#32),
    TRef.unary (TRef.of (T := ⟨S_, .i32⟩) main_call1_c_2) (TRef.of (T := ⟨S1000000x1x1, .i32⟩) main_call1_v6) (broadcastInDim S1000000x1x1 ![] bcast_S_S1000000x1x1),
    TRef.binary (TRef.of (T := ⟨S1000000x1x1, .i32⟩) main_call1_v5) (TRef.of (T := ⟨S1000000x1x1, .i32⟩) main_call1_v6) (TRef.of (T := ⟨S1000000x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1000000x1x1, .i32⟩) main_call1_v9) (broadcastInDim S1000000x1x1 ![0, 1, 2] bcast_S1x1x1_S1000000x1x1_0_1_2),
    TRef.binary (TRef.of (T := ⟨S1000000x1x1, .i32⟩) main_call1_v5) (TRef.of (T := ⟨S1000000x1x1, .i32⟩) main_call1_v9) (TRef.of (T := ⟨S1000000x1x1, .i1⟩) main_call1_v10) (cmpi .sle),
    TRef.binary (TRef.of (T := ⟨S1000000x1x1, .i1⟩) main_call1_v7) (TRef.of (T := ⟨S1000000x1x1, .i1⟩) main_call1_v10) (TRef.of (T := ⟨S1000000x1x1, .i1⟩) main_call1_v11) andi,
    TRef.nullary (TRef.of (T := ⟨S_, .i1⟩) main_call1_c_3) (constantI S_ 1 1#1),
    TRef.binary (TRef.of (T := ⟨S1000000x1x1, .i1⟩) main_call1_v11) (TRef.of (T := ⟨S_, .i1⟩) main_call1_c_3) (TRef.of (T := ⟨S1000000x1, .i1⟩) main_call1_v12) (fun x v => Host.reduce IntOp.andi x v reducesTo_S1000000x1x1_S1000000x1_d2 h_S_),
    TRef.binary (TRef.of (T := ⟨S1000000x32, .f32⟩) main_v54) (TRef.of (T := ⟨S1000000x1x1, .i32⟩) main_call1_v5) (TRef.of (T := ⟨S1000000x1, .f32⟩) main_call1_v13) (fun x i => Host.gather gather_S1000000x32_S1000000x1x1_S1000000x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1000000x1, .f32⟩) main_call1_v14) (broadcastInDim S1000000x1 ![] bcast_S_S1000000x1),
    TRef.ternary (TRef.of (T := ⟨S1000000x1, .i1⟩) main_call1_v12) (TRef.of (T := ⟨S1000000x1, .f32⟩) main_call1_v13) (TRef.of (T := ⟨S1000000x1, .f32⟩) main_call1_v14) (TRef.of (T := ⟨S1000000x1, .f32⟩) main_v72) select,
    reshape main_v72 main_v73 rfl shapeCasts_S1000000x1_S1000000,
    unary main_arg1 main_v74 ((extractStridedSlice S1000000x1 ![0, 0] · slices_S1000000x2_S1000000x1_0_0) : (⟨S1000000x2, .f32⟩ : BufTy).Contents (Elt F) → (⟨S1000000x1, .f32⟩ : BufTy).Contents (Elt F)),
    reshape main_v74 main_v75 rfl shapeCasts_S1000000x1_S1000000,
    binary main_v73 main_v75 main_v76 (subf : (⟨S1000000, .f32⟩ : BufTy).Contents (Elt F) → (⟨S1000000, .f32⟩ : BufTy).Contents (Elt F) → (⟨S1000000, .f32⟩ : BufTy).Contents (Elt F)),
    binary main_v76 main_v76 main_v77 (mulf : (⟨S1000000, .f32⟩ : BufTy).Contents (Elt F) → (⟨S1000000, .f32⟩ : BufTy).Contents (Elt F) → (⟨S1000000, .f32⟩ : BufTy).Contents (Elt F)),
    nullary main_cst_16 (constant S_ .f32 0x00000000#32),
    binary main_v77 main_cst_16 main_v78 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_17 (constant S_ .f32 0x49742400#32),
    binary main_v78 main_cst_17 main_v79 (Host.divf : (⟨S_, .f32⟩ : BufTy).Contents (Elt F) → (⟨S_, .f32⟩ : BufTy).Contents (Elt F) → (⟨S_, .f32⟩ : BufTy).Contents (Elt F)),
    unary main_v9 main_v80 (broadcastInDim S32x1x16 ![0, 2] bcast_S32x16_S32x1x16_0_2 : (⟨S32x16, .f32⟩ : BufTy).Contents (Elt F) → (⟨S32x1x16, .f32⟩ : BufTy).Contents (Elt F)),
    unary main_v9 main_v81 (broadcastInDim S1x32x16 ![1, 2] bcast_S32x16_S1x32x16_1_2 : (⟨S32x16, .f32⟩ : BufTy).Contents (Elt F) → (⟨S1x32x16, .f32⟩ : BufTy).Contents (Elt F)),
    unary main_v80 main_v82 (broadcastInDim S32x32x16 ![0, 1, 2] bcast_S32x1x16_S32x32x16_0_1_2 : (⟨S32x1x16, .f32⟩ : BufTy).Contents (Elt F) → (⟨S32x32x16, .f32⟩ : BufTy).Contents (Elt F)),
    unary main_v81 main_v83 (broadcastInDim S32x32x16 ![0, 1, 2] bcast_S1x32x16_S32x32x16_0_1_2 : (⟨S1x32x16, .f32⟩ : BufTy).Contents (Elt F) → (⟨S32x32x16, .f32⟩ : BufTy).Contents (Elt F)),
    binary main_v82 main_v83 main_v84 (subf : (⟨S32x32x16, .f32⟩ : BufTy).Contents (Elt F) → (⟨S32x32x16, .f32⟩ : BufTy).Contents (Elt F) → (⟨S32x32x16, .f32⟩ : BufTy).Contents (Elt F)),
    binary main_v84 main_v84 main_v85 (mulf : (⟨S32x32x16, .f32⟩ : BufTy).Contents (Elt F) → (⟨S32x32x16, .f32⟩ : BufTy).Contents (Elt F) → (⟨S32x32x16, .f32⟩ : BufTy).Contents (Elt F)),
    nullary main_cst_18 (constant S_ .f32 0x00000000#32),
    binary main_v85 main_cst_18 main_v86 ((fun x v => Host.reduceAdd x v reducesTo_S32x32x16_S32x32_d2 h_S_) : (⟨S32x32x16, .f32⟩ : BufTy).Contents (Elt F) → (⟨S_, .f32⟩ : BufTy).Contents (Elt F) → (⟨S32x32, .f32⟩ : BufTy).Contents (Elt F)),
    nullary main_v87 (iotaInDim S32x32 32 0),
    nullary main_v88 (iotaInDim S32x32 32 1),
    nullary main_c_19 (constantI S_ 32 0#32),
    unary main_c_19 main_v89 (broadcastInDim S32x32 ![] bcast_S_S32x32 : (⟨S_, .i32⟩ : BufTy).Contents (Elt F) → (⟨S32x32, .i32⟩ : BufTy).Contents (Elt F)),
    binary main_v87 main_v89 main_v90 (addi : (⟨S32x32, .i32⟩ : BufTy).Contents (Elt F) → (⟨S32x32, .i32⟩ : BufTy).Contents (Elt F) → (⟨S32x32, .i32⟩ : BufTy).Contents (Elt F)),
    binary main_v90 main_v88 main_v91 (cmpi .eq : (⟨S32x32, .i32⟩ : BufTy).Contents (Elt F) → (⟨S32x32, .i32⟩ : BufTy).Contents (Elt F) → (⟨S32x32, .i1⟩ : BufTy).Contents (Elt F)),
    nullary main_cst_20 (constant S_ .f32 0x3F800000#32),
    TRef.unary (TRef.of (T := ⟨S_, .f32⟩) main_cst_20) (TRef.of (T := ⟨S_, .f32⟩) main_call2_v0) id ]
set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., reshape_bufs_sub .., binary_bufs_sub .., binary_bufs_sub .., nullary_bufs_sub .., binary_bufs_sub .., nullary_bufs_sub .., binary_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., nullary_bufs_sub .., unary_bufs_sub ..⟩
theorem ops2_fresh : ∀ op ∈ (ops2 : List (HloOp τ sig (Elt F))), op.fresh = ∅ := by
  intro _ h; (repeat (cases h with | head => rfl | tail _ h => ?_)); exact nomatch h

/-- Operations 138 … 177 of @main. -/
abbrev ops3 : List (HloOp τ sig (Elt F)) :=
  [ TRef.unary (TRef.of (T := ⟨S_, .f32⟩) main_call2_v0) (TRef.of (T := ⟨S32x32, .f32⟩) main_call2_v1) (broadcastInDim S32x32 ![] bcast_S_S32x32),
    TRef.ternary (TRef.of (T := ⟨S32x32, .i1⟩) main_v91) (TRef.of (T := ⟨S32x32, .f32⟩) main_call2_v1) (TRef.of (T := ⟨S32x32, .f32⟩) main_v86) (TRef.of (T := ⟨S32x32, .f32⟩) main_v92) select,
    unary main_v92 main_v93 (Host.sqrt : (⟨S32x32, .f32⟩ : BufTy).Contents (Elt F) → (⟨S32x32, .f32⟩ : BufTy).Contents (Elt F)),
    nullary main_cst_21 (constant S_ .f32 0x40400000#32),
    unary main_cst_21 main_v94 (broadcastInDim S32x32 ![] bcast_S_S32x32 : (⟨S_, .f32⟩ : BufTy).Contents (Elt F) → (⟨S32x32, .f32⟩ : BufTy).Contents (Elt F)),
    binary main_v94 main_v93 main_v95 (subf : (⟨S32x32, .f32⟩ : BufTy).Contents (Elt F) → (⟨S32x32, .f32⟩ : BufTy).Contents (Elt F) → (⟨S32x32, .f32⟩ : BufTy).Contents (Elt F)),
    nullary main_cst_22 (constant S_ .f32 0x00000000#32),
    unary main_cst_22 main_v96 (broadcastInDim S32x32 ![] bcast_S_S32x32 : (⟨S_, .f32⟩ : BufTy).Contents (Elt F) → (⟨S32x32, .f32⟩ : BufTy).Contents (Elt F)),
    binary main_v95 main_v96 main_v97 (maximumf : (⟨S32x32, .f32⟩ : BufTy).Contents (Elt F) → (⟨S32x32, .f32⟩ : BufTy).Contents (Elt F) → (⟨S32x32, .f32⟩ : BufTy).Contents (Elt F)),
    binary main_v97 main_v97 main_v98 (mulf : (⟨S32x32, .f32⟩ : BufTy).Contents (Elt F) → (⟨S32x32, .f32⟩ : BufTy).Contents (Elt F) → (⟨S32x32, .f32⟩ : BufTy).Contents (Elt F)),
    nullary main_cst_23 (constant S_ .f32 0x00000000#32),
    TRef.unary (TRef.of (T := ⟨S_, .f32⟩) main_cst_23) (TRef.of (T := ⟨S_, .f32⟩) main_call3_v0) id,
    TRef.unary (TRef.of (T := ⟨S_, .f32⟩) main_call3_v0) (TRef.of (T := ⟨S32x32, .f32⟩) main_call3_v1) (broadcastInDim S32x32 ![] bcast_S_S32x32),
    TRef.ternary (TRef.of (T := ⟨S32x32, .i1⟩) main_v91) (TRef.of (T := ⟨S32x32, .f32⟩) main_call3_v1) (TRef.of (T := ⟨S32x32, .f32⟩) main_v98) (TRef.of (T := ⟨S32x32, .f32⟩) main_v99) select,
    nullary main_cst_24 (constant S_ .f32 0x00000000#32),
    binary main_v99 main_cst_24 main_v100 ((fun x v => Host.reduceAdd x v reducesTo_S32x32_S_d0_1 h_S_) : (⟨S32x32, .f32⟩ : BufTy).Contents (Elt F) → (⟨S_, .f32⟩ : BufTy).Contents (Elt F) → (⟨S_, .f32⟩ : BufTy).Contents (Elt F)),
    nullary main_cst_25 (constant S_ .f32 0x44780000#32),
    binary main_v100 main_cst_25 main_v101 (Host.divf : (⟨S_, .f32⟩ : BufTy).Contents (Elt F) → (⟨S_, .f32⟩ : BufTy).Contents (Elt F) → (⟨S_, .f32⟩ : BufTy).Contents (Elt F)),
    binary main_v9 main_v9 main_v102 (mulf : (⟨S32x16, .f32⟩ : BufTy).Contents (Elt F) → (⟨S32x16, .f32⟩ : BufTy).Contents (Elt F) → (⟨S32x16, .f32⟩ : BufTy).Contents (Elt F)),
    nullary main_cst_26 (constant S_ .f32 0x00000000#32),
    binary main_v102 main_cst_26 main_v103 ((fun x v => Host.reduceAdd x v reducesTo_S32x16_S32_d1 h_S_) : (⟨S32x16, .f32⟩ : BufTy).Contents (Elt F) → (⟨S_, .f32⟩ : BufTy).Contents (Elt F) → (⟨S32, .f32⟩ : BufTy).Contents (Elt F)),
    unary main_v103 main_v104 (Host.sqrt : (⟨S32, .f32⟩ : BufTy).Contents (Elt F) → (⟨S32, .f32⟩ : BufTy).Contents (Elt F)),
    nullary main_cst_27 (constant S_ .f32 0x00000000#32),
    binary main_v104 main_cst_27 main_v105 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_28 (constant S_ .f32 0x42000000#32),
    binary main_v105 main_cst_28 main_v106 (Host.divf : (⟨S_, .f32⟩ : BufTy).Contents (Elt F) → (⟨S_, .f32⟩ : BufTy).Contents (Elt F) → (⟨S_, .f32⟩ : BufTy).Contents (Elt F)),
    nullary main_cst_29 (constant S_ .f32 0x40400000#32),
    binary main_cst_29 main_v70 main_v107 (mulf : (⟨S_, .f32⟩ : BufTy).Contents (Elt F) → (⟨S_, .f32⟩ : BufTy).Contents (Elt F) → (⟨S_, .f32⟩ : BufTy).Contents (Elt F)),
    nullary main_cst_30 (constant S_ .f32 0x3F800000#32),
    binary main_cst_30 main_v101 main_v108 (mulf : (⟨S_, .f32⟩ : BufTy).Contents (Elt F) → (⟨S_, .f32⟩ : BufTy).Contents (Elt F) → (⟨S_, .f32⟩ : BufTy).Contents (Elt F)),
    binary main_v107 main_v108 main_v109 (addf : (⟨S_, .f32⟩ : BufTy).Contents (Elt F) → (⟨S_, .f32⟩ : BufTy).Contents (Elt F) → (⟨S_, .f32⟩ : BufTy).Contents (Elt F)),
    nullary main_cst_31 (constant S_ .f32 0x3A83126F#32),
    binary main_cst_31 main_v106 main_v110 (mulf : (⟨S_, .f32⟩ : BufTy).Contents (Elt F) → (⟨S_, .f32⟩ : BufTy).Contents (Elt F) → (⟨S_, .f32⟩ : BufTy).Contents (Elt F)),
    binary main_v109 main_v110 main_v111 (addf : (⟨S_, .f32⟩ : BufTy).Contents (Elt F) → (⟨S_, .f32⟩ : BufTy).Contents (Elt F) → (⟨S_, .f32⟩ : BufTy).Contents (Elt F)),
    nullary main_cst_32 (constant S_ .f32 0x40A00000#32),
    binary main_cst_32 main_v31 main_v112 (mulf : (⟨S_, .f32⟩ : BufTy).Contents (Elt F) → (⟨S_, .f32⟩ : BufTy).Contents (Elt F) → (⟨S_, .f32⟩ : BufTy).Contents (Elt F)),
    binary main_v111 main_v112 main_v113 (addf : (⟨S_, .f32⟩ : BufTy).Contents (Elt F) → (⟨S_, .f32⟩ : BufTy).Contents (Elt F) → (⟨S_, .f32⟩ : BufTy).Contents (Elt F)),
    nullary main_cst_33 (constant S_ .f32 0x40A00000#32),
    binary main_cst_33 main_v79 main_v114 (mulf : (⟨S_, .f32⟩ : BufTy).Contents (Elt F) → (⟨S_, .f32⟩ : BufTy).Contents (Elt F) → (⟨S_, .f32⟩ : BufTy).Contents (Elt F)),
    binary main_v113 main_v114 main_v115 (addf : (⟨S_, .f32⟩ : BufTy).Contents (Elt F) → (⟨S_, .f32⟩ : BufTy).Contents (Elt F) → (⟨S_, .f32⟩ : BufTy).Contents (Elt F)) ]
set_option maxRecDepth 8192 in
theorem ops3_sub : (ops3 : List (HloOp τ sig (Elt F))).Forall fun op => op.bufs ⊆ tcRefs τ sig :=
  ⟨unary_bufs_sub .., ternary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., binary_bufs_sub .., nullary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩
theorem ops3_fresh : ∀ op ∈ (ops3 : List (HloOp τ sig (Elt F))), op.fresh = ∅ := by
  intro _ h; (repeat (cases h with | head => rfl | tail _ h => ?_)); exact nomatch h

/-- @main's operations, in order. -/
abbrev ops : List (HloOp τ sig (Elt F)) := ops0 ++ (ops1 ++ (ops2 ++ ops3))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    exact List.forall_iff_forall_mem.mp ops3_sub op h
theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  rcases List.mem_append.mp h with h | h
  · exact ops2_fresh op h
  exact ops3_fresh op h

section Chunks

variable (V : Valuation τ sig (Elt F))
  (x0 : (⟨S1000000x16, .f32⟩ : BufTy).Contents (Elt F)) (x1 : (⟨S1000000x2, .f32⟩ : BufTy).Contents (Elt F))
  (x2 : (⟨S1000000, .i32⟩ : BufTy).Contents (Elt F))

/-! ## Operations 1 … 47 -/

theorem keep0_main_arg0 : after (ops0 (F := F)) V (Proc.devRef .tc main_arg0) = V (Proc.devRef .tc main_arg0) := by
  after_results_simp
theorem keep0_main_arg1 : after (ops0 (F := F)) V (Proc.devRef .tc main_arg1) = V (Proc.devRef .tc main_arg1) := by
  after_results_simp
theorem keep0_main_arg2 : after (ops0 (F := F)) V (Proc.devRef .tc main_arg2) = V (Proc.devRef .tc main_arg2) := by
  after_results_simp
set_option maxRecDepth 8192 in
theorem made0_main_v33
    (h_main_arg2 : V (Proc.devRef .tc main_arg2) = x2)
    (h_main_arg0 : V (Proc.devRef .tc main_arg0) = x0)
    (h_main_arg1 : V (Proc.devRef .tc main_arg1) = x1) :
    after (ops0 (F := F)) V (Proc.devRef .tc main_v33) = val_main_v33 (F := F) x0 := by
  after_results_simp
  simp only [TRef.ofBuf, TRef.toBuf, cast_eq, h_main_arg2, h_main_arg0, h_main_arg1, val_main_v35, val_main_cst_8, val_main_v34, val_main_v33, val_main_cst_7, val_main_v32, val_main_v31, val_main_cst_6, val_main_v30, val_main_cst_5, val_main_v29, val_main_v28, val_main_v27, val_main_v26, val_main_cst_4, val_main_v25, val_main_v24, val_main_v23, val_main_v22, val_main_v21, val_main_v20, val_main_v19, val_main_c_3, val_main_v18, val_main_v17, val_main_c, val_main_v16, val_main_v15, val_main_v14, val_main_v13, val_main_cst_2, val_main_v12, val_main_v11, val_main_v10, val_main_v9, val_main_v8, val_main_v7, val_main_v6, val_main_v5, val_main_v4, val_main_cst_1, val_main_v3, val_main_v2, val_main_v1, val_main_cst_0, val_main_v0, val_main_cst]
  try rfl
set_option maxRecDepth 8192 in
theorem made0_main_v35
    (h_main_arg2 : V (Proc.devRef .tc main_arg2) = x2)
    (h_main_arg0 : V (Proc.devRef .tc main_arg0) = x0)
    (h_main_arg1 : V (Proc.devRef .tc main_arg1) = x1) :
    after (ops0 (F := F)) V (Proc.devRef .tc main_v35) = val_main_v35 (F := F) x0 x2 := by
  after_results_simp
  simp only [TRef.ofBuf, TRef.toBuf, cast_eq, h_main_arg2, h_main_arg0, h_main_arg1, val_main_v35, val_main_cst_8, val_main_v34, val_main_v33, val_main_cst_7, val_main_v32, val_main_v31, val_main_cst_6, val_main_v30, val_main_cst_5, val_main_v29, val_main_v28, val_main_v27, val_main_v26, val_main_cst_4, val_main_v25, val_main_v24, val_main_v23, val_main_v22, val_main_v21, val_main_v20, val_main_v19, val_main_c_3, val_main_v18, val_main_v17, val_main_c, val_main_v16, val_main_v15, val_main_v14, val_main_v13, val_main_cst_2, val_main_v12, val_main_v11, val_main_v10, val_main_v9, val_main_v8, val_main_v7, val_main_v6, val_main_v5, val_main_v4, val_main_cst_1, val_main_v3, val_main_v2, val_main_v1, val_main_cst_0, val_main_v0, val_main_cst]
  try rfl
set_option maxRecDepth 8192 in
theorem made0_main_v9
    (h_main_arg2 : V (Proc.devRef .tc main_arg2) = x2)
    (h_main_arg0 : V (Proc.devRef .tc main_arg0) = x0)
    (h_main_arg1 : V (Proc.devRef .tc main_arg1) = x1) :
    after (ops0 (F := F)) V (Proc.devRef .tc main_v9) = val_main_v9 (F := F) x0 x2 := by
  after_results_simp
  simp only [TRef.ofBuf, TRef.toBuf, cast_eq, h_main_arg2, h_main_arg0, h_main_arg1, val_main_v35, val_main_cst_8, val_main_v34, val_main_v33, val_main_cst_7, val_main_v32, val_main_v31, val_main_cst_6, val_main_v30, val_main_cst_5, val_main_v29, val_main_v28, val_main_v27, val_main_v26, val_main_cst_4, val_main_v25, val_main_v24, val_main_v23, val_main_v22, val_main_v21, val_main_v20, val_main_v19, val_main_c_3, val_main_v18, val_main_v17, val_main_c, val_main_v16, val_main_v15, val_main_v14, val_main_v13, val_main_cst_2, val_main_v12, val_main_v11, val_main_v10, val_main_v9, val_main_v8, val_main_v7, val_main_v6, val_main_v5, val_main_v4, val_main_cst_1, val_main_v3, val_main_v2, val_main_v1, val_main_cst_0, val_main_v0, val_main_cst]
  try rfl
set_option maxRecDepth 8192 in
theorem made0_main_v16
    (h_main_arg2 : V (Proc.devRef .tc main_arg2) = x2)
    (h_main_arg0 : V (Proc.devRef .tc main_arg0) = x0)
    (h_main_arg1 : V (Proc.devRef .tc main_arg1) = x1) :
    after (ops0 (F := F)) V (Proc.devRef .tc main_v16) = val_main_v16 (F := F) x1 x2 := by
  after_results_simp
  simp only [TRef.ofBuf, TRef.toBuf, cast_eq, h_main_arg2, h_main_arg0, h_main_arg1, val_main_v35, val_main_cst_8, val_main_v34, val_main_v33, val_main_cst_7, val_main_v32, val_main_v31, val_main_cst_6, val_main_v30, val_main_cst_5, val_main_v29, val_main_v28, val_main_v27, val_main_v26, val_main_cst_4, val_main_v25, val_main_v24, val_main_v23, val_main_v22, val_main_v21, val_main_v20, val_main_v19, val_main_c_3, val_main_v18, val_main_v17, val_main_c, val_main_v16, val_main_v15, val_main_v14, val_main_v13, val_main_cst_2, val_main_v12, val_main_v11, val_main_v10, val_main_v9, val_main_v8, val_main_v7, val_main_v6, val_main_v5, val_main_v4, val_main_cst_1, val_main_v3, val_main_v2, val_main_v1, val_main_cst_0, val_main_v0, val_main_cst]
  try rfl
set_option maxRecDepth 8192 in
theorem made0_main_v31
    (h_main_arg2 : V (Proc.devRef .tc main_arg2) = x2)
    (h_main_arg0 : V (Proc.devRef .tc main_arg0) = x0)
    (h_main_arg1 : V (Proc.devRef .tc main_arg1) = x1) :
    after (ops0 (F := F)) V (Proc.devRef .tc main_v31) = val_main_v31 (F := F) x1 x2 := by
  after_results_simp
  simp only [TRef.ofBuf, TRef.toBuf, cast_eq, h_main_arg2, h_main_arg0, h_main_arg1, val_main_v35, val_main_cst_8, val_main_v34, val_main_v33, val_main_cst_7, val_main_v32, val_main_v31, val_main_cst_6, val_main_v30, val_main_cst_5, val_main_v29, val_main_v28, val_main_v27, val_main_v26, val_main_cst_4, val_main_v25, val_main_v24, val_main_v23, val_main_v22, val_main_v21, val_main_v20, val_main_v19, val_main_c_3, val_main_v18, val_main_v17, val_main_c, val_main_v16, val_main_v15, val_main_v14, val_main_v13, val_main_cst_2, val_main_v12, val_main_v11, val_main_v10, val_main_v9, val_main_v8, val_main_v7, val_main_v6, val_main_v5, val_main_v4, val_main_cst_1, val_main_v3, val_main_v2, val_main_v1, val_main_cst_0, val_main_v0, val_main_cst]
  try rfl

/-! ## Operations 48 … 92 -/

theorem keep1_main_arg0 : after (ops1 (F := F)) V (Proc.devRef .tc main_arg0) = V (Proc.devRef .tc main_arg0) := by
  after_results_simp
theorem keep1_main_arg1 : after (ops1 (F := F)) V (Proc.devRef .tc main_arg1) = V (Proc.devRef .tc main_arg1) := by
  after_results_simp
theorem keep1_main_arg2 : after (ops1 (F := F)) V (Proc.devRef .tc main_arg2) = V (Proc.devRef .tc main_arg2) := by
  after_results_simp
theorem keep1_main_v9 : after (ops1 (F := F)) V (Proc.devRef .tc main_v9) = V (Proc.devRef .tc main_v9) := by
  after_results_simp
theorem keep1_main_v31 : after (ops1 (F := F)) V (Proc.devRef .tc main_v31) = V (Proc.devRef .tc main_v31) := by
  after_results_simp
set_option maxRecDepth 8192 in
theorem made1_main_v71
    (h_main_v33 : V (Proc.devRef .tc main_v33) = val_main_v33 (F := F) x0)
    (h_main_v35 : V (Proc.devRef .tc main_v35) = val_main_v35 (F := F) x0 x2)
    (h_main_v9 : V (Proc.devRef .tc main_v9) = val_main_v9 (F := F) x0 x2)
    (h_main_arg0 : V (Proc.devRef .tc main_arg0) = x0)
    (h_main_v16 : V (Proc.devRef .tc main_v16) = val_main_v16 (F := F) x1 x2)
    (h_main_arg2 : V (Proc.devRef .tc main_arg2) = x2) :
    after (ops1 (F := F)) V (Proc.devRef .tc main_v71) = val_main_v71 (F := F) x2 := by
  after_results_simp
  simp only [TRef.ofBuf, TRef.toBuf, cast_eq, h_main_v33, h_main_v35, h_main_v9, h_main_arg0, h_main_v16, h_main_arg2, val_main_call1_v0, val_main_call1_c, val_main_v71, val_main_v70, val_main_cst_15, val_main_v69, val_main_cst_14, val_main_v68, val_main_v67, val_main_v66, val_main_v65, val_main_cst_13, val_main_v64, val_main_v63, val_main_v62, val_main_v61, val_main_cst_12, val_main_v60, val_main_v59, val_main_v58, val_main_v57, val_main_v56, val_main_v55, val_main_v54, val_main_v53, val_main_v52, val_main_v51, val_main_v50, val_main_cst_11, val_main_v49, val_main_v48, val_main_v47, val_main_v46, val_main_cst_10, val_main_v45, val_main_v44, val_main_v43, val_main_cst_9, val_main_v42, val_main_v41, val_main_v40, val_main_v39, val_main_v38, val_main_v37, val_main_v36]
  try rfl
set_option maxRecDepth 8192 in
theorem made1_main_call1_v0
    (h_main_v33 : V (Proc.devRef .tc main_v33) = val_main_v33 (F := F) x0)
    (h_main_v35 : V (Proc.devRef .tc main_v35) = val_main_v35 (F := F) x0 x2)
    (h_main_v9 : V (Proc.devRef .tc main_v9) = val_main_v9 (F := F) x0 x2)
    (h_main_arg0 : V (Proc.devRef .tc main_arg0) = x0)
    (h_main_v16 : V (Proc.devRef .tc main_v16) = val_main_v16 (F := F) x1 x2)
    (h_main_arg2 : V (Proc.devRef .tc main_arg2) = x2) :
    after (ops1 (F := F)) V (Proc.devRef .tc main_call1_v0) = val_main_call1_v0 (F := F) := by
  after_results_simp
  simp only [TRef.ofBuf, TRef.toBuf, cast_eq, h_main_v33, h_main_v35, h_main_v9, h_main_arg0, h_main_v16, h_main_arg2, val_main_call1_v0, val_main_call1_c, val_main_v71, val_main_v70, val_main_cst_15, val_main_v69, val_main_cst_14, val_main_v68, val_main_v67, val_main_v66, val_main_v65, val_main_cst_13, val_main_v64, val_main_v63, val_main_v62, val_main_v61, val_main_cst_12, val_main_v60, val_main_v59, val_main_v58, val_main_v57, val_main_v56, val_main_v55, val_main_v54, val_main_v53, val_main_v52, val_main_v51, val_main_v50, val_main_cst_11, val_main_v49, val_main_v48, val_main_v47, val_main_v46, val_main_cst_10, val_main_v45, val_main_v44, val_main_v43, val_main_cst_9, val_main_v42, val_main_v41, val_main_v40, val_main_v39, val_main_v38, val_main_v37, val_main_v36]
  try rfl
set_option maxRecDepth 8192 in
theorem made1_main_v54
    (h_main_v33 : V (Proc.devRef .tc main_v33) = val_main_v33 (F := F) x0)
    (h_main_v35 : V (Proc.devRef .tc main_v35) = val_main_v35 (F := F) x0 x2)
    (h_main_v9 : V (Proc.devRef .tc main_v9) = val_main_v9 (F := F) x0 x2)
    (h_main_arg0 : V (Proc.devRef .tc main_arg0) = x0)
    (h_main_v16 : V (Proc.devRef .tc main_v16) = val_main_v16 (F := F) x1 x2)
    (h_main_arg2 : V (Proc.devRef .tc main_arg2) = x2) :
    after (ops1 (F := F)) V (Proc.devRef .tc main_v54) = val_main_v54 (F := F) x0 x1 x2 := by
  after_results_simp
  simp only [TRef.ofBuf, TRef.toBuf, cast_eq, h_main_v33, h_main_v35, h_main_v9, h_main_arg0, h_main_v16, h_main_arg2, val_main_call1_v0, val_main_call1_c, val_main_v71, val_main_v70, val_main_cst_15, val_main_v69, val_main_cst_14, val_main_v68, val_main_v67, val_main_v66, val_main_v65, val_main_cst_13, val_main_v64, val_main_v63, val_main_v62, val_main_v61, val_main_cst_12, val_main_v60, val_main_v59, val_main_v58, val_main_v57, val_main_v56, val_main_v55, val_main_v54, val_main_v53, val_main_v52, val_main_v51, val_main_v50, val_main_cst_11, val_main_v49, val_main_v48, val_main_v47, val_main_v46, val_main_cst_10, val_main_v45, val_main_v44, val_main_v43, val_main_cst_9, val_main_v42, val_main_v41, val_main_v40, val_main_v39, val_main_v38, val_main_v37, val_main_v36]
  try rfl
set_option maxRecDepth 8192 in
theorem made1_main_v70
    (h_main_v33 : V (Proc.devRef .tc main_v33) = val_main_v33 (F := F) x0)
    (h_main_v35 : V (Proc.devRef .tc main_v35) = val_main_v35 (F := F) x0 x2)
    (h_main_v9 : V (Proc.devRef .tc main_v9) = val_main_v9 (F := F) x0 x2)
    (h_main_arg0 : V (Proc.devRef .tc main_arg0) = x0)
    (h_main_v16 : V (Proc.devRef .tc main_v16) = val_main_v16 (F := F) x1 x2)
    (h_main_arg2 : V (Proc.devRef .tc main_arg2) = x2) :
    after (ops1 (F := F)) V (Proc.devRef .tc main_v70) = val_main_v70 (F := F) x0 x1 x2 := by
  after_results_simp
  simp only [TRef.ofBuf, TRef.toBuf, cast_eq, h_main_v33, h_main_v35, h_main_v9, h_main_arg0, h_main_v16, h_main_arg2, val_main_call1_v0, val_main_call1_c, val_main_v71, val_main_v70, val_main_cst_15, val_main_v69, val_main_cst_14, val_main_v68, val_main_v67, val_main_v66, val_main_v65, val_main_cst_13, val_main_v64, val_main_v63, val_main_v62, val_main_v61, val_main_cst_12, val_main_v60, val_main_v59, val_main_v58, val_main_v57, val_main_v56, val_main_v55, val_main_v54, val_main_v53, val_main_v52, val_main_v51, val_main_v50, val_main_cst_11, val_main_v49, val_main_v48, val_main_v47, val_main_v46, val_main_cst_10, val_main_v45, val_main_v44, val_main_v43, val_main_cst_9, val_main_v42, val_main_v41, val_main_v40, val_main_v39, val_main_v38, val_main_v37, val_main_v36]
  try rfl

/-! ## Operations 93 … 137 -/

theorem keep2_main_arg0 : after (ops2 (F := F)) V (Proc.devRef .tc main_arg0) = V (Proc.devRef .tc main_arg0) := by
  after_results_simp
theorem keep2_main_arg1 : after (ops2 (F := F)) V (Proc.devRef .tc main_arg1) = V (Proc.devRef .tc main_arg1) := by
  after_results_simp
theorem keep2_main_arg2 : after (ops2 (F := F)) V (Proc.devRef .tc main_arg2) = V (Proc.devRef .tc main_arg2) := by
  after_results_simp
theorem keep2_main_v9 : after (ops2 (F := F)) V (Proc.devRef .tc main_v9) = V (Proc.devRef .tc main_v9) := by
  after_results_simp
theorem keep2_main_v70 : after (ops2 (F := F)) V (Proc.devRef .tc main_v70) = V (Proc.devRef .tc main_v70) := by
  after_results_simp
theorem keep2_main_v31 : after (ops2 (F := F)) V (Proc.devRef .tc main_v31) = V (Proc.devRef .tc main_v31) := by
  after_results_simp
set_option maxRecDepth 8192 in
theorem made2_main_call2_v0
    (h_main_v71 : V (Proc.devRef .tc main_v71) = val_main_v71 (F := F) x2)
    (h_main_call1_v0 : V (Proc.devRef .tc main_call1_v0) = val_main_call1_v0 (F := F))
    (h_main_v54 : V (Proc.devRef .tc main_v54) = val_main_v54 (F := F) x0 x1 x2)
    (h_main_arg1 : V (Proc.devRef .tc main_arg1) = x1)
    (h_main_v9 : V (Proc.devRef .tc main_v9) = val_main_v9 (F := F) x0 x2) :
    after (ops2 (F := F)) V (Proc.devRef .tc main_call2_v0) = val_main_call2_v0 (F := F) := by
  after_results_simp
  simp only [TRef.ofBuf, TRef.toBuf, cast_eq, h_main_v71, h_main_call1_v0, h_main_v54, h_main_arg1, h_main_v9, val_main_call2_v0, val_main_cst_20, val_main_v91, val_main_v90, val_main_v89, val_main_c_19, val_main_v88, val_main_v87, val_main_v86, val_main_cst_18, val_main_v85, val_main_v84, val_main_v83, val_main_v82, val_main_v81, val_main_v80, val_main_v79, val_main_cst_17, val_main_v78, val_main_cst_16, val_main_v77, val_main_v76, val_main_v75, val_main_v74, val_main_v73, val_main_v72, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1]
  try rfl
set_option maxRecDepth 8192 in
theorem made2_main_v91
    (h_main_v71 : V (Proc.devRef .tc main_v71) = val_main_v71 (F := F) x2)
    (h_main_call1_v0 : V (Proc.devRef .tc main_call1_v0) = val_main_call1_v0 (F := F))
    (h_main_v54 : V (Proc.devRef .tc main_v54) = val_main_v54 (F := F) x0 x1 x2)
    (h_main_arg1 : V (Proc.devRef .tc main_arg1) = x1)
    (h_main_v9 : V (Proc.devRef .tc main_v9) = val_main_v9 (F := F) x0 x2) :
    after (ops2 (F := F)) V (Proc.devRef .tc main_v91) = val_main_v91 (F := F) := by
  after_results_simp
  simp only [TRef.ofBuf, TRef.toBuf, cast_eq, h_main_v71, h_main_call1_v0, h_main_v54, h_main_arg1, h_main_v9, val_main_call2_v0, val_main_cst_20, val_main_v91, val_main_v90, val_main_v89, val_main_c_19, val_main_v88, val_main_v87, val_main_v86, val_main_cst_18, val_main_v85, val_main_v84, val_main_v83, val_main_v82, val_main_v81, val_main_v80, val_main_v79, val_main_cst_17, val_main_v78, val_main_cst_16, val_main_v77, val_main_v76, val_main_v75, val_main_v74, val_main_v73, val_main_v72, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1]
  try rfl
set_option maxRecDepth 8192 in
theorem made2_main_v86
    (h_main_v71 : V (Proc.devRef .tc main_v71) = val_main_v71 (F := F) x2)
    (h_main_call1_v0 : V (Proc.devRef .tc main_call1_v0) = val_main_call1_v0 (F := F))
    (h_main_v54 : V (Proc.devRef .tc main_v54) = val_main_v54 (F := F) x0 x1 x2)
    (h_main_arg1 : V (Proc.devRef .tc main_arg1) = x1)
    (h_main_v9 : V (Proc.devRef .tc main_v9) = val_main_v9 (F := F) x0 x2) :
    after (ops2 (F := F)) V (Proc.devRef .tc main_v86) = val_main_v86 (F := F) x0 x2 := by
  after_results_simp
  simp only [TRef.ofBuf, TRef.toBuf, cast_eq, h_main_v71, h_main_call1_v0, h_main_v54, h_main_arg1, h_main_v9, val_main_call2_v0, val_main_cst_20, val_main_v91, val_main_v90, val_main_v89, val_main_c_19, val_main_v88, val_main_v87, val_main_v86, val_main_cst_18, val_main_v85, val_main_v84, val_main_v83, val_main_v82, val_main_v81, val_main_v80, val_main_v79, val_main_cst_17, val_main_v78, val_main_cst_16, val_main_v77, val_main_v76, val_main_v75, val_main_v74, val_main_v73, val_main_v72, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1]
  try rfl
set_option maxRecDepth 8192 in
theorem made2_main_v79
    (h_main_v71 : V (Proc.devRef .tc main_v71) = val_main_v71 (F := F) x2)
    (h_main_call1_v0 : V (Proc.devRef .tc main_call1_v0) = val_main_call1_v0 (F := F))
    (h_main_v54 : V (Proc.devRef .tc main_v54) = val_main_v54 (F := F) x0 x1 x2)
    (h_main_arg1 : V (Proc.devRef .tc main_arg1) = x1)
    (h_main_v9 : V (Proc.devRef .tc main_v9) = val_main_v9 (F := F) x0 x2) :
    after (ops2 (F := F)) V (Proc.devRef .tc main_v79) = val_main_v79 (F := F) x0 x1 x2 := by
  after_results_simp
  simp only [TRef.ofBuf, TRef.toBuf, cast_eq, h_main_v71, h_main_call1_v0, h_main_v54, h_main_arg1, h_main_v9, val_main_call2_v0, val_main_cst_20, val_main_v91, val_main_v90, val_main_v89, val_main_c_19, val_main_v88, val_main_v87, val_main_v86, val_main_cst_18, val_main_v85, val_main_v84, val_main_v83, val_main_v82, val_main_v81, val_main_v80, val_main_v79, val_main_cst_17, val_main_v78, val_main_cst_16, val_main_v77, val_main_v76, val_main_v75, val_main_v74, val_main_v73, val_main_v72, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1]
  try rfl

/-! ## Operations 138 … 177 -/

theorem keep3_main_arg0 : after (ops3 (F := F)) V (Proc.devRef .tc main_arg0) = V (Proc.devRef .tc main_arg0) := by
  after_results_simp
theorem keep3_main_arg1 : after (ops3 (F := F)) V (Proc.devRef .tc main_arg1) = V (Proc.devRef .tc main_arg1) := by
  after_results_simp
theorem keep3_main_arg2 : after (ops3 (F := F)) V (Proc.devRef .tc main_arg2) = V (Proc.devRef .tc main_arg2) := by
  after_results_simp
set_option maxRecDepth 8192 in
theorem made3_main_v115
    (h_main_call2_v0 : V (Proc.devRef .tc main_call2_v0) = val_main_call2_v0 (F := F))
    (h_main_v91 : V (Proc.devRef .tc main_v91) = val_main_v91 (F := F))
    (h_main_v86 : V (Proc.devRef .tc main_v86) = val_main_v86 (F := F) x0 x2)
    (h_main_v9 : V (Proc.devRef .tc main_v9) = val_main_v9 (F := F) x0 x2)
    (h_main_v70 : V (Proc.devRef .tc main_v70) = val_main_v70 (F := F) x0 x1 x2)
    (h_main_v31 : V (Proc.devRef .tc main_v31) = val_main_v31 (F := F) x1 x2)
    (h_main_v79 : V (Proc.devRef .tc main_v79) = val_main_v79 (F := F) x0 x1 x2) :
    after (ops3 (F := F)) V (Proc.devRef .tc main_v115) = val_main_v115 (F := F) x0 x1 x2 := by
  after_results_simp
  simp only [TRef.ofBuf, TRef.toBuf, cast_eq, h_main_call2_v0, h_main_v91, h_main_v86, h_main_v9, h_main_v70, h_main_v31, h_main_v79, val_main_v115, val_main_v114, val_main_cst_33, val_main_v113, val_main_v112, val_main_cst_32, val_main_v111, val_main_v110, val_main_cst_31, val_main_v109, val_main_v108, val_main_cst_30, val_main_v107, val_main_cst_29, val_main_v106, val_main_cst_28, val_main_v105, val_main_cst_27, val_main_v104, val_main_v103, val_main_cst_26, val_main_v102, val_main_v101, val_main_cst_25, val_main_v100, val_main_cst_24, val_main_v99, val_main_call3_v1, val_main_call3_v0, val_main_cst_23, val_main_v98, val_main_v97, val_main_v96, val_main_cst_22, val_main_v95, val_main_v94, val_main_cst_21, val_main_v93, val_main_v92, val_main_call2_v1]
  try rfl

end Chunks

section Result

variable (V : Valuation τ sig (Elt F))

/-- The contents after the first stretches. -/
abbrev V1 : Valuation τ sig (Elt F) := after ops0 V
abbrev V2 : Valuation τ sig (Elt F) := after ops1 (V1 V)
abbrev V3 : Valuation τ sig (Elt F) := after ops2 (V2 V)

/-- The result buffer after all of @main's operations: the last stage's value of the arguments. -/
theorem after_result : after (ops (F := F)) V (Proc.devRef .tc main_v115) = val_main_v115 (F := F) (V (Proc.devRef .tc main_arg0)) (V (Proc.devRef .tc main_arg1)) (V (Proc.devRef .tc main_arg2)) := by
  show after (ops0 ++ (ops1 ++ (ops2 ++ ops3))) V _ = _
  rw [after_app, after_app, after_app]
  exact made3_main_v115 (V3 V) _ _ _ (made2_main_call2_v0 (V2 V) _ _ _ (made1_main_v71 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_call1_v0 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_v54 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) ((keep1_main_arg1 (V1 V)).trans ((keep0_main_arg1 V).trans rfl)) ((keep1_main_v9 (V1 V)).trans (made0_main_v9 V _ _ _ rfl rfl rfl)))
    (made2_main_v91 (V2 V) _ _ _ (made1_main_v71 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_call1_v0 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_v54 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) ((keep1_main_arg1 (V1 V)).trans ((keep0_main_arg1 V).trans rfl)) ((keep1_main_v9 (V1 V)).trans (made0_main_v9 V _ _ _ rfl rfl rfl)))
    (made2_main_v86 (V2 V) _ _ _ (made1_main_v71 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_call1_v0 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_v54 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) ((keep1_main_arg1 (V1 V)).trans ((keep0_main_arg1 V).trans rfl)) ((keep1_main_v9 (V1 V)).trans (made0_main_v9 V _ _ _ rfl rfl rfl)))
    ((keep2_main_v9 (V2 V)).trans ((keep1_main_v9 (V1 V)).trans (made0_main_v9 V _ _ _ rfl rfl rfl)))
    ((keep2_main_v70 (V2 V)).trans (made1_main_v70 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)))
    ((keep2_main_v31 (V2 V)).trans ((keep1_main_v31 (V1 V)).trans (made0_main_v31 V _ _ _ rfl rfl rfl)))
    (made2_main_v79 (V2 V) _ _ _ (made1_main_v71 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_call1_v0 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) (made1_main_v54 (V1 V) _ _ _ (made0_main_v33 V _ _ _ rfl rfl rfl) (made0_main_v35 V _ _ _ rfl rfl rfl) (made0_main_v9 V _ _ _ rfl rfl rfl) ((keep0_main_arg0 V).trans rfl) (made0_main_v16 V _ _ _ rfl rfl rfl) ((keep0_main_arg2 V).trans rfl)) ((keep1_main_arg1 (V1 V)).trans ((keep0_main_arg1 V).trans rfl)) ((keep1_main_v9 (V1 V)).trans (made0_main_v9 V _ _ _ rfl rfl rfl)))

theorem after_main_arg0 : after (ops (F := F)) V (Proc.devRef .tc main_arg0) = V (Proc.devRef .tc main_arg0) := by
  show after (ops0 ++ (ops1 ++ (ops2 ++ ops3))) V _ = _
  rw [after_app, after_app, after_app]
  exact (keep3_main_arg0 (V3 V)).trans ((keep2_main_arg0 (V2 V)).trans ((keep1_main_arg0 (V1 V)).trans ((keep0_main_arg0 V).trans rfl)))
theorem after_main_arg1 : after (ops (F := F)) V (Proc.devRef .tc main_arg1) = V (Proc.devRef .tc main_arg1) := by
  show after (ops0 ++ (ops1 ++ (ops2 ++ ops3))) V _ = _
  rw [after_app, after_app, after_app]
  exact (keep3_main_arg1 (V3 V)).trans ((keep2_main_arg1 (V2 V)).trans ((keep1_main_arg1 (V1 V)).trans ((keep0_main_arg1 V).trans rfl)))
theorem after_main_arg2 : after (ops (F := F)) V (Proc.devRef .tc main_arg2) = V (Proc.devRef .tc main_arg2) := by
  show after (ops0 ++ (ops1 ++ (ops2 ++ ops3))) V _ = _
  rw [after_app, after_app, after_app]
  exact (keep3_main_arg2 (V3 V)).trans ((keep2_main_arg2 (V2 V)).trans ((keep1_main_arg2 (V1 V)).trans ((keep0_main_arg2 V).trans rfl)))

end Result

/-- On every device, from any memory with zero counters: every weakly fair execution of @main terminates with the result
    buffer at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115)
          = val_main_v115 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v115).trans (after_result _), (h c main_arg0).trans (after_main_arg0 _),
      (h c main_arg1).trans (after_main_arg1 _), (h c main_arg2).trans (after_main_arg2 _)⟩)
    (run_seq scopedRefs_eq scopedSems_eq defs main (fun _ => ops) main_eq (fun _ => ops_sub) m ρ (fun _ => ops_fresh))

end Cert.ReferenceIdeal.ValueH

end
-- ==== Proof.RTail.lean ====
/-
  The reference's result is the shared tail of its centroids and its three means.
-/
import proofs.«401601_j38319698215236_3_alg».proof.Proof.RefRead
import proofs.«401601_j38319698215236_3_alg».proof.Proof.TailSpec

set_option maxRecDepth 16384

noncomputable section

namespace Cert.ReferenceIdeal.Val

open Cert.ReferenceIdeal Cert.ReferenceIdeal.Gen Cert.ReferenceIdeal.ReadP Idealize.ShloMosaic

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-- The last 36 stages are the tail applied to the centroid stage and the three mean stages. -/
theorem tail_term :
    val_main_v115 (F := Ideal) x0 x1 x2
      = Cert.Tail.lossF (val_main_v9 (F := Ideal) x0 x2) (val_main_v70 (F := Ideal) x0 x1 x2)
          (val_main_v31 (F := Ideal) x1 x2) (val_main_v79 (F := Ideal) x0 x1 x2) := by
  unfold Cert.Tail.lossF Cert.Tail.distF Cert.Tail.regF
  simp only [val_main_v115, val_main_v114, val_main_cst_33, val_main_v113, val_main_v112, val_main_cst_32, val_main_v111, val_main_v110, val_main_cst_31, val_main_v109, val_main_v108, val_main_cst_30, val_main_v107, val_main_cst_29, val_main_v106, val_main_cst_28, val_main_v105, val_main_cst_27, val_main_v104, val_main_v103, val_main_cst_26, val_main_v102, val_main_v101, val_main_cst_25, val_main_v100, val_main_cst_24, val_main_v99, val_main_call3_v1, val_main_call3_v0, val_main_cst_23, val_main_v98, val_main_v97, val_main_v96, val_main_cst_22, val_main_v95, val_main_v94, val_main_cst_21, val_main_v93, val_main_v92, val_main_call2_v1, val_main_call2_v0, val_main_cst_20, val_main_v91, val_main_v90, val_main_v89, val_main_c_19, val_main_v88, val_main_v87, val_main_v86, val_main_cst_18, val_main_v85, val_main_v84, val_main_v83, val_main_v82, val_main_v81, val_main_v80]

end Cert.ReferenceIdeal.Val

end
-- ==== Proof.LibScatter.lean ====
/-
  The host's accumulating scatter read at an index, for the two layouts a sparse product uses: scalars added into
  a vector at the positions an index column names, and rows added into a matrix at the rows an index column names.
-/
import Idealize.ShloMosaic.PureOps
import Idealize.ShloMosaic.Lib.ValueIdx

noncomputable section

namespace Idealize.ShloMosaic.ScatterRead

open Idealize.ShloMosaic Idealize.ShloMosaic.ValueIdx

/-! ## When an update lands at a given entry -/

/-- An update lands at `i` exactly when, on every operand axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := congrArg Fin.val (congrFun (Option.some.inj h) a)
      simp only at h2
      have := (hh a).1
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    apply Fin.ext
    simp [h a]

/-! ## Scalars into a vector: start and window of an update -/

private theorem flat_start {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) :
    (⟨[], [0], [0], 1, wf⟩ : ScatterDims ⟨1, ![N]⟩ ⟨2, ![n, 1]⟩ ⟨1, ![n]⟩).start j idx 0 = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem flat_window {N n : Nat} (wf : ScatterDims.WF ⟨1, ![N]⟩ ⟨2, ![n, 1]⟩ ⟨1, ![n]⟩ [] [0] [0] 1)
    (j : (⟨1, ![n]⟩ : Shape).Idx) :
    (⟨[], [0], [0], 1, wf⟩ : ScatterDims ⟨1, ![N]⟩ ⟨2, ![n, 1]⟩ ⟨1, ![n]⟩).window j 0 = 0 := by
  unfold ScatterDims.window
  rw [dif_neg]
  exact fun h => (of_decide_eq_true (List.mem_filter.mp h).2) (List.mem_singleton.mpr rfl)

/-- Flat layout: an update lands at `k` exactly when its index word, read signed, is `k`. -/
private theorem flat_resultIdx? {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) (k : Fin N) :
    (⟨[], [0], [0], 1, wf⟩ : ScatterDims ⟨1, ![N]⟩ ⟨2, ![n, 1]⟩ ⟨1, ![n]⟩).resultIdx? j idx = some (ix1 k)
      ↔ (idx (ix2 (j 0) 0)).toInt = (k.val : Int) := by
  rw [resultIdx?_eq_some_iff]
  constructor
  · intro h
    have h0 := h 0
    rw [flat_start, flat_window, Nat.cast_zero, add_zero] at h0
    exact h0
  · intro h a
    obtain rfl : a = 0 := Subsingleton.elim _ _
    rw [flat_start, flat_window, h, Nat.cast_zero, add_zero]
    rfl

/-- SCALARS INTO A VECTOR. Entry `k` of the result is the operand's entry plus the sum of the updates `upd[i]`
    whose index word `idx[i, 0]`, read signed, is `k`; an update whose index is outside `[0, N)` lands nowhere. -/
theorem scatterAdd_flat_apply {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![n, 1]⟩ w) (upd : (⟨1, ![n]⟩ : Shape).Idx → EReal) (k : Fin N) :
    Ideal.hostScatterAdd d x idx upd (ix1 k)
      = x (ix1 k) + ∑ i ∈ Finset.univ.filter (fun i : Fin n => (idx (ix2 i 0)).toInt = (k.val : Int)), upd (ix1 i) := by
  obtain ⟨uw, iw, sd, iv, wf⟩ := d
  dsimp only at hu hi hs hv
  subst hu hi hs hv
  unfold Ideal.hostScatterAdd
  congr 1
  refine Finset.sum_nbij' (fun j : (⟨1, ![n]⟩ : Shape).Idx => (j 0 : Fin n)) (fun i : Fin n => ix1 i) ?_ ?_ ?_ ?_ ?_
  · intro j hj
    exact Finset.mem_filter.mpr ⟨Finset.mem_univ _, (flat_resultIdx? wf idx j k).mp (Finset.mem_filter.mp hj).2⟩
  · intro i hi
    exact Finset.mem_filter.mpr ⟨Finset.mem_univ _, (flat_resultIdx? wf idx (ix1 i) k).mpr (Finset.mem_filter.mp hi).2⟩
  · intro j _
    exact (eq_ix1 j).symm
  · intro i _
    rfl
  · intro j _
    exact congrArg upd (eq_ix1 j)

/-! ## Rows into a matrix: start and window of an update -/

private theorem rows_start0 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 0
      = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem rows_start1 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 1 = 0 := by
  unfold ScatterDims.start
  rw [dif_neg]
  exact fun h => Nat.one_ne_zero (congrArg Fin.val (List.mem_singleton.mp h))

private theorem rows_window0 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 0 = 0 := by
  unfold ScatterDims.window
  rw [dif_neg]
  exact fun h => (of_decide_eq_true (List.mem_filter.mp h).2) (List.mem_singleton.mpr rfl)

private theorem rows_window1 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 1 = (j 1).val := by
  have h1 : (1 : Fin 2) ∈ (⟨[1], [0], [0], 1, wf⟩ : ScatterDims ⟨2, ![R, C]⟩ ⟨2, ![n, 1]⟩ ⟨2, ![n, C]⟩).sKept :=
    List.mem_filter.mpr ⟨List.mem_finRange _,
      decide_eq_true (fun h => Nat.one_ne_zero (congrArg Fin.val (List.mem_singleton.mp h)))⟩
  unfold ScatterDims.window
  rw [dif_pos h1]
  rfl

/-- Row layout: an update lands at `(r, b)` exactly when its index word, read signed, is `r` and its column is `b`. -/
private theorem rows_resultIdx? {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) (r : Fin R) (b : Fin C) :
    (⟨[1], [0], [0], 1, wf⟩ : ScatterDims ⟨2, ![R, C]⟩ ⟨2, ![n, 1]⟩ ⟨2, ![n, C]⟩).resultIdx? j idx = some (ix2 r b)
      ↔ (idx (ix2 (j 0) 0)).toInt = (r.val : Int) ∧ (j 1).val = b.val := by
  rw [resultIdx?_eq_some_iff]
  constructor
  · intro h
    have h0 := h 0
    have h1 := h 1
    rw [rows_start0, rows_window0, Nat.cast_zero, add_zero] at h0
    rw [rows_start1, rows_window1, zero_add] at h1
    exact ⟨h0, by exact_mod_cast h1⟩
  · intro h a
    match a with
    | ⟨0, _⟩ =>
      show ScatterDims.start _ j idx 0 + ((ScatterDims.window _ j 0 : Nat) : Int) = _
      rw [rows_start0, rows_window0, h.1, Nat.cast_zero, add_zero]
    | ⟨1, _⟩ =>
      show ScatterDims.start _ j idx 1 + ((ScatterDims.window _ j 1 : Nat) : Int) = _
      rw [rows_start1, rows_window1, h.2, zero_add]

/-- ROWS INTO A MATRIX. Entry `(r, b)` of the result is the operand's entry plus the sum of the updates
    `upd[i, b]` over the rows `i` whose index word `idx[i, 0]`, read signed, is `r`. -/
theorem scatterAdd_rows_apply {R C n w : Nat} (d : ScatterDims (⟨2, ![R, C]⟩ : Shape) ⟨2, ![n, 1]⟩ ⟨2, ![n, C]⟩)
    (hu : d.updateWindowDims = [1]) (hi : d.insertedWindowDims = [0]) (hs : d.scatterDimsToOperandDims = [0])
    (hv : d.indexVectorDim = 1)
    (x : (⟨2, ![R, C]⟩ : Shape).Idx → EReal) (idx : IVec ⟨2, ![n, 1]⟩ w) (upd : (⟨2, ![n, C]⟩ : Shape).Idx → EReal)
    (r : Fin R) (b : Fin C) :
    Ideal.hostScatterAdd d x idx upd (ix2 r b)
      = x (ix2 r b) + ∑ i ∈ Finset.univ.filter (fun i : Fin n => (idx (ix2 i 0)).toInt = (r.val : Int)), upd (ix2 i b) := by
  obtain ⟨uw, iw, sd, iv, wf⟩ := d
  dsimp only at hu hi hs hv
  subst hu hi hs hv
  unfold Ideal.hostScatterAdd
  congr 1
  refine Finset.sum_nbij' (fun j : (⟨2, ![n, C]⟩ : Shape).Idx => (j 0 : Fin n)) (fun i : Fin n => ix2 i b) ?_ ?_ ?_ ?_ ?_
  · intro j hj
    exact Finset.mem_filter.mpr ⟨Finset.mem_univ _, ((rows_resultIdx? wf idx j r b).mp (Finset.mem_filter.mp hj).2).1⟩
  · intro i hi
    exact Finset.mem_filter.mpr ⟨Finset.mem_univ _, (rows_resultIdx? wf idx (ix2 i b) r b).mpr ⟨(Finset.mem_filter.mp hi).2, rfl⟩⟩
  · intro j hj
    have hb : (j 1 : Fin C) = b := Fin.ext ((rows_resultIdx? wf idx j r b).mp (Finset.mem_filter.mp hj).2).2
    show ix2 (j 0 : Fin n) b = j
    rw [← hb]
    exact (eq_ix2 j).symm
  · intro i _
    rfl
  · intro j hj
    have hb : (j 1 : Fin C) = b := Fin.ext ((rows_resultIdx? wf idx j r b).mp (Finset.mem_filter.mp hj).2).2
    show upd j = upd (ix2 (j 0 : Fin n) b)
    rw [← hb]
    exact congrArg upd (eq_ix2 j)

end Idealize.ShloMosaic.ScatterRead

end
-- ==== Proof.RStats.lean ====
/-
  The reference's cluster statistics, read at an index.

  The segment sums are accumulating scatters by the label column: entry k is the sum of the updates whose label is k,
  which is the sum over all points weighted by the cluster's indicator. The counts scatter ones, the centroid sums
  scatter the coordinate rows, the variance sums scatter v = exp s₁; centroids and variances are the quotients by
  the counts, and the centroids' squared norms sum the squares over the 16 coordinates.

  The passage from the sum over the points whose label is k to the indicator-weighted sum over all points is made once
  for an abstract number of updates; the three scatters are instances of it, and each instance's sum is matched with
  the per-cluster sum of the extended feature term by term.
-/
import proofs.«401601_j38319698215236_3_alg».proof.Proof.RefRead
import proofs.«401601_j38319698215236_3_alg».proof.Proof.Spec
import proofs.«401601_j38319698215236_3_alg».proof.Proof.SpecSums
import proofs.«401601_j38319698215236_3_alg».proof.Proof.LibScatter
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout

noncomputable section

namespace Cert.ReferenceIdeal.Val

open Cert.ReferenceIdeal Cert.ReferenceIdeal.Gen Cert.ReferenceIdeal.ReadP Idealize.ShloMosaic Idealize.ShloMosaic.ValueIdx Cert.Spec

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-! ## The indices the layout stages read at -/

/-- The label column of the count scatter at row i reads the label of point i. -/
theorem col_idx2 (i : Fin 1000000) : idx_main_v2 (ix2 i (0 : Fin 1)) = ix1 i :=
  funext fun a => Fin.ext (by match a with | ⟨0, _⟩ => rfl)

/-- The label column of the coordinate scatter at row i reads the label of point i. -/
theorem col_idx5 (i : Fin 1000000) : idx_main_v5 (ix2 i (0 : Fin 1)) = ix1 i :=
  funext fun a => Fin.ext (by match a with | ⟨0, _⟩ => rfl)

/-- The label column of the variance scatter at row i reads the label of point i. -/
theorem col_idx14 (i : Fin 1000000) : idx_main_v14 (ix2 i (0 : Fin 1)) = ix1 i :=
  funext fun a => Fin.ext (by match a with | ⟨0, _⟩ => rfl)

/-- The second seediness column, flattened, at i is s[i, 1]. -/
theorem s1_idx (i : Fin 1000000) : idx_main_v10 (idx_main_v11 (ix1 i)) = ix2 i (1 : Fin 2) :=
  funext fun a => Fin.ext (by
    match a with
    | ⟨0, _⟩ => exact Nat.div_one _
    | ⟨1, _⟩ => rfl)

/-- The count column broadcast over the coordinates reads the count of the row's cluster. -/
theorem cnt_idx (k : Fin 32) (d : Fin 16) : idx_main_v7 (idx_main_v8 (ix2 k d)) = ix1 k :=
  funext fun a => Fin.ext (by match a with | ⟨0, _⟩ => rfl)

/-- The d-th term of the sum over the coordinates of row k. -/
theorem row_idx (k : Fin 32) (d : Fin 16) : idx_main_v35 (ix1 k) d = ix2 k d :=
  funext fun a => Fin.ext (by match a with | ⟨0, _⟩ => rfl | ⟨1, _⟩ => rfl)

/-! ## The extended feature at its three kinds of position -/

theorem extF_one (xr : Fin 16 → EReal) (s1 : EReal) : extF xr s1 16 = 1 := by
  unfold extF
  rw [dif_neg (show ¬ ((16 : Fin 18).val < 16) by decide), if_pos (show (16 : Fin 18).val = 16 by decide)]

theorem extF_exp (xr : Fin 16 → EReal) (s1 : EReal) : extF xr s1 17 = Ideal.exp s1 := by
  unfold extF
  rw [dif_neg (show ¬ ((17 : Fin 18).val < 16) by decide), if_neg (show ¬ ((17 : Fin 18).val = 16) by decide)]

theorem extF_coord (xr : Fin 16 → EReal) (s1 : EReal) (d : Fin 16) (h : d.val < 18) : extF xr s1 ⟨d.val, h⟩ = xr d := by
  unfold extF
  exact dif_pos d.isLt

/-! ## An accumulating scatter into zeros, at an abstract number of updates -/

/-- Scalars scattered into a vector that is zero at k: entry k is the indicator-weighted sum of the updates. -/
theorem flat_hot {n : Nat} (d : ScatterDims (⟨1, ![32]⟩ : Shape) ⟨2, ![n, 1]⟩ ⟨1, ![n]⟩)
    (hu : d.updateWindowDims = []) (hi : d.insertedWindowDims = [0]) (hs : d.scatterDimsToOperandDims = [0])
    (hv : d.indexVectorDim = 1)
    (x : (⟨1, ![32]⟩ : Shape).Idx → EReal) (idx : IVec ⟨2, ![n, 1]⟩ 32) (upd : (⟨1, ![n]⟩ : Shape).Idx → EReal)
    (a : Fin n → Int) (g : Fin n → EReal) (k : Fin 32)
    (hx : x (ix1 k) = 0) (ha : ∀ i, BitVec.toInt (idx (ix2 i 0)) = a i) (hg : ∀ i, upd (ix1 i) = g i) :
    Ideal.hostScatterAdd d x idx upd (ix1 k) = ∑ i : Fin n, hotI (a i) k * g i := by
  rw [ScatterRead.scatterAdd_flat_apply d hu hi hs hv, hx, zero_add]
  refine (Finset.sum_filter _ _).trans (Finset.sum_congr rfl fun i _ => ?_)
  rw [ha, hg]
  exact (hotI_mul _ k _).symm

/-- Rows scattered into a matrix that is zero at (k, b): entry (k, b) is the indicator-weighted sum of column b
    of the updates. -/
theorem rows_hot {n C : Nat} (d : ScatterDims (⟨2, ![32, C]⟩ : Shape) ⟨2, ![n, 1]⟩ ⟨2, ![n, C]⟩)
    (hu : d.updateWindowDims = [1]) (hi : d.insertedWindowDims = [0]) (hs : d.scatterDimsToOperandDims = [0])
    (hv : d.indexVectorDim = 1)
    (x : (⟨2, ![32, C]⟩ : Shape).Idx → EReal) (idx : IVec ⟨2, ![n, 1]⟩ 32) (upd : (⟨2, ![n, C]⟩ : Shape).Idx → EReal)
    (a : Fin n → Int) (g : Fin n → EReal) (k : Fin 32) (b : Fin C)
    (hx : x (ix2 k b) = 0) (ha : ∀ i, BitVec.toInt (idx (ix2 i 0)) = a i) (hg : ∀ i, upd (ix2 i b) = g i) :
    Ideal.hostScatterAdd d x idx upd (ix2 k b) = ∑ i : Fin n, hotI (a i) k * g i := by
  rw [ScatterRead.scatterAdd_rows_apply d hu hi hs hv, hx, zero_add]
  refine (Finset.sum_filter _ _).trans (Finset.sum_congr rfl fun i _ => ?_)
  rw [ha, hg]
  exact (hotI_mul _ k _).symm

/-! ## The operands of the three scatters at an index -/

theorem v1_zero (k : Fin 32) : (val_main_v1 (F := Ideal) (ix1 k) : EReal) = (0 : EReal) := by
  rw [val_main_v1_apply, val_main_cst_0_apply, Ideal.ofBits_def, Ideal.ofBits_zero_f32]

theorem v4_zero (k : Fin 32) (d : Fin 16) : (val_main_v4 (F := Ideal) (ix2 k d) : EReal) = (0 : EReal) := by
  rw [val_main_v4_apply, val_main_cst_1_apply, Ideal.ofBits_def, Ideal.ofBits_zero_f32]

theorem v13_zero (k : Fin 32) : (val_main_v13 (F := Ideal) (ix1 k) : EReal) = (0 : EReal) := by
  rw [val_main_v13_apply, val_main_cst_2_apply, Ideal.ofBits_def, Ideal.ofBits_zero_f32]

theorem v0_one (i : Fin 1000000) : (val_main_v0 (F := Ideal) (ix1 i) : EReal) = (1 : EReal) := by
  rw [val_main_v0_apply, val_main_cst_apply, Ideal.ofBits_def, Ideal.ofBits_one_f32]

theorem v2_lab (i : Fin 1000000) : BitVec.toInt (val_main_v2 (F := Ideal) x2 (ix2 i (0 : Fin 1))) = lab x2 i := by
  unfold lab
  rw [val_main_v2_apply, col_idx2]

theorem v5_lab (i : Fin 1000000) : BitVec.toInt (val_main_v5 (F := Ideal) x2 (ix2 i (0 : Fin 1))) = lab x2 i := by
  unfold lab
  rw [val_main_v5_apply, col_idx5]

theorem v14_lab (i : Fin 1000000) : BitVec.toInt (val_main_v14 (F := Ideal) x2 (ix2 i (0 : Fin 1))) = lab x2 i := by
  unfold lab
  rw [val_main_v14_apply, col_idx14]

/-- v = exp s₁ of point i. -/
theorem v12_read (i : Fin 1000000) : (val_main_v12 (F := Ideal) x1 (ix1 i) : EReal) = Ideal.exp (x1 (ix2 i 1)) := by
  rw [val_main_v12_apply, Ideal.hostUnary_exp_def, val_main_v11_apply, val_main_v10_apply, s1_idx]

/-- The three scatters are the ideal accumulating scatter of their operands. -/
theorem v3_scatter : (val_main_v3 (F := Ideal) x2 : S32.Idx → EReal)
    = Ideal.hostScatterAdd scatter_S32_S1000000x1_S1000000_n_0_0_1 (val_main_v1 (F := Ideal))
        (val_main_v2 (F := Ideal) x2) (val_main_v0 (F := Ideal)) := by
  unfold val_main_v3 Host.scatterAdd
  rw [Ideal.hostScatterAdd_def]

theorem v6_scatter : (val_main_v6 (F := Ideal) x0 x2 : S32x16.Idx → EReal)
    = Ideal.hostScatterAdd scatter_S32x16_S1000000x1_S1000000x16_1_0_0_1 (val_main_v4 (F := Ideal))
        (val_main_v5 (F := Ideal) x2) x0 := by
  unfold val_main_v6 Host.scatterAdd
  rw [Ideal.hostScatterAdd_def]

theorem v15_scatter : (val_main_v15 (F := Ideal) x1 x2 : S32.Idx → EReal)
    = Ideal.hostScatterAdd scatter_S32_S1000000x1_S1000000_n_0_0_1 (val_main_v13 (F := Ideal))
        (val_main_v14 (F := Ideal) x2) (val_main_v12 (F := Ideal) x1) := by
  unfold val_main_v15 Host.scatterAdd
  rw [Ideal.hostScatterAdd_def]

/-! ## The three segment sums, as the per-cluster sums of the extended feature -/

/-- The scatter of ones: entry k is the indicator-weighted sum of the constant feature. -/
theorem v3T (k : Fin 32) : (val_main_v3 (F := Ideal) x2 (ix1 k) : EReal) = T x0 x1 x2 k 16 :=
  (congrFun (v3_scatter x2) (ix1 k)).trans
    ((flat_hot scatter_S32_S1000000x1_S1000000_n_0_0_1 rfl rfl rfl rfl
        (val_main_v1 (F := Ideal)) (val_main_v2 (F := Ideal) x2) (val_main_v0 (F := Ideal))
        (lab x2) (fun _ => 1) k (v1_zero k) (v2_lab x2) v0_one).trans
      (Finset.sum_congr rfl fun n _ => by
        show hotI (lab x2 n) k * 1 = hotI (lab x2 n) k * extF (xrow x0 n) (x1 (ix2 n 1)) 16
        rw [extF_one]))

/-- The scatter of the coordinate rows: entry (k, d) is the indicator-weighted sum of coordinate d. -/
theorem v6T (k : Fin 32) (d : Fin 16) (h : d.val < 18) :
    (val_main_v6 (F := Ideal) x0 x2 (ix2 k d) : EReal) = T x0 x1 x2 k ⟨d.val, h⟩ :=
  (congrFun (v6_scatter x0 x2) (ix2 k d)).trans
    ((rows_hot scatter_S32x16_S1000000x1_S1000000x16_1_0_0_1 rfl rfl rfl rfl
        (val_main_v4 (F := Ideal)) (val_main_v5 (F := Ideal) x2) x0
        (lab x2) (fun n => xrow x0 n d) k d (v4_zero k d) (v5_lab x2) (fun _ => rfl)).trans
      (Finset.sum_congr rfl fun n _ => by
        show hotI (lab x2 n) k * xrow x0 n d = hotI (lab x2 n) k * extF (xrow x0 n) (x1 (ix2 n 1)) ⟨d.val, h⟩
        rw [extF_coord]))

/-- The scatter of v: entry k is the indicator-weighted sum of v. -/
theorem v15T (k : Fin 32) : (val_main_v15 (F := Ideal) x1 x2 (ix1 k) : EReal) = T x0 x1 x2 k 17 :=
  (congrFun (v15_scatter x1 x2) (ix1 k)).trans
    ((flat_hot scatter_S32_S1000000x1_S1000000_n_0_0_1 rfl rfl rfl rfl
        (val_main_v13 (F := Ideal)) (val_main_v14 (F := Ideal) x2) (val_main_v12 (F := Ideal) x1)
        (lab x2) (fun n => Ideal.exp (x1 (ix2 n 1))) k (v13_zero k) (v14_lab x2) (v12_read x1)).trans
      (Finset.sum_congr rfl fun n _ => by
        show hotI (lab x2 n) k * Ideal.exp (x1 (ix2 n 1)) = hotI (lab x2 n) k * extF (xrow x0 n) (x1 (ix2 n 1)) 17
        rw [extF_exp]))

/-! ## The statistics -/

/-- The count of cluster k. -/
theorem cnt_apply (k : Fin 32) : (val_main_v3 (F := Ideal) x2 (ix1 k) : EReal) = cnt x0 x1 x2 k :=
  v3T x0 x1 x2 k

/-- Coordinate d of the centroid of cluster k. -/
theorem cm_apply (k : Fin 32) (d : Fin 16) : (val_main_v9 (F := Ideal) x0 x2 (ix2 k d) : EReal) = cmS x0 x1 x2 k d := by
  have h : (val_main_v9 (F := Ideal) x0 x2 (ix2 k d) : EReal)
      = Ideal.div (T x0 x1 x2 k ⟨d.val, by omega⟩) (cnt x0 x1 x2 k) := by
    rw [val_main_v9_apply, Ideal.hostDivf_def, val_main_v8_apply, val_main_v7_apply, cnt_idx, cnt_apply x0 x1 x2 k,
      v6T x0 x1 x2 k d (by omega)]
  exact h

/-- The variance of cluster k. -/
theorem vr_apply (k : Fin 32) : (val_main_v16 (F := Ideal) x1 x2 (ix1 k) : EReal) = vrS x0 x1 x2 k := by
  have h : (val_main_v16 (F := Ideal) x1 x2 (ix1 k) : EReal) = Ideal.div (T x0 x1 x2 k 17) (cnt x0 x1 x2 k) := by
    rw [val_main_v16_apply, Ideal.hostDivf_def, cnt_apply x0 x1 x2 k, v15T x0 x1 x2 k]
  exact h

/-- The squared norm of centroid k. -/
theorem m2_apply (k : Fin 32) : (val_main_v35 (F := Ideal) x0 x2 (ix1 k) : EReal) = m2S x0 x1 x2 k := by
  rw [val_main_v35_apply, val_main_cst_8_apply, Ideal.ofBits_def, Ideal.ofBits_zero_f32, zero_add]
  unfold m2S
  refine Finset.sum_congr rfl fun d _ => ?_
  rw [row_idx, val_main_v34_apply, Ideal.mulf_def, cm_apply x0 x1 x2 k d]

end Cert.ReferenceIdeal.Val

end
-- ==== Proof.RAbbrev.lean ====
/-
  The reference's own cluster statistics (centroids, variances, squared norms) as small tables of extended reals.
-/
import proofs.«401601_j38319698215236_3_alg».proof.Proof.RefRead
import proofs.«401601_j38319698215236_3_alg».proof.Proof.Spec
import Idealize.ShloMosaic.Lib.ValueIdx

noncomputable section

namespace Cert.ReferenceIdeal.Val

open Cert.ReferenceIdeal Cert.ReferenceIdeal.Gen Cert.ReferenceIdeal.ReadP Idealize.ShloMosaic Idealize.ShloMosaic.ValueIdx Cert.Spec

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-- Coordinate d of the reference's centroid k. -/
abbrev cmR (k : Fin 32) (d : Fin 16) : EReal := val_main_v9 (F := Ideal) x0 x2 (ix2 k d)
/-- The reference's variance of cluster k. -/
abbrev vrR (k : Fin 32) : EReal := val_main_v16 (F := Ideal) x1 x2 (ix1 k)
/-- The reference's squared norm of centroid k. -/
abbrev m2R (k : Fin 32) : EReal := val_main_v35 (F := Ideal) x0 x2 (ix1 k)
/-- The reference's count of cluster k. -/
abbrev cntR (k : Fin 32) : EReal := val_main_v3 (F := Ideal) x2 (ix1 k)

end Cert.ReferenceIdeal.Val

end
-- ==== Proof.RBce.lean ====
/-
  The reference's cross-entropy mean, as a sum over the points.

  Entry (n, k) of the 1 000 000 × 32 array is the clamped cross-entropy of point n against cluster k, computed from the
  reference's own centroids, variances and squared norms; the mean is the sum over all entries divided by 32 000 000,
  and the sum over the pairs (n, k) is the sum over the points of the sum over the clusters.

  The squared distance |x|² + |μ|² − 2⟨x, μ⟩ is read piece by piece (each a broadcast of a small table along the other
  axis), the label compare against the cluster numbers 0 … 31 is the indicator "the label is k", and the select picks
  the clamped log-probability or the clamped log of its complement.
-/
import proofs.«401601_j38319698215236_3_alg».proof.Proof.RefRead
import proofs.«401601_j38319698215236_3_alg».proof.Proof.Spec
import proofs.«401601_j38319698215236_3_alg».proof.Proof.SpecSums
import proofs.«401601_j38319698215236_3_alg».proof.Proof.RAbbrev
import Idealize.ShloMosaic.Lib.StableHlo.Predicate
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Val

open Cert.ReferenceIdeal Cert.ReferenceIdeal.Gen Cert.ReferenceIdeal.ReadP Idealize.ShloMosaic Idealize.ShloMosaic.ValueIdx Cert.Spec

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-! ### The pieces of the squared distance, read at the entry (n, k) -/

/-- The squared norm of point n, broadcast along the clusters. -/
theorem f2_entry (n : Fin 1000000) (k : Fin 32) :
    (val_main_v38 (F := Ideal) x0 (ix2 n k) : EReal) = f2 (xrow x0 n) := by
  rw [val_main_v38_apply, val_main_v36_apply, val_main_v33_apply, val_main_cst_7_apply, Ideal.ofBits_def,
    Ideal.ofBits_zero_f32, zero_add]
  unfold f2 xrow
  refine Finset.sum_congr rfl fun d _ => ?_
  rw [val_main_v32_apply, Ideal.mulf_def]
  have h : idx_main_v33 (idx_main_v36 (idx_main_v38 (ix2 n k))) d = ix2 n d := by
    funext a; match a with | ⟨0, _⟩ => rfl | ⟨1, _⟩ => rfl
  rw [h]

/-- The squared norm of centroid k, broadcast along the points. -/
theorem m2_entry (n : Fin 1000000) (k : Fin 32) :
    (val_main_v39 (F := Ideal) x0 x2 (ix2 n k) : EReal) = m2R x0 x2 k := by
  rw [val_main_v39_apply, val_main_v37_apply]
  exact congrArg _ (funext fun a => by match a with | ⟨0, _⟩ => rfl)

/-- The inner product of point n and centroid k. -/
theorem cross_entry (n : Fin 1000000) (k : Fin 32) :
    (val_main_v42 (F := Ideal) x0 x2 (ix2 n k) : EReal) = cross (cmR x0 x2) (xrow x0 n) k := by
  rw [val_main_v42_apply]
  unfold cross xrow
  refine Finset.sum_congr rfl fun d _ => ?_
  have hl : lidx_main_v42 (ix2 n k) d = ix2 n d := by
    funext a; match a with | ⟨0, _⟩ => rfl | ⟨1, _⟩ => rfl
  have hr : idx_main_v41 (ridx_main_v42 (ix2 n k) d) = ix2 k d := by
    funext a; match a with | ⟨0, _⟩ => rfl | ⟨1, _⟩ => rfl
  rw [val_main_v41_apply, hl, hr]
  exact mul_comm _ _

/-- Twice the variance of cluster k, broadcast along the points. -/
theorem vr_entry (n : Fin 1000000) (k : Fin 32) :
    (val_main_v52 (F := Ideal) x1 x2 (ix2 n k) : EReal) = two * vrR x1 x2 k := by
  rw [val_main_v52_apply, val_main_v51_apply, val_main_v50_apply, val_main_cst_11_apply, val_main_v49_apply,
    Ideal.mulf_def, Ideal.ofBits_def]
  have h : idx_main_v49 (idx_main_v52 (ix2 n k)) = ix1 k := by
    funext a; match a with | ⟨0, _⟩ => rfl
  rw [h]

/-- The log-probability of point n under cluster k. -/
theorem lgP_entry (n : Fin 1000000) (k : Fin 32) :
    (val_main_v53 (F := Ideal) x0 x1 x2 (ix2 n k) : EReal)
      = lgP (cmR x0 x2) (vrR x1 x2) (m2R x0 x2) (xrow x0 n) k := by
  rw [val_main_v53_apply, Ideal.hostDivf_def, val_main_v48_apply, Ideal.hostNegf_def, Ideal.negf_def,
    val_main_v47_apply, Ideal.maximumf_def, val_main_v46_apply, val_main_cst_10_apply, Ideal.ofBits_def,
    Ideal.ofBits_zero_f32, val_main_v45_apply, Ideal.subf_def, val_main_v40_apply, Ideal.addf_def,
    val_main_v44_apply, Ideal.mulf_def, val_main_v43_apply, val_main_cst_9_apply, Ideal.ofBits_def,
    f2_entry, m2_entry, cross_entry, vr_entry]
  rfl

/-- The word of cluster k, read signed, is k. -/
theorem toInt_clu (k : Fin 32) : (BitVec.ofNat 32 k.val).toInt = (k.val : Int) := by
  have hk := k.isLt
  have hm : k.val % 2 ^ 32 = k.val := Nat.mod_eq_of_lt (by omega)
  rw [BitVec.toInt_eq_toNat_cond, BitVec.toNat_ofNat, hm, if_pos (by omega)]

/-- The compare bit at (n, k) is set exactly when the label of point n is k. -/
theorem hot_entry (n : Fin 1000000) (k : Fin 32) :
    val_main_v60 (F := Ideal) x2 (ix2 n k) = 1#1 ↔ lab x2 n = (k.val : Int) := by
  rw [val_main_v60_apply, val_main_v58_apply, val_main_v55_apply, val_main_v59_apply, val_main_v57_apply,
    val_main_v56_apply, StableHlo.Predicate.cmpi_eq_iff]
  have h : idx_main_v55 (idx_main_v58 (ix2 n k)) = ix1 n := by
    funext a; match a with | ⟨0, _⟩ => rfl
  rw [h]
  show x2 (ix1 n) = BitVec.ofNat 32 k.val ↔ (x2 (ix1 n)).toInt = (k.val : Int)
  constructor
  · intro e; rw [e]; exact toInt_clu k
  · intro e; exact BitVec.eq_of_toInt_eq (e.trans (toInt_clu k).symm)

/-- Entry (n, k): the clamped cross-entropy of point n against cluster k. -/
theorem bce_entry (n : Fin 1000000) (k : Fin 32) :
    (val_main_v68 (F := Ideal) x0 x1 x2 (ix2 n k) : EReal)
      = bce (cmR x0 x2) (vrR x1 x2) (m2R x0 x2) (xrow x0 n) (lab x2 n) k := by
  rw [val_main_v68_apply, val_main_v67_apply, val_main_v62_apply, val_main_v66_apply, val_main_v61_apply,
    val_main_cst_12_apply, val_main_v65_apply, val_main_cst_13_apply, val_main_v64_apply, val_main_v63_apply,
    val_main_v54_apply, lgP_entry]
  simp only [Ideal.hostNegf_def, Ideal.negf_def, Ideal.maximumf_def, Ideal.hostUnary_log1p_def,
    Ideal.hostUnary_exp_def, Ideal.ofBits_def]
  unfold bce pr
  by_cases h : lab x2 n = (k.val : Int)
  · rw [if_pos h, (hot_entry x2 n k).mpr h, select_one]
  · rw [if_neg h, eq_zero_of_ne_one (fun e => h ((hot_entry x2 n k).mp e)), select_zero]

/-- The sum of all entries is the sum over the points of the sum over the clusters. -/
theorem total_rows (i : S_.Idx) :
    (val_main_v69 (F := Ideal) x0 x1 x2 i : EReal)
      = ∑ n : Fin NP, rowB (cmR x0 x2) (vrR x1 x2) (m2R x0 x2) (xrow x0 n) (lab x2 n) := by
  rw [val_main_v69_apply, val_main_cst_14_apply, Ideal.ofBits_def, Ideal.ofBits_zero_f32, zero_add]
  refine (sum_idx2 _).trans (Finset.sum_congr rfl fun n _ => ?_)
  unfold rowB
  exact Finset.sum_congr rfl fun k _ => bce_entry x0 x1 x2 n k

/-- The cross-entropy mean. -/
theorem varloss_apply (i : S_.Idx) :
    (val_main_v70 (F := Ideal) x0 x1 x2 i : EReal)
      = Ideal.div (∑ n : Fin NP, rowB (cmR x0 x2) (vrR x1 x2) (m2R x0 x2) (xrow x0 n) (lab x2 n))
          (Ideal.ofBits .f32 0x4BF42400#32) := by
  rw [val_main_v70_apply, Ideal.hostDivf_def, total_rows, val_main_cst_15_apply, Ideal.ofBits_def]

end Cert.ReferenceIdeal.Val

end
-- ==== Proof.LibGather.lean ====
/-
  Two layout reads a sparse product's reference needs: a gather of whole rows of a matrix by an index column, and
  two matrices joined along their second axis.
-/
import Idealize.ShloMosaic.PureOps
import Idealize.ShloMosaic.Lib.ValueIdx
import Idealize.ShloMosaic.Lib.Pipeline.Value

noncomputable section

namespace Idealize.ShloMosaic.GatherRead

open Idealize.ShloMosaic Idealize.ShloMosaic.ValueIdx

/-- The dimension numbers of a gather of whole rows: operand `[R, C]`, start indices `[n, 1]` (one row number per
    result row), result `[n, C]`; the row axis is collapsed and indexed, the column axis is kept whole. -/
private abbrev rowsDims (R C n : Nat)
    (wf : GatherDims.WF ⟨2, ![R, C]⟩ ⟨2, ![n, 1]⟩ ⟨2, ![n, C]⟩ [1] [0] [] [0] [] 1 ![1, C]) :
    GatherDims (⟨2, ![R, C]⟩ : Shape) ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Axis 1 is not axis 0. -/
private theorem one_not_mem_zero : (1 : Fin 2) ∉ ([0] : List (Fin 2)) := by decide

/-- The gather of whole rows read at `(i, b)`, for the dimension numbers spelled out. -/
private theorem rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (i : Fin n) (b : Fin C) :
    Host.gather (rowsDims R C n wf) x idx (ix2 i b)
      = x (ix2 ⟨min (idx (ix2 i 0)).toInt.toNat (R - 1), by omega⟩ b) := by
  unfold Host.gather
  congr 1
  funext a
  refine Fin.ext ?_
  match a with
  | ⟨0, _⟩ =>
    -- the row axis: the clamped start index; no batching coordinate, and no offset since the axis is collapsed
    show (rowsDims R C n wf).start (ix2 i b) idx 0 + (rowsDims R C n wf).batchCoord (ix2 i b) 0
      + (rowsDims R C n wf).offCoord (ix2 i b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C n wf).startIndexMap from List.mem_singleton.mpr rfl)]
    have hsi : (rowsDims R C n wf).siIdx (ix2 i b) ⟨List.idxOf (0 : Fin 2) (rowsDims R C n wf).startIndexMap,
        List.idxOf_lt_length_iff.2 (List.mem_singleton.mpr rfl)⟩ = ix2 i 0 := by
      funext c; refine Fin.ext ?_
      match c with
      | ⟨0, _⟩ => rfl
      | ⟨1, _⟩ => rfl
    rw [hsi]
    rfl
  | ⟨1, _⟩ =>
    -- the column axis: not indexed (start 0), not batching, and the offset is the result's column
    show (rowsDims R C n wf).start (ix2 i b) idx 1 + (rowsDims R C n wf).batchCoord (ix2 i b) 1
      + (rowsDims R C n wf).offCoord (ix2 i b) 1 = b.val
    rw [GatherDims.batchCoord_eq_zero _ _ _ List.not_mem_nil]
    have hs : (rowsDims R C n wf).start (ix2 i b) idx 1 = 0 := by
      unfold GatherDims.start
      rw [dif_neg (show ¬ (1 : Fin 2) ∈ (rowsDims R C n wf).startIndexMap from one_not_mem_zero)]
    have hk : (1 : Fin 2) ∈ (rowsDims R C n wf).sKept :=
      (GatherDims.mem_sKept _ _).mpr ⟨one_not_mem_zero, List.not_mem_nil⟩
    rw [hs]
    simp only [Nat.add_zero, Nat.zero_add]
    unfold GatherDims.offCoord
    rw [dif_pos hk]
    rfl

/-- ROWS OF A MATRIX. Entry `(i, b)` of the result is the operand at row `idx[i, 0]` — read signed and clamped
    into `[0, R − 1]` — and column `b`. -/
theorem gather_rows_apply {α : Type} {R C n w : Nat} (hR : 0 < R)
    (d : GatherDims (⟨2, ![R, C]⟩ : Shape) ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![n, 1]⟩ w) (i : Fin n) (b : Fin C) :
    Host.gather d x idx (ix2 i b) = x (ix2 ⟨min (idx (ix2 i 0)).toInt.toNat (R - 1), by omega⟩ b) := by
  obtain ⟨od, cd, ob, sb, sm, iv, ss, wf⟩ := d
  dsimp only at h1 h2 h3 h4 h5 h6 h7
  subst h1 h2 h3 h4 h5 h6 h7
  exact rows_apply hR wf x idx i b

/-- TWO MATRICES SIDE BY SIDE. Entry `(p, q)` of `[a | b]` is `a[p, q]` for `q` below `a`'s width and
    `b[p, q − width]` from there on. -/
theorem concat_cols_apply {α : Type} {A B₁ B₂ B : Nat} (hB : B₁ + B₂ = B)
    (h : Shape.Concatenates [(⟨2, ![A, B₁]⟩ : Shape), ⟨2, ![A, B₂]⟩] (⟨2, ![A, B]⟩ : Shape) 1)
    (a : (⟨2, ![A, B₁]⟩ : Shape).Idx → α) (b : (⟨2, ![A, B₂]⟩ : Shape).Idx → α) (p : Fin A) (q : Fin B) :
    concatenate (⟨2, ![A, B]⟩ : Shape) 1 [⟨⟨2, ![A, B₁]⟩, a⟩, ⟨⟨2, ![A, B₂]⟩, b⟩] h (ix2 p q)
      = if hq : q.val < B₁ then a (ix2 p ⟨q.val, hq⟩) else b (ix2 p ⟨q.val - B₁, by omega⟩) := by
  by_cases hq : q.val < B₁
  · -- the column falls in the first matrix: same coordinates there
    rw [dif_pos hq]
    refine concatenate_pair_apply_left (1 : Fin 2) a b h (ix2 p q) rfl (ix2 p ⟨q.val, hq⟩) ?_
    intro c
    match c with
    | ⟨0, _⟩ => rfl
    | ⟨1, _⟩ => rfl
  · -- the column falls in the second matrix: same row, the column the first width less
    rw [dif_neg hq]
    refine concatenate_pair_apply_right (1 : Fin 2) a b h (ix2 p q) rfl rfl (ix2 p ⟨q.val - B₁, by omega⟩) ?_ ?_
    · intro c hc
      match c, hc with
      | ⟨0, _⟩, _ => rfl
      | ⟨1, _⟩, hc => exact absurd rfl hc
    · show q.val - B₁ + B₁ = q.val
      omega

end Idealize.ShloMosaic.GatherRead

end
-- ==== Proof.RSeed.lean ====
/-
  The reference's seediness error mean, as a sum over the points.

  The point's own probability is gathered from the probability map at the point's label (a label in range reads its own
  column; the in-range test of the gather holds, so no fill value is taken); the mean is the sum of the squared errors
  against s₀ divided by 1 000 000.
-/
import proofs.«401601_j38319698215236_3_alg».proof.Proof.RefRead
import proofs.«401601_j38319698215236_3_alg».proof.Proof.Spec
import proofs.«401601_j38319698215236_3_alg».proof.Proof.SpecSums
import proofs.«401601_j38319698215236_3_alg».proof.Proof.RAbbrev
import proofs.«401601_j38319698215236_3_alg».proof.Proof.LibGather
import Idealize.ShloMosaic.Lib.StableHlo.Predicate
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Val

open Cert.ReferenceIdeal Cert.ReferenceIdeal.Gen Cert.ReferenceIdeal.ReadP Idealize.ShloMosaic Idealize.ShloMosaic.ValueIdx Cert.Spec

/-! ## A gather of one entry per row of a matrix, read at an index -/

section Pick

/-- The dimension numbers of a gather of one entry per row of a matrix: operand `[n, C]`, start indices `[n, 1, 1]`
    (one column number per row), result `[n, 1]`; the row axis is a batching axis of the operand and of the start
    indices, the column axis is collapsed and indexed. -/
private abbrev pickDims (n C : Nat)
    (wf : GatherDims.WF ⟨2, ![n, C]⟩ ⟨3, ![n, 1, 1]⟩ ⟨2, ![n, 1]⟩ [] [1] [0] [1] [0] 2 ![1, 1]) :
    GatherDims (⟨2, ![n, C]⟩ : Shape) ⟨3, ![n, 1, 1]⟩ ⟨2, ![n, 1]⟩ where
  offsetDims := []
  collapsedSliceDims := [1]
  operandBatchingDims := [0]
  startIndicesBatchingDims := [0]
  startIndexMap := [1]
  indexVectorDim := 2
  sliceSizes := ![1, 1]
  wf := wf

private theorem zero_not_mem_one : (0 : Fin 2) ∉ ([1] : List (Fin 2)) := by decide
private theorem one_not_mem_zero : (1 : Fin 2) ∉ ([0] : List (Fin 2)) := by decide

/-- The gather of one entry per row read at `(i, 0)`, for the dimension numbers spelled out. -/
private theorem pick_apply {α : Type} {n C w : Nat} (hC : 0 < C)
    (wf : GatherDims.WF ⟨2, ![n, C]⟩ ⟨3, ![n, 1, 1]⟩ ⟨2, ![n, 1]⟩ [] [1] [0] [1] [0] 2 ![1, 1])
    (x : (⟨2, ![n, C]⟩ : Shape).Idx → α) (idx : IVec ⟨3, ![n, 1, 1]⟩ w) (i : Fin n) :
    Host.gather (pickDims n C wf) x idx (ix2 i 0)
      = x (ix2 i ⟨min (idx (ix3 i 0 0)).toInt.toNat (C - 1), by omega⟩) := by
  unfold Host.gather
  congr 1
  funext a
  refine Fin.ext ?_
  match a with
  | ⟨0, _⟩ =>
    -- the row axis: a batching axis, so no start index and no offset; the batching coordinate is the result's row
    show (pickDims n C wf).start (ix2 i 0) idx 0 + (pickDims n C wf).batchCoord (ix2 i 0) 0
      + (pickDims n C wf).offCoord (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (pickDims n C wf).operandBatchingDims from List.mem_singleton.mpr rfl)]
    rfl
  | ⟨1, _⟩ =>
    -- the column axis: the clamped start index; not batching, and no offset since the axis is collapsed
    show (pickDims n C wf).start (ix2 i 0) idx 1 + (pickDims n C wf).batchCoord (ix2 i 0) 1
      + (pickDims n C wf).offCoord (ix2 i 0) 1 = _
    rw [GatherDims.batchCoord_eq_zero _ _ _ one_not_mem_zero,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pickDims n C wf).startIndexMap from List.mem_singleton.mpr rfl)]
    have hsi : (pickDims n C wf).siIdx (ix2 i 0) ⟨List.idxOf (1 : Fin 2) (pickDims n C wf).startIndexMap,
        List.idxOf_lt_length_iff.2 (List.mem_singleton.mpr rfl)⟩ = ix3 i 0 0 := by
      funext c; refine Fin.ext ?_
      match c with
      | ⟨0, _⟩ => rfl
      | ⟨1, _⟩ => rfl
      | ⟨2, _⟩ => rfl
    rw [hsi]
    rfl

/-- ONE ENTRY PER ROW. Entry `(i, 0)` of the result is the operand at row `i` and column `idx[i, 0, 0]` — read
    signed and clamped into `[0, C − 1]`. -/
theorem gather_pick_apply {α : Type} {n C w : Nat} (hC : 0 < C)
    (d : GatherDims (⟨2, ![n, C]⟩ : Shape) ⟨3, ![n, 1, 1]⟩ ⟨2, ![n, 1]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![n, C]⟩ : Shape).Idx → α) (idx : IVec ⟨3, ![n, 1, 1]⟩ w) (i : Fin n) :
    Host.gather d x idx (ix2 i 0) = x (ix2 i ⟨min (idx (ix3 i 0 0)).toInt.toNat (C - 1), by omega⟩) := by
  obtain ⟨od, cd, ob, sb, sm, iv, ss, wf⟩ := d
  dsimp only at h1 h2 h3 h4 h5 h6 h7
  subst h1 h2 h3 h4 h5 h6 h7
  exact pick_apply hC wf x idx i

end Pick

/-! ## Words and bits -/

/-- A 32-bit word that reads, signed, a number in [0, 32) is below 32 unsigned, and reads the same both ways. -/
private theorem word_of_label {a : BitVec 32} (h0 : 0 ≤ a.toInt) (h1 : a.toInt < 32) :
    a.toNat < 32 ∧ a.toInt = (a.toNat : Int) := by
  have h := BitVec.toInt_eq_toNat_cond a
  have hlt := a.isLt
  split at h <;> omega

/-- A conjunction of bits that are all set, from a set bit, is set. -/
private theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- A rank-1 index set is its coordinate range. -/
private def pointEquiv : S1000000.Idx ≃ Fin 1000000 where
  toFun i := i 0
  invFun := ix1
  left_inv i := (eq_ix1 i).symm
  right_inv _ := rfl

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-! ## The log-probability map at a point and a cluster -/

/-- Entry (n, k) of the log-probability map is the log-probability of point n under cluster k, from the reference's own
    centroids, variances and squared norms. -/
private theorem seed_logp (n : Fin 1000000) (k : Fin 32) :
    (val_main_v53 (F := Ideal) x0 x1 x2 (ix2 n k) : EReal)
      = lgP (cmR x0 x2) (vrR x1 x2) (m2R x0 x2) (xrow x0 n) k := by
  -- |x|²: the row sum of the squares
  have h38 : (val_main_v38 (F := Ideal) x0 (ix2 n k) : EReal) = f2 (xrow x0 n) := by
    rw [val_main_v38_apply, val_main_v36_apply, val_main_v33_apply, val_main_cst_7_apply, Ideal.ofBits_def,
      Ideal.ofBits_zero_f32, zero_add]
    unfold f2 xrow
    refine Finset.sum_congr rfl fun d _ => ?_
    have e : idx_main_v33 (idx_main_v36 (idx_main_v38 (ix2 n k))) d = ix2 n d := by
      funext a; match a with | ⟨0, _⟩ => rfl | ⟨1, _⟩ => rfl
    rw [val_main_v32_apply, Ideal.mulf_def, e]
  -- |μ_k|²
  have h39 : (val_main_v39 (F := Ideal) x0 x2 (ix2 n k) : EReal) = m2R x0 x2 k := by
    have e : idx_main_v37 (idx_main_v39 (ix2 n k)) = ix1 k := by
      funext a; match a with | ⟨0, _⟩ => rfl
    rw [val_main_v39_apply, val_main_v37_apply, e]
  -- the literal 2
  have h43 : (val_main_v43 (F := Ideal) (ix2 n k) : EReal) = two := by
    rw [val_main_v43_apply, val_main_cst_9_apply, Ideal.ofBits_def]
  -- ⟨μ_k, x⟩: the product with the transposed centroids, the factors commuted
  have h42 : (val_main_v42 (F := Ideal) x0 x2 (ix2 n k) : EReal) = cross (cmR x0 x2) (xrow x0 n) k := by
    rw [val_main_v42_apply]
    unfold cross xrow
    refine Finset.sum_congr rfl fun d _ => ?_
    have e1 : lidx_main_v42 (ix2 n k) d = ix2 n d := by
      funext a; match a with | ⟨0, _⟩ => rfl | ⟨1, _⟩ => rfl
    have e2 : idx_main_v41 (ridx_main_v42 (ix2 n k) d) = ix2 k d := by
      funext a; match a with | ⟨0, _⟩ => rfl | ⟨1, _⟩ => rfl
    rw [val_main_v41_apply, e1, e2]
    exact mul_comm _ _
  -- the floor 0 of the squared distance
  have h46 : (val_main_v46 (F := Ideal) (ix2 n k) : EReal) = 0 := by
    rw [val_main_v46_apply, val_main_cst_10_apply, Ideal.ofBits_def, Ideal.ofBits_zero_f32]
  -- 2σ_k²
  have h52 : (val_main_v52 (F := Ideal) x1 x2 (ix2 n k) : EReal) = two * vrR x1 x2 k := by
    have e : idx_main_v49 (idx_main_v52 (ix2 n k)) = ix1 k := by
      funext a; match a with | ⟨0, _⟩ => rfl
    rw [val_main_v52_apply, val_main_v51_apply, Ideal.mulf_def, val_main_v50_apply, val_main_cst_11_apply,
      Ideal.ofBits_def, val_main_v49_apply, e]
  rw [val_main_v53_apply, Ideal.hostDivf_def, val_main_v48_apply, Ideal.hostNegf_def, Ideal.negf_def,
    val_main_v47_apply, Ideal.maximumf_def, val_main_v45_apply, Ideal.subf_def, val_main_v40_apply, Ideal.addf_def,
    val_main_v44_apply, Ideal.mulf_def, h38, h39, h43, h42, h46, h52]
  rfl

/-! ## The gather's start index and in-range test at a label in range -/

/-- The start index of point n: a label in range is not negative, so it is taken as it is. -/
private theorem norm_idx (hl : LabelsOK x2) (n : Fin 1000000) :
    val_main_call1_v5 (F := Ideal) x2 (ix3 n 0 0) = x2 (ix1 n) := by
  have e5 : idx_main_call1_v5 (ix3 n 0 0) = ix2 n 0 := by
    funext a
    match a with
    | ⟨0, _⟩ => exact Fin.ext (by show ((n.val * 1 + 0) * 1 + 0) / 1 = n.val; omega)
    | ⟨1, _⟩ => rfl
  have e71 : idx_main_v71 (ix2 n 0) = ix1 n := by
    funext a; match a with | ⟨0, _⟩ => rfl
  obtain ⟨hlt, _⟩ := word_of_label (a := x2 (ix1 n)) (hl n).1 (hl n).2
  have hc : IntOp.cmpi .slt (x2 (ix1 n)) 0#32 = 0#1 :=
    eq_zero_of_ne_one fun h => by
      have h' := (StableHlo.Predicate.slt_iff_toNat (by omega) (by decide)).mp h
      have h0 : (0#32 : BitVec 32).toNat = 0 := rfl
      omega
  rw [val_main_call1_v5_apply, e5, val_main_call1_v4_apply, val_main_call1_v1_apply, val_main_v71_apply,
    val_main_call1_v0_apply, val_main_call1_c_apply, e71, hc, select_zero]

/-- Every start index passes the range test 0 ≤ · ≤ 31. -/
private theorem inrange_all (hl : LabelsOK x2) (j : S1000000x1x1.Idx) :
    val_main_call1_v11 (F := Ideal) x2 j = 1#1 := by
  obtain ⟨p, q, r, rfl⟩ : ∃ p q r, j = ix3 p q r := ⟨j 0, j 1, j 2, eq_ix3 j⟩
  obtain rfl : q = 0 := Subsingleton.elim _ _
  obtain rfl : r = 0 := Subsingleton.elim _ _
  obtain ⟨hlt, _⟩ := word_of_label (a := x2 (ix1 p)) (hl p).1 (hl p).2
  have h7 : IntOp.cmpi .sge (x2 (ix1 p)) 0#32 = 1#1 :=
    (StableHlo.Predicate.sge_iff_toNat (by omega) (by decide)).mpr (Nat.zero_le _)
  have h10 : IntOp.cmpi .sle (x2 (ix1 p)) 31#32 = 1#1 :=
    (StableHlo.Predicate.sle_iff_toNat (by omega) (by decide)).mpr (by show (x2 (ix1 p)).toNat ≤ 31; omega)
  rw [val_main_call1_v11_apply, val_main_call1_v7_apply, val_main_call1_v10_apply, norm_idx x2 hl p,
    val_main_call1_v6_apply, val_main_call1_c_2_apply, val_main_call1_v9_apply, val_main_call1_v8_apply,
    val_main_call1_c_1_apply, h7, h10]
  rfl

/-- The in-range bit of point n — the conjunction of the range test over the one component of its start index — is set. -/
private theorem inrange_bit (hl : LabelsOK x2) (n : Fin 1000000) :
    val_main_call1_v12 (F := Ideal) x2 (ix2 n 0) = 1#1 := by
  unfold val_main_call1_v12
  rw [Host.reduce_eq_fold]
  exact fold_andi_one _ _ fun j _ => inrange_all x2 hl j

/-! ## One point's squared error, and the mean -/

/-- The squared seediness error of point n. -/
private theorem seed_point (hl : LabelsOK x2) (n : Fin 1000000) :
    (val_main_v77 (F := Ideal) x0 x1 x2 (ix1 n) : EReal)
      = serr (cmR x0 x2) (vrR x1 x2) (m2R x0 x2) (xrow x0 n) (x1 (ix2 n 0)) (lab x2 n) := by
  -- the gathered probability is the point's probability under its own cluster
  have h73 : (val_main_v73 (F := Ideal) x0 x1 x2 (ix1 n) : EReal)
      = st (cmR x0 x2) (vrR x1 x2) (m2R x0 x2) (xrow x0 n) (lab x2 n) := by
    have e : idx_main_v73 (ix1 n) = ix2 n 0 := by
      funext a
      match a with
      | ⟨0, _⟩ => exact Fin.ext (Nat.div_one _)
      | ⟨1, _⟩ => rfl
    obtain ⟨hlt, hti⟩ := word_of_label (a := x2 (ix1 n)) (hl n).1 (hl n).2
    have ek : (⟨min (val_main_call1_v5 (F := Ideal) x2 (ix3 n 0 0)).toInt.toNat (32 - 1), by omega⟩ : Fin 32)
        = cluOf (lab x2 n) (hl n) := by
      apply Fin.ext
      show min (val_main_call1_v5 (F := Ideal) x2 (ix3 n 0 0)).toInt.toNat (32 - 1) = (x2 (ix1 n)).toInt.toNat
      rw [norm_idx x2 hl n]
      omega
    rw [val_main_v73_apply, e, val_main_v72_apply, inrange_bit x2 hl n, select_one]
    unfold val_main_call1_v13
    rw [gather_pick_apply (n := 1000000) (C := 32) (by decide)
      gather_S1000000x32_S1000000x1x1_S1000000x1_n_1_0_0_1_2_11 rfl rfl rfl rfl rfl rfl rfl _ _ n,
      ek, val_main_v54_apply, Ideal.hostUnary_exp_def, seed_logp]
    unfold st
    rw [sum_mul_hotI _ (hl n)]
    rfl
  -- s₀ of point n
  have h75 : (val_main_v75 (F := Ideal) x1 (ix1 n) : EReal) = x1 (ix2 n 0) := by
    have e : idx_main_v74 (idx_main_v75 (ix1 n)) = ix2 n 0 := by
      funext a
      match a with
      | ⟨0, _⟩ => exact Fin.ext (Nat.div_one _)
      | ⟨1, _⟩ => rfl
    rw [val_main_v75_apply, val_main_v74_apply, e]
  rw [val_main_v77_apply, Ideal.mulf_def, val_main_v76_apply, Ideal.subf_def, h73, h75]
  rfl

/-- The seediness error mean. -/
theorem seedloss_apply (hl : LabelsOK x2) (i : S_.Idx) :
    (val_main_v79 (F := Ideal) x0 x1 x2 i : EReal)
      = Ideal.div (∑ n : Fin NP, serr (cmR x0 x2) (vrR x1 x2) (m2R x0 x2) (xrow x0 n) (x1 (ix2 n 0)) (lab x2 n))
          (Ideal.ofBits .f32 0x49742400#32) := by
  rw [val_main_v79_apply, Ideal.hostDivf_def, val_main_cst_17_apply, Ideal.ofBits_def, val_main_v78_apply,
    val_main_cst_16_apply, Ideal.ofBits_def, Ideal.ofBits_zero_f32, zero_add]
  refine congrArg (fun t => Ideal.div t (Ideal.ofBits .f32 0x49742400#32)) ?_
  refine Fintype.sum_equiv pointEquiv _ _ fun j => ?_
  obtain ⟨p, rfl⟩ : ∃ p, j = ix1 p := ⟨j 0, eq_ix1 j⟩
  exact seed_point x0 x1 x2 hl p

end Cert.ReferenceIdeal.Val

end
-- ==== Proof.RSmooth.lean ====
/-
  The reference's smoothness, as sums over the points.

  Each point's cluster variance is gathered by its label (in range: its own cluster's); the squared deviations of
  v = exp s₁ are scattered by the label column into per-cluster sums, divided by the counts and averaged over the 32
  clusters.
-/
import proofs.«401601_j38319698215236_3_alg».proof.Proof.RefRead
import proofs.«401601_j38319698215236_3_alg».proof.Proof.Spec
import proofs.«401601_j38319698215236_3_alg».proof.Proof.SpecSums
import proofs.«401601_j38319698215236_3_alg».proof.Proof.RAbbrev
import proofs.«401601_j38319698215236_3_alg».proof.Proof.LibScatter
import Idealize.ShloMosaic.Lib.StableHlo.Predicate
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Val

open Cert.ReferenceIdeal Cert.ReferenceIdeal.Gen Cert.ReferenceIdeal.ReadP Idealize.ShloMosaic Idealize.ShloMosaic.ValueIdx Cert.Spec

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

/-- The rank-1 index at a coordinate, in its two spellings. -/
private theorem ofFin_eq_ix1 {n : Nat} (k : Fin n) : Shape.Idx.ofFin k = ix1 k := by
  funext a
  match a with
  | ⟨0, _⟩ => exact Fin.ext rfl

/-- The label column of the scatter holds, at row n, the label of point n. -/
private theorem v27_col (n : Fin NP) : (val_main_v27 (F := Ideal) x2 (ix2 n 0)).toInt = lab x2 n := by
  have e : idx_main_v27 (ix2 n (0 : Fin 1)) = ix1 n := by
    funext a
    match a with
    | ⟨0, _⟩ => rfl
  rewrite [val_main_v27_apply, e]
  rfl

/-- The scatter starts from zero. -/
private theorem v26_zero (k : Fin 32) : (val_main_v26 (F := Ideal) (ix1 k) : EReal) = 0 := by
  rewrite [val_main_v26_apply, val_main_cst_4_apply, Ideal.ofBits_def, Ideal.ofBits_zero_f32]
  rfl

/-- Scalars added from zero into a vector at the entries an index column names: entry k is the sum over all
    rows of the row's update where the row's index word, read signed, is k, and of zero elsewhere. -/
private theorem scatter_ite {N n : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (x : FVec Ideal ⟨1, ![N]⟩ .f32) (idx : IVec ⟨2, ![n, 1]⟩ 32) (upd : FVec Ideal ⟨1, ![n]⟩ .f32)
    (a : Fin n → Int) (ha : ∀ i, (idx (ix2 i 0)).toInt = a i) (k : Fin N) (hx : (x (ix1 k) : EReal) = 0) :
    (Host.scatterAdd d x idx upd (ix1 k) : EReal)
      = ∑ i : Fin n, if a i = (k.val : Int) then (upd (ix1 i) : EReal) else 0 := by
  show Ideal.hostScatterAdd d x idx upd (ix1 k) = _
  rw [ScatterRead.scatterAdd_flat_apply d hu hi hs hv, hx, zero_add, Finset.sum_filter]
  exact Finset.sum_congr rfl fun i _ => if_congr (by rw [ha i]) rfl rfl

/-- The per-cluster sum of the squared deviations: the scatter by the label column is the indicator-weighted sum. -/
private theorem v28_apply (k : Fin 32) :
    (val_main_v28 (F := Ideal) x1 x2 (ix1 k) : EReal)
      = ∑ n : Fin NP, hotI (lab x2 n) k * (val_main_v25 (F := Ideal) x1 x2 (ix1 n) : EReal) :=
  (scatter_ite scatter_S32_S1000000x1_S1000000_n_0_0_1 rfl rfl rfl rfl (val_main_v26 (F := Ideal))
      (val_main_v27 (F := Ideal) x2) (val_main_v25 (F := Ideal) x1 x2) (lab x2) (v27_col x2) k (v26_zero k)).trans
    (Finset.sum_congr rfl fun n _ => (hotI_mul (lab x2 n) k _).symm)

/-- A label that is not negative is kept by the wrap-around of negative labels. -/
private theorem v21_apply_ok (hl : LabelsOK x2) (n : Fin NP) : val_main_v21 (F := Ideal) x2 (ix1 n) = x2 (ix1 n) := by
  have h0 : 0 ≤ (x2 (ix1 n)).toInt := (hl n).1
  have hlt : (x2 (ix1 n)).slt 0#32 = false := by
    rewrite [Bool.eq_false_iff]
    intro h
    rewrite [BitVec.slt_iff_toInt_lt, BitVec.toInt_zero] at h
    omega
  have hc : IntOp.cmpi .slt (x2 (ix1 n)) 0#32 = 0#1 := by
    show BitVec.ofBool ((x2 (ix1 n)).slt 0#32) = 0#1
    rewrite [hlt]
    rfl
  rewrite [val_main_v21_apply, val_main_v18_apply, val_main_v17_apply, val_main_c_apply, hc, select_zero]
  rfl

/-- A table of 32 entries read at a word clamped into the table, when the word, read signed, names an entry. -/
private theorem take_ok (v : S32.Idx → EReal) (w : BitVec 32) (a : Int) (h : 0 ≤ a ∧ a < 32) (hw : w.toInt = a)
    (hlt : min w.toInt.toNat (32 - 1) < 32) :
    v (Shape.Idx.ofFin ⟨min w.toInt.toNat (32 - 1), hlt⟩) = v (ix1 (cluOf a h)) := by
  have hk : (⟨min w.toInt.toNat (32 - 1), hlt⟩ : Fin 32) = cluOf a h := by
    apply Fin.ext
    show min w.toInt.toNat (32 - 1) = a.toNat
    omega
  rewrite [ofFin_eq_ix1, hk]
  rfl

/-- The gathered variance of point n is its own cluster's. -/
private theorem v23_apply (hl : LabelsOK x2) (n : Fin NP) :
    (val_main_v23 (F := Ideal) x1 x2 (ix1 n) : EReal) = vrR x1 x2 (cluOf (lab x2 n) (hl n)) := by
  have e : idx_main_v22 (StableHlo.Predicate.ixP n) = ix1 n := by
    funext a
    match a with
    | ⟨0, _⟩ => rfl
  have hv : (val_main_v22 (F := Ideal) x2 (StableHlo.Predicate.ixP n)).toInt = lab x2 n := by
    rewrite [val_main_v22_apply, e, v21_apply_ok x2 hl n]
    rfl
  unfold val_main_v23
  rewrite [← ofFin_eq_ix1, StableHlo.Predicate.gather_take gather_S32_S1000000x1_S1000000_n_0_n_n_0_1_1 rfl rfl rfl rfl _ _ n
    (by decide)]
  show val_main_v16 (F := Ideal) x1 x2 _ = val_main_v16 (F := Ideal) x1 x2 _
  generalize val_main_v16 (F := Ideal) x1 x2 = v
  exact take_ok v _ (lab x2 n) (hl n) hv _

/-- The variance of a point's own cluster, read off the indicator-weighted sum over the 32 clusters. -/
private theorem vcp_own (hl : LabelsOK x2) (n : Fin NP) :
    vcp (vrR x1 x2) (lab x2 n) = vrR x1 x2 (cluOf (lab x2 n) (hl n)) :=
  sum_hotI_mul (lab x2 n) (hl n) (vrR x1 x2)

/-- The squared deviation of point n, as the reference computes it. -/
private theorem v25_apply_sqd (hl : LabelsOK x2) (n : Fin NP) :
    (val_main_v25 (F := Ideal) x1 x2 (ix1 n) : EReal) = sqd (vrR x1 x2) (x1 (ix2 n 1)) (lab x2 n) := by
  have e : idx_main_v10 (idx_main_v11 (ix1 n)) = ix2 n 1 := by
    funext a
    match a with
    | ⟨0, _⟩ => exact Fin.ext (Nat.div_one _)
    | ⟨1, _⟩ => exact Fin.ext rfl
  rewrite [val_main_v25_apply, val_main_v24_apply, val_main_v12_apply, val_main_v11_apply, val_main_v10_apply, e,
    v23_apply x1 x2 hl n]
  unfold sqd
  rewrite [vcp_own x1 x2 hl n]
  simp only [Ideal.mulf_def, Ideal.subf_def, Ideal.hostUnary_exp_def]

/-- The per-cluster sum of the squared deviations, in the points' own terms. -/
private theorem v28_apply_sqd (hl : LabelsOK x2) (k : Fin 32) :
    (val_main_v28 (F := Ideal) x1 x2 (ix1 k) : EReal)
      = ∑ n : Fin NP, hotI (lab x2 n) k * sqd (vrR x1 x2) (x1 (ix2 n 1)) (lab x2 n) :=
  (v28_apply x1 x2 k).trans (Finset.sum_congr rfl fun n _ => by rw [v25_apply_sqd x1 x2 hl n])

/-- The sum over the 32 clusters of the per-cluster mean squared deviations. -/
private theorem v30_apply_sum (hl : LabelsOK x2) (i : S_.Idx) :
    (val_main_v30 (F := Ideal) x1 x2 i : EReal)
      = ∑ k : Fin 32, Ideal.div (∑ n : Fin NP, hotI (lab x2 n) k * sqd (vrR x1 x2) (x1 (ix2 n 1)) (lab x2 n))
          (cntR x2 k) := by
  refine (val_main_v30_apply x1 x2 i).trans ?_
  rewrite [val_main_cst_5_apply, Ideal.ofBits_def, Ideal.ofBits_zero_f32, zero_add]
  symm
  refine Finset.sum_nbij' (fun k : Fin 32 => (ix1 k : S32.Idx)) (fun j : S32.Idx => (j 0 : Fin 32))
    (fun _ _ => Finset.mem_univ _) (fun _ _ => Finset.mem_univ _) (fun _ _ => rfl) (fun j _ => (eq_ix1 j).symm) ?_
  intro k _
  rewrite [val_main_v29_apply, Ideal.hostDivf_def, v28_apply_sqd x1 x2 hl k]
  rfl

/-- The smoothness. -/
theorem smooth_apply (hl : LabelsOK x2) (i : S_.Idx) :
    (val_main_v31 (F := Ideal) x1 x2 i : EReal)
      = Ideal.div (∑ k : Fin 32, Ideal.div (∑ n : Fin NP, hotI (lab x2 n) k * sqd (vrR x1 x2) (x1 (ix2 n 1)) (lab x2 n))
            (cntR x2 k))
          (Ideal.ofBits .f32 0x42000000#32) := by
  rewrite [val_main_v31_apply, val_main_cst_6_apply, Ideal.hostDivf_def, Ideal.ofBits_def, v30_apply_sum x1 x2 hl i]
  rfl

end Cert.ReferenceIdeal.Val

end
-- ==== Proof.RValue.lean ====
/-
  The reference's result is the loss of the data.

  Its centroids, variances, squared norms and counts are the cluster statistics of the data; with them its three means
  are the cross-entropy mean, the smoothness and the seediness error mean; and its last stages are the shared tail.
-/
import proofs.«401601_j38319698215236_3_alg».proof.Proof.RefRead
import proofs.«401601_j38319698215236_3_alg».proof.Proof.RTail
import proofs.«401601_j38319698215236_3_alg».proof.Proof.RStats
import proofs.«401601_j38319698215236_3_alg».proof.Proof.RBce
import proofs.«401601_j38319698215236_3_alg».proof.Proof.RSeed
import proofs.«401601_j38319698215236_3_alg».proof.Proof.RSmooth
import proofs.«401601_j38319698215236_3_alg».proof.Proof.TailSpec

noncomputable section

namespace Cert.ReferenceIdeal.Val

open Cert.ReferenceIdeal Cert.ReferenceIdeal.Gen Cert.ReferenceIdeal.ReadP Idealize.ShloMosaic Idealize.ShloMosaic.ValueIdx Cert.Spec

variable (x0 : (⟨S1000000x16, .f32⟩ : BufTy).Contents (Elt Ideal)) (x1 : (⟨S1000000x2, .f32⟩ : BufTy).Contents (Elt Ideal))
  (x2 : (⟨S1000000, .i32⟩ : BufTy).Contents (Elt Ideal))

theorem cmR_eq : cmR x0 x2 = cmS x0 x1 x2 := funext fun k => funext fun d => cm_apply x0 x1 x2 k d
theorem vrR_eq : vrR x1 x2 = vrS x0 x1 x2 := funext fun k => vr_apply x0 x1 x2 k
theorem m2R_eq : m2R x0 x2 = m2S x0 x1 x2 := funext fun k => m2_apply x0 x1 x2 k
theorem cntR_eq : cntR x2 = cnt x0 x1 x2 := funext fun k => cnt_apply x0 x1 x2 k

/-- The centroid stage is the centroids of the data. -/
theorem cm_stage : val_main_v9 (F := Ideal) x0 x2 = Cert.Tail.cmV x0 x1 x2 := by
  funext i
  obtain ⟨k, d, rfl⟩ : ∃ (k : Fin 32) (d : Fin 16), i = ix2 k d := ⟨i 0, i 1, eq_ix2 i⟩
  exact cm_apply x0 x1 x2 k d

/-- Under labels in range, the reference's result is the loss of the data. -/
theorem ref_value (hl : LabelsOK x2) : val_main_v115 (F := Ideal) x0 x1 x2 = Cert.Tail.lossV x0 x1 x2 := by
  rw [tail_term, cm_stage x0 x1 x2]
  have hvl : val_main_v70 (F := Ideal) x0 x1 x2 = fun _ => Cert.Tail.varloss x0 x1 x2 := by
    funext i
    refine (varloss_apply x0 x1 x2 i).trans ?_
    rw [cmR_eq x0 x1 x2, vrR_eq x0 x1 x2, m2R_eq x0 x1 x2]
    try rfl
  have hsl : val_main_v79 (F := Ideal) x0 x1 x2 = fun _ => Cert.Tail.seedloss x0 x1 x2 := by
    funext i
    refine (seedloss_apply x0 x1 x2 hl i).trans ?_
    rw [cmR_eq x0 x1 x2, vrR_eq x0 x1 x2, m2R_eq x0 x1 x2]
    try rfl
  have hsm : val_main_v31 (F := Ideal) x1 x2 = fun _ => Cert.Tail.smooth x0 x1 x2 := by
    funext i
    refine (smooth_apply x1 x2 hl i).trans ?_
    rw [vrR_eq x0 x1 x2, cntR_eq x0 x1 x2]
    try rfl
  rw [hvl, hsl, hsm]
  rfl

end Cert.ReferenceIdeal.Val

end
-- ==== Proof.Pre.lean ====
/-
  The precondition says every label names one of the 32 clusters.

  The printed predicate is the conjunction of four "all" reductions: the two finiteness tests of the float inputs,
  "every label ≥ 0" and "every label < 32", each a signed word compare reduced by "and" over the points. Its value 1
  gives, point by point, 0 ≤ l[n] < 32 for the label read signed.
-/
import proofs.«401601_j38319698215236_3_alg».proof.Pre_finite_inputs
import proofs.«401601_j38319698215236_3_alg».proof.Proof.Gen.Pre_finite_inputs
import proofs.«401601_j38319698215236_3_alg».proof.Proof.Spec
import Idealize.ShloMosaic.Lib.ReduceAll
import Idealize.ShloMosaic.Lib.StableHlo.Predicate

noncomputable section

namespace Cert.PreVal

open Idealize.ShloMosaic Idealize.ShloMosaic.ValueIdx Cert.Spec

/-- The rank-0 shape has a single index. -/
instance subsingleton_scalar_idx : Subsingleton Cert.Pre_finite_inputs.S_.Idx :=
  ⟨fun _ _ => funext fun d => d.elim0⟩

/-- From the precondition's value: every label, read signed, lies in [0, 32). -/
theorem labels_ok (x0 : FVec Ideal Cert.Pre_finite_inputs.S1000000x16 .f32)
    (x1 : FVec Ideal Cert.Pre_finite_inputs.S1000000x2 .f32) (x2 : IVec Cert.Pre_finite_inputs.S1000000 32)
    (h : Cert.Pre_finite_inputs.fn (F := Ideal) x0 x1 x2 = fun _ => 1#1) : LabelsOK x2 := by
  have h0 := congrFun h ValueIdx.ix0
  dsimp only [Cert.Pre_finite_inputs.fn, Cert.Pre_finite_inputs.fn_part1] at h0
  -- the outer "and": (finiteness ∧ every label ≥ 0) and every label < 32
  obtain ⟨h12, h15⟩ := IntOp.andi_eq_one.1 h0
  obtain ⟨-, h11⟩ := IntOp.andi_eq_one.1 h12
  intro n
  -- each "all" holds at the point n
  have hge : IntOp.cmpi .sge (x2 (ix1 n)) 0#32 = 1#1 := Host.reduce_andi_all _ _ _ _ _ h11 (ix1 n)
  have hlt : IntOp.cmpi .slt (x2 (ix1 n)) 32#32 = 1#1 := Host.reduce_andi_all _ _ _ _ _ h15 (ix1 n)
  -- the signed word compares, read as integer inequalities
  rw [IntOp.cmpi_sge, show (0#32 : BitVec 32).toInt = 0 from by decide] at hge
  rw [IntOp.cmpi_slt, show (32#32 : BitVec 32).toInt = 32 from by decide] at hlt
  exact ⟨hge, hlt⟩

end Cert.PreVal

end
-- ==== Proof.lean ====
/-
  The certificate of a clustering loss.

  The kernel program pads the 1 000 000 points to 1 015 808, transposes them so that the points run along the lanes,
  and makes two passes over them in blocks, each pass split between two cores: the first accumulates, per cluster, the
  sums of the coordinates, of ones and of v = exp s₁ (a product of the 32-row cluster indicator with the 18-row extended
  feature); from these the host takes counts, centroids, cluster variances and the centroids' squared norms; the second
  accumulates the clamped cross-entropy of the probability map exp(−D²/2σ²) against the indicator, the squared error of
  each point's own probability against s₀, and per cluster the squared deviation of v from the cluster variance. The
  reference computes the same quantities with segment sums (accumulating scatters by the label), gathers by the label
  and sums over flat arrays. Over the extended reals the two agree: a product with the indicator is the term or zero,
  a padded point has no cluster and is not valid and so adds zero, and the sums differ only in their order. The labels
  must name one of the 32 clusters: that is the precondition's added conjunct, and the only part of it that is used.

  The three frames: the two kernel programs' are generated; the reference's is its run with the result dropped.
  Nothing was rewritten between the kernel and its idealization. The value claim: the kernel program's result buffer
  ends at the fold of its host operations and regions (the launch called again with the result named), which is the
  loss of the data; the reference's run ends at its last stage, which is the loss of the data.
-/
import proofs.«401601_j38319698215236_3_alg».proof.Defs
import proofs.«401601_j38319698215236_3_alg».proof.Proof.Gen.Kernel
import proofs.«401601_j38319698215236_3_alg».proof.Proof.Gen.Kernel.Frame
import proofs.«401601_j38319698215236_3_alg».proof.Proof.Gen.KernelIdeal
import proofs.«401601_j38319698215236_3_alg».proof.Proof.Gen.KernelIdeal.Frame
import proofs.«401601_j38319698215236_3_alg».proof.Proof.Gen.ReferenceIdeal
import proofs.«401601_j38319698215236_3_alg».proof.Proof.Gen.Pre_finite_inputs
import proofs.«401601_j38319698215236_3_alg».proof.Proof.KRun
import proofs.«401601_j38319698215236_3_alg».proof.Proof.KValue
import proofs.«401601_j38319698215236_3_alg».proof.Proof.RefRunH
import proofs.«401601_j38319698215236_3_alg».proof.Proof.RValue
import proofs.«401601_j38319698215236_3_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueH.run (F := Ideal) m ρ)

/-- Both programs end with the loss of the data in their result buffers. -/
theorem algebraic : Cert.algebraic_KernelIdeal_ReferenceIdeal := by
  intro m ρ m' ρ' hpre hagree
  have hl : ∀ c : Dev Cert.KernelIdeal.nD, Cert.Spec.LabelsOK (Cert.KernelIdeal.Val.lA m c) := fun c =>
    Cert.PreVal.labels_ok _ _ _ (hpre c)
  refine ⟨fun c => Cert.Tail.lossV (Cert.KernelIdeal.Val.xA m c) (Cert.KernelIdeal.Val.sA m c) (Cert.KernelIdeal.Val.lA m c), ?_, ?_⟩
  · refine (θ_run Cert.KernelIdeal.defs _ _).mono (fun _ h c => ⟨(h c).1.trans ?_, (h c).2⟩)
      (Cert.KernelIdeal.Gen.run_value (F := Ideal) m ρ)
    exact Cert.KernelIdeal.Val.kernel_value m ρ c (hl c)
  · refine (θ_run Cert.ReferenceIdeal.defs _ _).mono (fun _ h c => ⟨(h c).1.trans ?_, (h c).2⟩)
      (Cert.ReferenceIdeal.ValueH.run (F := Ideal) m' ρ')
    rw [(hagree c).1, (hagree c).2.1, (hagree c).2.2]
    exact Cert.ReferenceIdeal.Val.ref_value _ _ _ (hl c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
